-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S16384 : Shape := ⟨1, ![16384]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : IVec S16384 32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg4 main_v19
  let main_c_7 : IVec S_ 32 := constantI S_ 32 4#32
  let main_v21 : IVec S16384 32 := broadcastInDim S16384 ![] bcast_S_S16384 main_c_7
  let main_v22 : IVec S16384 1 := cmpi .slt main_arg4 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  main_v25

def fn {F : FTy → Type} [FloatOps F] (main_arg0 : FVec F S16384x1024 .f32) (main_arg1 : FVec F S4x1024x1024 .f32) (main_arg2 : FVec F S4x1024x1024 .f32) (main_arg3 : FVec F S4x1024x1024 .f32) (main_arg4 : IVec S16384 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024x1024 .f32 := Host.absf main_arg2
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  let main_c_3 : IVec S_ 1 := constantI S_ 1 1#1
  let main_v12 : IVec S_ 1 := (fun x v => Host.reduce IntOp.andi x v reducesTo_S4x1024x1024_S_d0_1_2 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_v13 main_v16
-- ==== Kernel.lean ====
abbrev S16384x1024 : Shape := ⟨2, ![16384, 1024]⟩
abbrev S4x1024x1024 : Shape := ⟨3, ![4, 1024, 1024]⟩
abbrev S16384 : Shape := ⟨1, ![16384]⟩
abbrev S4 : Shape := ⟨1, ![4]⟩
abbrev S16384x1 : Shape := ⟨2, ![16384, 1]⟩
abbrev S1x4 : Shape := ⟨2, ![1, 4]⟩
abbrev S16384x4 : Shape := ⟨2, ![16384, 4]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S18432x1024 : Shape := ⟨2, ![18432, 1024]⟩
abbrev S36 : Shape := ⟨1, ![36]⟩
abbrev S36x1 : Shape := ⟨2, ![36, 1]⟩
abbrev S36x4 : Shape := ⟨2, ![36, 4]⟩
abbrev S4x1024x2048 : Shape := ⟨3, ![4, 1024, 2048]⟩
abbrev S512x1024 : Shape := ⟨2, ![512, 1024]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S512x2048 : Shape := ⟨2, ![512, 2048]⟩
abbrev S1024x1024 : Shape := ⟨2, ![1024, 1024]⟩

abbrev nBuf : Space → Nat
  | .hbm => 174
  | .vmem => 8
  | .smem => 1
  | _ => 0

abbrev hbmTy0_0 (i : Nat) : BufTy := match i % 128 with
  | 0 => ⟨S16384x1024, .f32⟩
  | 1 => ⟨S4x1024x1024, .f32⟩
  | 2 => ⟨S4x1024x1024, .f32⟩
  | 3 => ⟨S4x1024x1024, .f32⟩
  | 4 => ⟨S16384, .i32⟩
  | 5 => ⟨S4, .i32⟩
  | 6 => ⟨S16384x1, .i32⟩
  | 7 => ⟨S1x4, .i32⟩
  | 8 => ⟨S16384x4, .i32⟩
  | 9 => ⟨S16384x4, .i32⟩
  | 10 => ⟨S16384x4, .i1⟩
  | 11 => ⟨S16384x4, .i32⟩
  | 12 => ⟨S_, .i32⟩
  | 13 => ⟨S4, .i32⟩
  | 14 => ⟨S_, .i32⟩
  | 15 => ⟨S4, .i32⟩
  | 16 => ⟨S4, .i32⟩
  | 17 => ⟨S_, .i32⟩
  | 18 => ⟨S4, .i32⟩
  | 19 => ⟨S4, .i32⟩
  | 20 => ⟨S_, .i32⟩
  | 21 => ⟨S_, .i32⟩
  | 22 => ⟨S4, .i32⟩
  | 23 => ⟨S4, .i32⟩
  | 24 => ⟨S4, .i32⟩
  | 25 => ⟨S_, .i32⟩
  | 26 => ⟨S4, .i32⟩
  | 27 => ⟨S4, .i1⟩
  | 28 => ⟨S4, .i32⟩
  | 29 => ⟨S4, .i32⟩
  | 30 => ⟨S_, .i32⟩
  | 31 => ⟨S4, .i32⟩
  | 32 => ⟨S4, .i1⟩
  | 33 => ⟨S4, .i1⟩
  | 34 => ⟨S_, .i32⟩
  | 35 => ⟨S4, .i32⟩
  | 36 => ⟨S4, .i32⟩
  | 37 => ⟨S4, .i32⟩
  | 38 => ⟨S_, .i32⟩
  | 39 => ⟨S4, .i32⟩
  | 40 => ⟨S4, .i32⟩
  | 41 => ⟨S_, .i32⟩
  | 42 => ⟨S_, .i32⟩
  | 43 => ⟨S4, .i32⟩
  | 44 => ⟨S4, .i32⟩
  | 45 => ⟨S_, .i32⟩
  | 46 => ⟨S_, .i32⟩
  | 47 => ⟨S16384x4, .i32⟩
  | 48 => ⟨S16384x1, .i32⟩
  | 49 => ⟨S_, .i32⟩
  | 50 => ⟨S16384x1, .i32⟩
  | 51 => ⟨S16384x1, .i1⟩
  | 52 => ⟨S_, .i32⟩
  | 53 => ⟨S16384x1, .i32⟩
  | 54 => ⟨S16384x1, .i32⟩
  | 55 => ⟨S16384x1, .i32⟩
  | 56 => ⟨S16384x1x1, .i32⟩
  | 57 => ⟨S1, .i32⟩
  | 58 => ⟨S_, .i32⟩
  | 59 => ⟨S16384x1x1, .i32⟩
  | 60 => ⟨S16384x1x1, .i1⟩
  | 61 => ⟨S1x1x1, .i32⟩
  | 62 => ⟨S16384x1x1, .i32⟩
  | 63 => ⟨S16384x1x1, .i1⟩
  | 64 => ⟨S16384x1x1, .i1⟩
  | 65 => ⟨S_, .i1⟩
  | 66 => ⟨S16384x1, .i1⟩
  | 67 => ⟨S16384x1, .i32⟩
  | 68 => ⟨S_, .i32⟩
  | 69 => ⟨S16384x1, .i32⟩
  | 70 => ⟨S16384x1, .i32⟩
  | 71 => ⟨S16384, .i32⟩
  | 72 => ⟨S_, .i32⟩
  | 73 => ⟨S16384, .i32⟩
  | 74 => ⟨S16384, .i32⟩
  | 75 => ⟨S_, .i32⟩
  | 76 => ⟨S16384, .i32⟩
  | 77 => ⟨S16384, .i1⟩
  | 78 => ⟨S_, .i32⟩
  | 79 => ⟨S16384, .i32⟩
  | 80 => ⟨S16384, .i32⟩
  | 81 => ⟨S16384, .i32⟩
  | 82 => ⟨S16384x1, .i32⟩
  | 83 => ⟨S16384, .i32⟩
  | 84 => ⟨S16384, .i32⟩
  | 85 => ⟨S_, .i32⟩
  | 86 => ⟨S_, .i32⟩
  | 87 => ⟨S_, .i32⟩
  | 88 => ⟨S16384, .i32⟩
  | 89 => ⟨S16384, .i32⟩
  | 90 => ⟨S_, .i32⟩
  | 91 => ⟨S16384, .i32⟩
  | 92 => ⟨S16384, .i32⟩
  | 93 => ⟨S16384x1024, .bf16⟩
  | 94 => ⟨S_, .bf16⟩
  | 95 => ⟨S18432x1024, .bf16⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S18432x1024, .bf16⟩
  | 105 => ⟨S_, .i32⟩
  | 106 => ⟨S_, .i32⟩
  | 107 => ⟨S4, .i32⟩
  | 108 => ⟨S4, .i32⟩
  | 109 => ⟨S4, .i32⟩
  | 110 => ⟨S_, .i32⟩
  | 111 => ⟨S4, .i32⟩
  | 112 => ⟨S4, .i1⟩
  | 113 => ⟨S4, .i32⟩
  | 114 => ⟨S4, .i32⟩
  | 115 => ⟨S_, .i32⟩
  | 116 => ⟨S4, .i32⟩
  | 117 => ⟨S4, .i1⟩
  | 118 => ⟨S4, .i1⟩
  | 119 => ⟨S_, .i32⟩
  | 120 => ⟨S4, .i32⟩
  | 121 => ⟨S4, .i32⟩
  | 122 => ⟨S4, .i32⟩
  | 123 => ⟨S_, .i32⟩
  | 124 => ⟨S_, .i32⟩
  | 125 => ⟨S4, .i32⟩
  | 126 => ⟨S4, .i32⟩
  | 127 => ⟨S4, .i32⟩
  | _ => ⟨S16384x1024, .f32⟩

abbrev hbmTy0_1 (i : Nat) : BufTy := match i % 128 with
  | 0 => ⟨S_, .i32⟩
  | 1 => ⟨S4, .i32⟩
  | 2 => ⟨S4, .i1⟩
  | 3 => ⟨S4, .i32⟩
  | 4 => ⟨S4, .i32⟩
  | 5 => ⟨S_, .i32⟩
  | 6 => ⟨S4, .i32⟩
  | 7 => ⟨S4, .i1⟩
  | 8 => ⟨S4, .i1⟩
  | 9 => ⟨S_, .i32⟩
  | 10 => ⟨S4, .i32⟩
  | 11 => ⟨S4, .i32⟩
  | 12 => ⟨S4, .i32⟩
  | 13 => ⟨S36, .i32⟩
  | 14 => ⟨S36x1, .i32⟩
  | 15 => ⟨S1x4, .i32⟩
  | 16 => ⟨S36x4, .i32⟩
  | 17 => ⟨S36x4, .i32⟩
  | 18 => ⟨S36x4, .i1⟩
  | 19 => ⟨S36x1, .i32⟩
  | 20 => ⟨S4, .i32⟩
  | 21 => ⟨S1x4, .i32⟩
  | 22 => ⟨S36x4, .i32⟩
  | 23 => ⟨S36x4, .i32⟩
  | 24 => ⟨S36x4, .i1⟩
  | 25 => ⟨S36x4, .i1⟩
  | 26 => ⟨S36x4, .i32⟩
  | 27 => ⟨S1x4, .i32⟩
  | 28 => ⟨S36x4, .i32⟩
  | 29 => ⟨S36x4, .i32⟩
  | 30 => ⟨S_, .i32⟩
  | 31 => ⟨S4x1024x1024, .bf16⟩
  | 32 => ⟨S4x1024x1024, .bf16⟩
  | 33 => ⟨S4x1024x2048, .bf16⟩
  | 34 => ⟨S4x1024x1024, .bf16⟩
  | 35 => ⟨S18432x1024, .bf16⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x1024, .bf16⟩
  | 45 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S512x1024, .bf16⟩
  | .local _ .vmem, ⟨7, _⟩ => ⟨S512x1024, .bf16⟩
  | .local _ .smem, ⟨0, _⟩ => ⟨S36, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_call1_call0_c : Ref sig .tc := ⟨.hbm, 41, rfl⟩
abbrev main_call1_call0_v0 : Ref sig .tc := ⟨.hbm, 42, rfl⟩
abbrev main_v15 : Ref sig .tc := ⟨.hbm, 43, rfl⟩
abbrev main_v16 : Ref sig .tc := ⟨.hbm, 44, rfl⟩
abbrev main_call2_call0_c : Ref sig .tc := ⟨.hbm, 45, rfl⟩
abbrev main_call2_call0_v0 : Ref sig .tc := ⟨.hbm, 46, rfl⟩
abbrev main_v17 : Ref sig .tc := ⟨.hbm, 47, rfl⟩
abbrev main_v18 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_c_4 : Ref sig .tc := ⟨.hbm, 68, rfl⟩
abbrev main_call3_v14 : Ref sig .tc := ⟨.hbm, 69, rfl⟩
abbrev main_v19 : Ref sig .tc := ⟨.hbm, 70, rfl⟩
abbrev main_v20 : Ref sig .tc := ⟨.hbm, 71, rfl⟩
abbrev main_c_4 : Ref sig .tc := ⟨.hbm, 72, rfl⟩
abbrev main_v21 : Ref sig .tc := ⟨.hbm, 73, rfl⟩
abbrev main_v22 : Ref sig .tc := ⟨.hbm, 74, rfl⟩
abbrev main_c_5 : Ref sig .tc := ⟨.hbm, 75, rfl⟩
abbrev main_v23 : Ref sig .tc := ⟨.hbm, 76, rfl⟩
abbrev main_v24 : Ref sig .tc := ⟨.hbm, 77, rfl⟩
abbrev main_c_6 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_c_7 : Ref sig .tc := ⟨.hbm, 85, rfl⟩
abbrev main_c_8 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_v31 : Ref sig .tc := ⟨.hbm, 92, rfl⟩
abbrev main_v32 : Ref sig .tc := ⟨.hbm, 93, rfl⟩
abbrev main_cst : Ref sig .tc := ⟨.hbm, 94, rfl⟩
abbrev main_v33 : Ref sig .tc := ⟨.hbm, 95, rfl⟩
abbrev main_c_9 : Ref sig .tc := ⟨.hbm, 96, rfl⟩
abbrev main_v34 : Ref sig .tc := ⟨.hbm, 97, rfl⟩
abbrev main_v35 : Ref sig .tc := ⟨.hbm, 98, rfl⟩
abbrev main_c_10 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_c_11 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_c : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_c_0 : Ref sig .tc := ⟨.hbm, 119, rfl⟩
abbrev main_call5_v12 : Ref sig .tc := ⟨.hbm, 120, rfl⟩
abbrev main_call5_v13 : Ref sig .tc := ⟨.hbm, 121, rfl⟩
abbrev main_v41 : Ref sig .tc := ⟨.hbm, 122, rfl⟩
abbrev main_c_12 : Ref sig .tc := ⟨.hbm, 123, rfl⟩
abbrev main_call6_v0 : Ref sig .tc := ⟨.hbm, 124, rfl⟩
abbrev main_call6_v1 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_call6_v5 : Ref sig .tc := ⟨.hbm, 129, rfl⟩
abbrev main_call6_v6 : Ref sig .tc := ⟨.hbm, 130, rfl⟩
abbrev main_call6_v7 : Ref sig .tc := ⟨.hbm, 131, rfl⟩
abbrev main_call6_v8 : Ref sig .tc := ⟨.hbm, 132, rfl⟩
abbrev main_call6_c : Ref sig .tc := ⟨.hbm, 133, rfl⟩
abbrev main_call6_v9 : Ref sig .tc := ⟨.hbm, 134, rfl⟩
abbrev main_call6_v10 : Ref sig .tc := ⟨.hbm, 135, rfl⟩
abbrev main_call6_v11 : Ref sig .tc := ⟨.hbm, 136, rfl⟩
abbrev main_call6_c_0 : Ref sig .tc := ⟨.hbm, 137, rfl⟩
abbrev main_call6_v12 : Ref sig .tc := ⟨.hbm, 138, rfl⟩
abbrev main_call6_v13 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_v52 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_c_13 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_c_14 : Ref sig .tc := ⟨.hbm, 164, rfl⟩
abbrev main_v66 : Ref sig .tc := ⟨.hbm, 165, rfl⟩
abbrev main_v67 : Ref sig .tc := ⟨.hbm, 166, rfl⟩
abbrev main_c_15 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v60 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![36], ![false]⟩

abbrev pre0 : Pipeline.Prefetch sig := ⟨1, ![main_v60.idx], fun | 0 => main_v60.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S16384_S16384x1_0 : S16384.BroadcastsInDim S16384x1 (![0] : Fin 1 → Fin S16384x1.rank)
  bcast_S4_S1x4_1 : S4.BroadcastsInDim S1x4 (![1] : Fin 1 → Fin S1x4.rank)
  bcast_S16384x1_S16384x4_0_1 : S16384x1.BroadcastsInDim S16384x4 (![0, 1] : Fin 2 → Fin S16384x4.rank)
  bcast_S1x4_S16384x4_0_1 : S1x4.BroadcastsInDim S16384x4 (![0, 1] : Fin 2 → Fin S16384x4.rank)
  natLt_1_32 : 1 < 32
  reducesTo_S16384x4_S4_d0 : S16384x4.ReducesTo [0] S4
  h_S_ : 0 < S_.numel
  bcast_S_S4 : S_.BroadcastsInDim S4 (![] : Fin 0 → Fin S4.rank)
  bcast_S_S_ : S_.BroadcastsInDim S_ (![] : Fin 0 → Fin S_.rank)
  reduceWindows_S4_S4_w4s1p3_0 : S4.ReduceWindows (![4] : Fin 1 → Nat) ![1] ![3] ![0] S4
  reduceWindows_S16384x4_S16384x4_w16384s1p16383_0_w1s1p0_0 : S16384x4.ReduceWindows (![16384, 1] : Fin 2 → Nat) ![1, 1] ![16383, 0] ![0, 0] S16384x4
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  bitsLt_bf16_f32 : FTy.bits .bf16 < FTy.bits .f32
  bcast_S_S18432x1024 : S_.BroadcastsInDim S18432x1024 (![] : Fin 0 → Fin S18432x1024.rank)
  bcast_S36_S36x1_0 : S36.BroadcastsInDim S36x1 (![0] : Fin 1 → Fin S36x1.rank)
  bcast_S36x1_S36x4_0_1 : S36x1.BroadcastsInDim S36x4 (![0, 1] : Fin 2 → Fin S36x4.rank)
  bcast_S1x4_S36x4_0_1 : S1x4.BroadcastsInDim S36x4 (![0, 1] : Fin 2 → Fin S36x4.rank)
  reducesTo_S36x4_S36_d1 : S36x4.ReducesTo [1] S36
  concatenates_S4x1024x1024_S4x1024x1024_S4x1024x2048_d2 : Shape.Concatenates [S4x1024x1024, S4x1024x1024] S4x1024x2048 2
  numel1_S1 : S1.numel = 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  slices_S512x2048_o0_0_S512x1024 : S512x2048.Slices ![0, 0] S512x1024
  slices_S512x2048_o0_1024_S512x1024 : S512x2048.Slices ![0, 1024] S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  packedbf16_S512x1024_S512x1024_0_0 : (Rect.unit (s := S512x1024) ![0, 0] S512x1024.size inb_S512x1024_S512x1024_0_0).PackedRows (EltTy.packing .bf16)
  gather_S16384x4_S16384x1x1_S16384x1_n_1_0_0_1_2_11_wf : GatherDims.WF S16384x4 S16384x1x1 S16384x1 [] [1] [0] [1] [0] 2 ![1, 1]
  gather_S4_S16384x1_S16384_n_0_n_n_0_1_1_wf : GatherDims.WF S4 S16384x1 S16384 [] [0] [] [0] [] 1 ![1]
  scatter_S18432x1024_S16384x1_S16384x1024_1_0_0_1_wf : ScatterDims.WF S18432x1024 S16384x1 S16384x1024 [1] [0] [0] 1
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  gather_S18432x1024_S16384x1_S16384x1024_1_0_n_n_0_1_11024_wf : GatherDims.WF S18432x1024 S16384x1 S16384x1024 [1] [0] [] [0] [] 1 ![1, 1024]
  hrank0 : 0 < grid0.rank
  k0_off1_inb : ∀ i : grid0.Coords, ∀ a, (k0_off1 i) a + S1.size a ≤ S36.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S18432x1024.size a
  hwx0_0 : ∀ i : grid0.Coords, EltTy.bits .bf16 = 32 ∨ (Rect.block (s := S18432x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S18432x1024.size a
  hwx0_3 : ∀ i : grid0.Coords, EltTy.bits .bf16 = 32 ∨ (Rect.block (s := S18432x1024) S512x1024.size (cc0_transform_3 i) (hinb0_3 i)).WholeWords (EltTy.packing .bf16)

variable [Facts₀]

def gather_S16384x4_S16384x1x1_S16384x1_n_1_0_0_1_2_11 : GatherDims S16384x4 S16384x1x1 S16384x1 where
  offsetDims := []
  collapsedSliceDims := [1]
  operandBatchingDims := [0]
  startIndicesBatchingDims := [0]
  startIndexMap := [1]
  indexVectorDim := 2
  sliceSizes := ![1, 1]
  wf := gather_S16384x4_S16384x1x1_S16384x1_n_1_0_0_1_2_11_wf
def gather_S4_S16384x1_S16384_n_0_n_n_0_1_1 : GatherDims S4 S16384x1 S16384 where
  offsetDims := []
  collapsedSliceDims := [0]
  operandBatchingDims := []
  startIndicesBatchingDims := []
  startIndexMap := [0]
  indexVectorDim := 1
  sliceSizes := ![1]
  wf := gather_S4_S16384x1_S16384_n_0_n_n_0_1_1_wf
def scatter_S18432x1024_S16384x1_S16384x1024_1_0_0_1 : ScatterDims S18432x1024 S16384x1 S16384x1024 where
  updateWindowDims := [1]
  insertedWindowDims := [0]
  scatterDimsToOperandDims := [0]
  indexVectorDim := 1
  wf := scatter_S18432x1024_S16384x1_S16384x1024_1_0_0_1_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def gather_S18432x1024_S16384x1_S16384x1024_1_0_n_n_0_1_11024 : GatherDims S18432x1024 S16384x1 S16384x1024 where
  offsetDims := [1]
  collapsedSliceDims := [0]
  operandBatchingDims := []
  startIndicesBatchingDims := []
  startIndexMap := [0]
  indexVectorDim := 1
  sliceSizes := ![1, 1024]
  wf := gather_S18432x1024_S16384x1_S16384x1024_1_0_n_n_0_1_11024_wf

abbrev spec0_0 : Pipeline.WinSpec sig grid0.rank :=
  Pipeline.WinSpec.ofSpec (Memref.whole main_v40) S512x1024.size reads0_0 false false 2 stage0_0 sem0_0 nbuf0_0 hstage0_0

abbrev spec0_1 : Pipeline.WinSpec sig grid0.rank :=
  Pipeline.WinSpec.ofSpec (Memref.whole main_v63) S1x1024x2048.size reads0_1 false false 2 stage0_1 sem0_1 nbuf0_1 hstage0_1

abbrev spec0_2 : Pipeline.WinSpec sig grid0.rank :=
  Pipeline.WinSpec.ofSpec (Memref.whole main_v64) S1x1024x1024.size reads0_2 false false 2 stage0_2 sem0_2 nbuf0_2 hstage0_2

abbrev spec0_3 : Pipeline.WinSpec sig grid0.rank :=
  Pipeline.WinSpec.ofSpec (Memref.whole main_v65) S512x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x2048.size a ≤ S4x1024x2048.size a), EltTy.bits .bf16 = 32 ∨ (Rect.block (s := S4x1024x2048) S1x1024x2048.size (cc0_transform_1 k0_off1_inb numel1_S1 pf i) h).WholeWords (EltTy.packing .bf16)) ∧
  (∀ i : grid0.Coords, ∃ h : (∀ a, (cc0_transform_2 k0_off1_inb numel1_S1 pf i a + 1) * S1x1024x1024.size a ≤ S4x1024x1024.size a), EltTy.bits .bf16 = 32 ∨ (Rect.block (s := S4x1024x1024) S1x1024x1024.size (cc0_transform_2 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16384x1024 : Shape := ⟨2, ![16384, 1024]⟩
abbrev S4x1024x1024 : Shape := ⟨3, ![4, 1024, 1024]⟩
abbrev S16384 : Shape := ⟨1, ![16384]⟩
abbrev S_ : Shape := ⟨0, ![]⟩
abbrev S1x1024x1024 : Shape := ⟨3, ![1, 1024, 1024]⟩
abbrev S1024x1024 : Shape := ⟨2, ![1024, 1024]⟩
abbrev S16384x1 : Shape := ⟨2, ![16384, 1]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S16384, .i32⟩
  | .hbm, ⟨5, _⟩ => ⟨S_, .f32⟩
  | .hbm, ⟨6, _⟩ => ⟨S16384x1024, .f32⟩
  | .hbm, ⟨7, _⟩ => ⟨S1x1024x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1x1024x1024, .f32⟩
  | .hbm, ⟨20, _⟩ => ⟨S1024x1024, .f32⟩
  | .hbm, ⟨21, _⟩ => ⟨S16384x1024, .f32⟩
  | .hbm, ⟨22, _⟩ => ⟨S16384x1024, .f32⟩
  | .hbm, ⟨23, _⟩ => ⟨S1x1024x1024, .f32⟩
  | .hbm, ⟨24, _⟩ => ⟨S1024x1024, .f32⟩
  | .hbm, ⟨25, _⟩ => ⟨S16384x1024, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S16384x1, .i1⟩
  | .hbm, ⟨30, _⟩ => ⟨S_, .f32⟩
  | .hbm, ⟨31, _⟩ => ⟨S_, .f32⟩
  | .hbm, ⟨32, _⟩ => ⟨S16384x1024, .i1⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1x1024x1024, .f32⟩
  | .hbm, ⟨37, _⟩ => ⟨S1024x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1x1024x1024, .f32⟩
  | .hbm, ⟨49, _⟩ => ⟨S1024x1024, .f32⟩
  | .hbm, ⟨50, _⟩ => ⟨S16384x1024, .f32⟩
  | .hbm, ⟨51, _⟩ => ⟨S16384x1024, .f32⟩
  | .hbm, ⟨52, _⟩ => ⟨S1x1024x1024, .f32⟩
  | .hbm, ⟨53, _⟩ => ⟨S1024x1024, .f32⟩
  | .hbm, ⟨54, _⟩ => ⟨S16384x1024, .f32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S16384x1, .i1⟩
  | .hbm, ⟨59, _⟩ => ⟨S_, .f32⟩
  | .hbm, ⟨60, _⟩ => ⟨S_, .f32⟩
  | .hbm, ⟨61, _⟩ => ⟨S16384x1024, .i1⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S1x1024x1024, .f32⟩
  | .hbm, ⟨66, _⟩ => ⟨S1024x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S1x1024x1024, .f32⟩
  | .hbm, ⟨78, _⟩ => ⟨S1024x1024, .f32⟩
  | .hbm, ⟨79, _⟩ => ⟨S16384x1024, .f32⟩
  | .hbm, ⟨80, _⟩ => ⟨S16384x1024, .f32⟩
  | .hbm, ⟨81, _⟩ => ⟨S1x1024x1024, .f32⟩
  | .hbm, ⟨82, _⟩ => ⟨S1024x1024, .f32⟩
  | .hbm, ⟨83, _⟩ => ⟨S16384x1024, .f32⟩
  | .hbm, ⟨84, _⟩ => ⟨S_, .i32⟩
  | .hbm, ⟨85, _⟩ => ⟨S16384, .i32⟩
  | .hbm, ⟨86, _⟩ => ⟨S16384, .i1⟩
  | .hbm, ⟨87, _⟩ => ⟨S16384x1, .i1⟩
  | .hbm, ⟨88, _⟩ => ⟨S_, .f32⟩
  | .hbm, ⟨89, _⟩ => ⟨S_, .f32⟩
  | .hbm, ⟨90, _⟩ => ⟨S16384x1024, .i1⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S1x1024x1024, .f32⟩
  | .hbm, ⟨95, _⟩ => ⟨S1024x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S_, .f32⟩
  | .hbm, ⟨100, _⟩ => ⟨S16384x1024, .f32⟩
  | .hbm, ⟨101, _⟩ => ⟨S16384x1024, .f32⟩
  | .hbm, ⟨102, _⟩ => ⟨S_, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S1x1024x1024, .f32⟩
  | .hbm, ⟨107, _⟩ => ⟨S1024x1024, .f32⟩
  | .hbm, ⟨108, _⟩ => ⟨S16384x1024, .f32⟩
  | .hbm, ⟨109, _⟩ => ⟨S16384x1024, .f32⟩
  | .hbm, ⟨110, _⟩ => ⟨S1x1024x1024, .f32⟩
  | .hbm, ⟨111, _⟩ => ⟨S1024x1024, .f32⟩
  | .hbm, ⟨112, _⟩ => ⟨S16384x1024, .f32⟩
  | .hbm, ⟨113, _⟩ => ⟨S_, .i32⟩
  | .hbm, ⟨114, _⟩ => ⟨S16384, .i32⟩
  | .hbm, ⟨115, _⟩ => ⟨S16384, .i1⟩
  | .hbm, ⟨116, _⟩ => ⟨S16384x1, .i1⟩
  | .hbm, ⟨117, _⟩ => ⟨S_, .f32⟩
  | .hbm, ⟨118, _⟩ => ⟨S_, .f32⟩
  | .hbm, ⟨119, _⟩ => ⟨S16384x1024, .i1⟩
  | .hbm, ⟨120, _⟩ => ⟨S16384x1024, .f32⟩
  | .hbm, ⟨121, _⟩ => ⟨S16384x1024, .f32⟩
  | .hbm, ⟨122, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_1 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_2 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_call4_v0 : Ref sig .tc := ⟨.hbm, 68, rfl⟩
abbrev main_call4_v1 : Ref sig .tc := ⟨.hbm, 69, rfl⟩
abbrev main_call4_cst : Ref sig .tc := ⟨.hbm, 70, rfl⟩
abbrev main_call4_v2 : Ref sig .tc := ⟨.hbm, 71, rfl⟩
abbrev main_call4_v3 : Ref sig .tc := ⟨.hbm, 72, rfl⟩
abbrev main_call4_cst_0 : Ref sig .tc := ⟨.hbm, 73, rfl⟩
abbrev main_call4_v4 : Ref sig .tc := ⟨.hbm, 74, rfl⟩
abbrev main_call4_v5 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_3 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_4 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_call6_v0 : Ref sig .tc := ⟨.hbm, 97, rfl⟩
abbrev main_call6_v1 : Ref sig .tc := ⟨.hbm, 98, rfl⟩
abbrev main_call6_cst : Ref sig .tc := ⟨.hbm, 99, rfl⟩
abbrev main_call6_v2 : Ref sig .tc := ⟨.hbm, 100, rfl⟩
abbrev main_call6_v3 : Ref sig .tc := ⟨.hbm, 101, rfl⟩
abbrev main_call6_cst_0 : Ref sig .tc := ⟨.hbm, 102, rfl⟩
abbrev main_call6_v4 : Ref sig .tc := ⟨.hbm, 103, rfl⟩
abbrev main_call6_v5 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_c_5 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_6 : Ref sig .tc := ⟨.hbm, 117, rfl⟩
abbrev main_call7_v0 : Ref sig .tc := ⟨.hbm, 118, rfl⟩
abbrev main_call7_v1 : Ref sig .tc := ⟨.hbm, 119, rfl⟩
abbrev main_call7_v2 : Ref sig .tc := ⟨.hbm, 120, rfl⟩
abbrev main_v63 : Ref sig .tc := ⟨.hbm, 121, rfl⟩
abbrev main_v64 : Ref sig .tc := ⟨.hbm, 122, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  slices_S4x1024x1024_S1x1024x1024_0_0_0 : S4x1024x1024.Slices ![0, 0, 0] S1x1024x1024
  shapeCasts_S1x1024x1024_S1024x1024 : S1x1024x1024.ShapeCasts S1024x1024
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  slices_S4x1024x1024_S1x1024x1024_1_0_0 : S4x1024x1024.Slices ![1, 0, 0] S1x1024x1024
  slices_S4x1024x1024_S1x1024x1024_2_0_0 : S4x1024x1024.Slices ![2, 0, 0] S1x1024x1024
  slices_S4x1024x1024_S1x1024x1024_3_0_0 : S4x1024x1024.Slices ![3, 0, 0] S1x1024x1024
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.RefImports.lean ====
/-
  The reference's run and its stages read at an index are taken from the generated modules; this module only brings them in.
-/
import proofs.«400824_j17051020165276_3_alg».proof.Proof.Gen.ReferenceIdeal.Run
import proofs.«400824_j17051020165276_3_alg».proof.Proof.Gen.ReferenceIdeal.Read
-- ==== Proof.Spec.lean ====
/-
  The value both programs compute for one token, over the extended reals: the gated feed-forward block of the
  token's segment.  For a token's row `x` (1024 entries) and the segment's three weight matrices `g`, `u`
  (1024 × 1024 each, read as input × hidden) and `d` (hidden × output), output entry `j` is
      Σ_h  (a_h · logistic a_h · b_h) · d h j,   a_h = Σ_k x k · g k h,   b_h = Σ_k x k · u k h,
  every sum a finite sum of extended reals in the index's order, every product taken in the order written.
-/
import Idealize.ShloMosaic.PureOps.Ideal
import Mathlib.Algebra.BigOperators.Group.Finset.Basic

noncomputable section

namespace Cert.Spec

open Idealize.ShloMosaic

/-- The gated feed-forward block of one segment at one token row. -/
def ffn (x : Fin 1024 → EReal) (g u d : Fin 1024 → Fin 1024 → EReal) (j : Fin 1024) : EReal :=
  ∑ h : Fin 1024, ((∑ k : Fin 1024, x k * g k h) * Ideal.logistic (∑ k : Fin 1024, x k * g k h) * (∑ k : Fin 1024, x k * u k h)) * d h j

end Cert.Spec

end
-- ==== Proof.RefValue.lean ====
/-
  The reference's result at one index, at the ideal instance.  For each of the four segments the reference forms the
  gated feed-forward block densely over all tokens, keeps it where the token's segment number is that segment and puts
  zero elsewhere, and adds the four masked arrays to a zero array.  Read at token `n` and output entry `j`, the block
  of segment `t` is `Cert.Spec.ffn` of the token's row and segment `t`'s three weight matrices: the three products are
  the sums the specification writes, and the expansion `z * (1 / (1 + exp (-z)))` of the gate's activation is
  `z * Ideal.logistic z` by definition.  When the token's segment number is `s`, the compare of segment `t` is one
  for `t = s` and zero otherwise, so the accumulation `(((0 + a₀) + a₁) + a₂) + a₃` has the single term `a_s` that is
  not zero, and the result is the block of segment `s`.
-/
import proofs.«400824_j17051020165276_3_alg».proof.Proof.Gen.ReferenceIdeal.Read
import proofs.«400824_j17051020165276_3_alg».proof.Proof.Spec
import Idealize.ShloMosaic.Lib.ValueIdx
import Idealize.ShloMosaic.Lib.IdealHost
import Idealize.ShloMosaic.PureOps.Ideal
import Mathlib.Tactic.FinCases

noncomputable section

namespace Cert.ReferenceIdeal.RefValue

open Idealize.ShloMosaic Idealize.ShloMosaic.ValueIdx Cert.ReferenceIdeal Cert.ReferenceIdeal.Read

/-- The gate's activation as the reference spells it: `z * (1 / (1 + exp (-z)))` with both ones the f32 pattern of
    one, times the up projection, is `z * logistic z * b`. -/
theorem silu_mul (a b : Ideal .f32) :
    FloatOps.mulf (FloatOps.mulf a (FloatOps.hostDivf (FloatOps.ofBits (F := Ideal) .f32 0x3F800000#32)
        (FloatOps.addf (FloatOps.ofBits (F := Ideal) .f32 0x3F800000#32) (FloatOps.hostUnary .exp (FloatOps.hostNegf a))))) b
      = a * Ideal.logistic a * b := by
  rw [Ideal.ofBits_def, Ideal.ofBits_one_f32]
  rfl

/-- The row of the flat position `k * 1024 + h` in a matrix of 1024 columns. -/
theorem div_1024 (k h : Fin 1024) : (k.val * 1024 + h.val) / 1024 % 1024 = k.val := by omega
/-- The column of the flat position `k * 1024 + h` in a matrix of 1024 columns. -/
theorem mod_1024 (k h : Fin 1024) : (k.val * 1024 + h.val) % 1024 = h.val := by omega

/- Two indices of rank one, two or three are equal when their coordinates are.  In the three tactics below every
   coordinate agrees by unfolding, or, for a matrix read through its flat position, by the two facts above. -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by
      match a with | ⟨0, _⟩ => rfl | ⟨1, _⟩ => exact div_1024 _ _ | ⟨2, _⟩ => exact mod_1024 _ _))

section Stages

variable (x0 : (⟨S16384x1024, .f32⟩ : BufTy).Contents (Elt Ideal))
  (x1 x2 x3 : (⟨S4x1024x1024, .f32⟩ : BufTy).Contents (Elt Ideal))
  (x4 : (⟨S16384, .i32⟩ : BufTy).Contents (Elt Ideal))

/-- The zero array the accumulation starts from. -/
theorem acc_zero (i : S16384x1024.Idx) : val_main_v0 (F := Ideal) i = 0 := by
  rw [val_main_v0_apply, val_main_cst_apply, Ideal.ofBits_def, Ideal.ofBits_zero_f32]

/-! ## Segment 0 -/

/-- Segment 0's slice of the gate weights, as a matrix. -/
theorem gw0 (k h : Fin 1024) : val_main_v2 (F := Ideal) x1 (ix2 k h) = x1 (ix3 (0 : Fin 4) k h) := by
  rw [val_main_v2_apply, val_main_v1_apply]; exact congrArg x1 (by idx3)

/-- Segment 0's slice of the up weights. -/
theorem uw0 (k h : Fin 1024) : val_main_v6 (F := Ideal) x2 (ix2 k h) = x2 (ix3 (0 : Fin 4) k h) := by
  rw [val_main_v6_apply, val_main_v5_apply]; exact congrArg x2 (by idx3)

/-- Segment 0's slice of the down weights. -/
theorem dw0 (h j : Fin 1024) : val_main_v10 (F := Ideal) x3 (ix2 h j) = x3 (ix3 (0 : Fin 4) h j) := by
  rw [val_main_v10_apply, val_main_v9_apply]; exact congrArg x3 (by idx3)

/-- Segment 0's gate projection at token `n`, hidden entry `h`. -/
theorem gate0 (n : Fin 16384) (h : Fin 1024) :
    val_main_v3 (F := Ideal) x0 x1 (ix2 n h) = ∑ k : Fin 1024, x0 (ix2 n k) * x1 (ix3 (0 : Fin 4) k h) := by
  rw [val_main_v3_apply]
  refine Finset.sum_congr rfl fun k _ => ?_
  rw [show lidx_main_v3 (ix2 n h) k = ix2 n k by idx2, show ridx_main_v3 (ix2 n h) k = ix2 k h by idx2, gw0]

/-- Segment 0's up projection at token `n`, hidden entry `h`. -/
theorem up0 (n : Fin 16384) (h : Fin 1024) :
    val_main_v7 (F := Ideal) x0 x2 (ix2 n h) = ∑ k : Fin 1024, x0 (ix2 n k) * x2 (ix3 (0 : Fin 4) k h) := by
  rw [val_main_v7_apply]
  refine Finset.sum_congr rfl fun k _ => ?_
  rw [show lidx_main_v7 (ix2 n h) k = ix2 n k by idx2, show ridx_main_v7 (ix2 n h) k = ix2 k h by idx2, uw0]

/-- Segment 0's block at token `n`, output entry `j`. -/
theorem seg0 (n : Fin 16384) (j : Fin 1024) :
    val_main_v11 (F := Ideal) x0 x1 x2 x3 (ix2 n j)
      = Cert.Spec.ffn (fun k => x0 (ix2 n k)) (fun k h => x1 (ix3 (0 : Fin 4) k h)) (fun k h => x2 (ix3 (0 : Fin 4) k h))
          (fun h j' => x3 (ix3 (0 : Fin 4) h j')) j := by
  unfold Cert.Spec.ffn
  rw [val_main_v11_apply]
  refine Finset.sum_congr rfl fun h _ => ?_
  rw [show lidx_main_v11 (ix2 n j) h = ix2 n h by idx2, show ridx_main_v11 (ix2 n j) h = ix2 h j by idx2, dw0,
    val_main_v8_apply, val_main_v4_apply, val_main_call0_v5_apply, val_main_call0_v4_apply, val_main_call0_cst_0_apply,
    val_main_call0_v3_apply, val_main_call0_v2_apply, val_main_call0_cst_apply, val_main_call0_v1_apply,
    val_main_call0_v0_apply, silu_mul, gate0, up0]

/-- Segment 0's masked block: the block where the token's segment number is 0, zero elsewhere. -/
theorem term0 (n : Fin 16384) (j : Fin 1024) :
    val_main_v15 (F := Ideal) x0 x1 x2 x3 x4 (ix2 n j)
      = Scalar.select (IntOp.cmpi .eq (x4 (ix1 n)) 0#32)
          (Cert.Spec.ffn (fun k => x0 (ix2 n k)) (fun k h => x1 (ix3 (0 : Fin 4) k h)) (fun k h => x2 (ix3 (0 : Fin 4) k h))
            (fun h j' => x3 (ix3 (0 : Fin 4) h j')) j) 0 := by
  rw [val_main_v15_apply, seg0, val_main_call1_v1_apply, val_main_v14_apply, val_main_v13_apply, val_main_v12_apply,
    val_main_c_apply, show idx_main_v14 (idx_main_call1_v1 (ix2 n j)) = ix1 n by idx1,
    val_main_call1_v2_apply, val_main_call1_v0_apply, val_main_cst_0_apply, Ideal.ofBits_def, Ideal.ofBits_zero_f32]

/-! ## Segment 1 -/

/-- Segment 1's slice of the gate weights, as a matrix. -/
theorem gw1 (k h : Fin 1024) : val_main_v18 (F := Ideal) x1 (ix2 k h) = x1 (ix3 (1 : Fin 4) k h) := by
  rw [val_main_v18_apply, val_main_v17_apply]; exact congrArg x1 (by idx3)

/-- Segment 1's slice of the up weights. -/
theorem uw1 (k h : Fin 1024) : val_main_v22 (F := Ideal) x2 (ix2 k h) = x2 (ix3 (1 : Fin 4) k h) := by
  rw [val_main_v22_apply, val_main_v21_apply]; exact congrArg x2 (by idx3)

/-- Segment 1's slice of the down weights. -/
theorem dw1 (h j : Fin 1024) : val_main_v26 (F := Ideal) x3 (ix2 h j) = x3 (ix3 (1 : Fin 4) h j) := by
  rw [val_main_v26_apply, val_main_v25_apply]; exact congrArg x3 (by idx3)

/-- Segment 1's gate projection at token `n`, hidden entry `h`. -/
theorem gate1 (n : Fin 16384) (h : Fin 1024) :
    val_main_v19 (F := Ideal) x0 x1 (ix2 n h) = ∑ k : Fin 1024, x0 (ix2 n k) * x1 (ix3 (1 : Fin 4) k h) := by
  rw [val_main_v19_apply]
  refine Finset.sum_congr rfl fun k _ => ?_
  rw [show lidx_main_v19 (ix2 n h) k = ix2 n k by idx2, show ridx_main_v19 (ix2 n h) k = ix2 k h by idx2, gw1]

/-- Segment 1's up projection at token `n`, hidden entry `h`. -/
theorem up1 (n : Fin 16384) (h : Fin 1024) :
    val_main_v23 (F := Ideal) x0 x2 (ix2 n h) = ∑ k : Fin 1024, x0 (ix2 n k) * x2 (ix3 (1 : Fin 4) k h) := by
  rw [val_main_v23_apply]
  refine Finset.sum_congr rfl fun k _ => ?_
  rw [show lidx_main_v23 (ix2 n h) k = ix2 n k by idx2, show ridx_main_v23 (ix2 n h) k = ix2 k h by idx2, uw1]

/-- Segment 1's block at token `n`, output entry `j`. -/
theorem seg1 (n : Fin 16384) (j : Fin 1024) :
    val_main_v27 (F := Ideal) x0 x1 x2 x3 (ix2 n j)
      = Cert.Spec.ffn (fun k => x0 (ix2 n k)) (fun k h => x1 (ix3 (1 : Fin 4) k h)) (fun k h => x2 (ix3 (1 : Fin 4) k h))
          (fun h j' => x3 (ix3 (1 : Fin 4) h j')) j := by
  unfold Cert.Spec.ffn
  rw [val_main_v27_apply]
  refine Finset.sum_congr rfl fun h _ => ?_
  rw [show lidx_main_v27 (ix2 n j) h = ix2 n h by idx2, show ridx_main_v27 (ix2 n j) h = ix2 h j by idx2, dw1,
    val_main_v24_apply, val_main_v20_apply, val_main_call2_v5_apply, val_main_call2_v4_apply, val_main_call2_cst_0_apply,
    val_main_call2_v3_apply, val_main_call2_v2_apply, val_main_call2_cst_apply, val_main_call2_v1_apply,
    val_main_call2_v0_apply, silu_mul, gate1, up1]

/-- Segment 1's masked block: the block where the token's segment number is 1, zero elsewhere. -/
theorem term1 (n : Fin 16384) (j : Fin 1024) :
    val_main_v31 (F := Ideal) x0 x1 x2 x3 x4 (ix2 n j)
      = Scalar.select (IntOp.cmpi .eq (x4 (ix1 n)) 1#32)
          (Cert.Spec.ffn (fun k => x0 (ix2 n k)) (fun k h => x1 (ix3 (1 : Fin 4) k h)) (fun k h => x2 (ix3 (1 : Fin 4) k h))
            (fun h j' => x3 (ix3 (1 : Fin 4) h j')) j) 0 := by
  rw [val_main_v31_apply, seg1, val_main_call3_v1_apply, val_main_v30_apply, val_main_v29_apply, val_main_v28_apply,
    val_main_c_1_apply, show idx_main_v30 (idx_main_call3_v1 (ix2 n j)) = ix1 n by idx1,
    val_main_call3_v2_apply, val_main_call3_v0_apply, val_main_cst_2_apply, Ideal.ofBits_def, Ideal.ofBits_zero_f32]

/-! ## Segment 2 -/

/-- Segment 2's slice of the gate weights, as a matrix. -/
theorem gw2 (k h : Fin 1024) : val_main_v34 (F := Ideal) x1 (ix2 k h) = x1 (ix3 (2 : Fin 4) k h) := by
  rw [val_main_v34_apply, val_main_v33_apply]; exact congrArg x1 (by idx3)

/-- Segment 2's slice of the up weights. -/
theorem uw2 (k h : Fin 1024) : val_main_v38 (F := Ideal) x2 (ix2 k h) = x2 (ix3 (2 : Fin 4) k h) := by
  rw [val_main_v38_apply, val_main_v37_apply]; exact congrArg x2 (by idx3)

/-- Segment 2's slice of the down weights. -/
theorem dw2 (h j : Fin 1024) : val_main_v42 (F := Ideal) x3 (ix2 h j) = x3 (ix3 (2 : Fin 4) h j) := by
  rw [val_main_v42_apply, val_main_v41_apply]; exact congrArg x3 (by idx3)

/-- Segment 2's gate projection at token `n`, hidden entry `h`. -/
theorem gate2 (n : Fin 16384) (h : Fin 1024) :
    val_main_v35 (F := Ideal) x0 x1 (ix2 n h) = ∑ k : Fin 1024, x0 (ix2 n k) * x1 (ix3 (2 : Fin 4) k h) := by
  rw [val_main_v35_apply]
  refine Finset.sum_congr rfl fun k _ => ?_
  rw [show lidx_main_v35 (ix2 n h) k = ix2 n k by idx2, show ridx_main_v35 (ix2 n h) k = ix2 k h by idx2, gw2]

/-- Segment 2's up projection at token `n`, hidden entry `h`. -/
theorem up2 (n : Fin 16384) (h : Fin 1024) :
    val_main_v39 (F := Ideal) x0 x2 (ix2 n h) = ∑ k : Fin 1024, x0 (ix2 n k) * x2 (ix3 (2 : Fin 4) k h) := by
  rw [val_main_v39_apply]
  refine Finset.sum_congr rfl fun k _ => ?_
  rw [show lidx_main_v39 (ix2 n h) k = ix2 n k by idx2, show ridx_main_v39 (ix2 n h) k = ix2 k h by idx2, uw2]

/-- Segment 2's block at token `n`, output entry `j`. -/
theorem seg2 (n : Fin 16384) (j : Fin 1024) :
    val_main_v43 (F := Ideal) x0 x1 x2 x3 (ix2 n j)
      = Cert.Spec.ffn (fun k => x0 (ix2 n k)) (fun k h => x1 (ix3 (2 : Fin 4) k h)) (fun k h => x2 (ix3 (2 : Fin 4) k h))
          (fun h j' => x3 (ix3 (2 : Fin 4) h j')) j := by
  unfold Cert.Spec.ffn
  rw [val_main_v43_apply]
  refine Finset.sum_congr rfl fun h _ => ?_
  rw [show lidx_main_v43 (ix2 n j) h = ix2 n h by idx2, show ridx_main_v43 (ix2 n j) h = ix2 h j by idx2, dw2,
    val_main_v40_apply, val_main_v36_apply, val_main_call4_v5_apply, val_main_call4_v4_apply, val_main_call4_cst_0_apply,
    val_main_call4_v3_apply, val_main_call4_v2_apply, val_main_call4_cst_apply, val_main_call4_v1_apply,
    val_main_call4_v0_apply, silu_mul, gate2, up2]

/-- Segment 2's masked block: the block where the token's segment number is 2, zero elsewhere. -/
theorem term2 (n : Fin 16384) (j : Fin 1024) :
    val_main_v47 (F := Ideal) x0 x1 x2 x3 x4 (ix2 n j)
      = Scalar.select (IntOp.cmpi .eq (x4 (ix1 n)) 2#32)
          (Cert.Spec.ffn (fun k => x0 (ix2 n k)) (fun k h => x1 (ix3 (2 : Fin 4) k h)) (fun k h => x2 (ix3 (2 : Fin 4) k h))
            (fun h j' => x3 (ix3 (2 : Fin 4) h j')) j) 0 := by
  rw [val_main_v47_apply, seg2, val_main_call5_v1_apply, val_main_v46_apply, val_main_v45_apply, val_main_v44_apply,
    val_main_c_3_apply, show idx_main_v46 (idx_main_call5_v1 (ix2 n j)) = ix1 n by idx1,
    val_main_call5_v2_apply, val_main_call5_v0_apply, val_main_cst_4_apply, Ideal.ofBits_def, Ideal.ofBits_zero_f32]

/-! ## Segment 3 -/

/-- Segment 3's slice of the gate weights, as a matrix. -/
theorem gw3 (k h : Fin 1024) : val_main_v50 (F := Ideal) x1 (ix2 k h) = x1 (ix3 (3 : Fin 4) k h) := by
  rw [val_main_v50_apply, val_main_v49_apply]; exact congrArg x1 (by idx3)

/-- Segment 3's slice of the up weights. -/
theorem uw3 (k h : Fin 1024) : val_main_v54 (F := Ideal) x2 (ix2 k h) = x2 (ix3 (3 : Fin 4) k h) := by
  rw [val_main_v54_apply, val_main_v53_apply]; exact congrArg x2 (by idx3)

/-- Segment 3's slice of the down weights. -/
theorem dw3 (h j : Fin 1024) : val_main_v58 (F := Ideal) x3 (ix2 h j) = x3 (ix3 (3 : Fin 4) h j) := by
  rw [val_main_v58_apply, val_main_v57_apply]; exact congrArg x3 (by idx3)

/-- Segment 3's gate projection at token `n`, hidden entry `h`. -/
theorem gate3 (n : Fin 16384) (h : Fin 1024) :
    val_main_v51 (F := Ideal) x0 x1 (ix2 n h) = ∑ k : Fin 1024, x0 (ix2 n k) * x1 (ix3 (3 : Fin 4) k h) := by
  rw [val_main_v51_apply]
  refine Finset.sum_congr rfl fun k _ => ?_
  rw [show lidx_main_v51 (ix2 n h) k = ix2 n k by idx2, show ridx_main_v51 (ix2 n h) k = ix2 k h by idx2, gw3]

/-- Segment 3's up projection at token `n`, hidden entry `h`. -/
theorem up3 (n : Fin 16384) (h : Fin 1024) :
    val_main_v55 (F := Ideal) x0 x2 (ix2 n h) = ∑ k : Fin 1024, x0 (ix2 n k) * x2 (ix3 (3 : Fin 4) k h) := by
  rw [val_main_v55_apply]
  refine Finset.sum_congr rfl fun k _ => ?_
  rw [show lidx_main_v55 (ix2 n h) k = ix2 n k by idx2, show ridx_main_v55 (ix2 n h) k = ix2 k h by idx2, uw3]

/-- Segment 3's block at token `n`, output entry `j`. -/
theorem seg3 (n : Fin 16384) (j : Fin 1024) :
    val_main_v59 (F := Ideal) x0 x1 x2 x3 (ix2 n j)
      = Cert.Spec.ffn (fun k => x0 (ix2 n k)) (fun k h => x1 (ix3 (3 : Fin 4) k h)) (fun k h => x2 (ix3 (3 : Fin 4) k h))
          (fun h j' => x3 (ix3 (3 : Fin 4) h j')) j := by
  unfold Cert.Spec.ffn
  rw [val_main_v59_apply]
  refine Finset.sum_congr rfl fun h _ => ?_
  rw [show lidx_main_v59 (ix2 n j) h = ix2 n h by idx2, show ridx_main_v59 (ix2 n j) h = ix2 h j by idx2, dw3,
    val_main_v56_apply, val_main_v52_apply, val_main_call6_v5_apply, val_main_call6_v4_apply, val_main_call6_cst_0_apply,
    val_main_call6_v3_apply, val_main_call6_v2_apply, val_main_call6_cst_apply, val_main_call6_v1_apply,
    val_main_call6_v0_apply, silu_mul, gate3, up3]

/-- Segment 3's masked block: the block where the token's segment number is 3, zero elsewhere. -/
theorem term3 (n : Fin 16384) (j : Fin 1024) :
    val_main_v63 (F := Ideal) x0 x1 x2 x3 x4 (ix2 n j)
      = Scalar.select (IntOp.cmpi .eq (x4 (ix1 n)) 3#32)
          (Cert.Spec.ffn (fun k => x0 (ix2 n k)) (fun k h => x1 (ix3 (3 : Fin 4) k h)) (fun k h => x2 (ix3 (3 : Fin 4) k h))
            (fun h j' => x3 (ix3 (3 : Fin 4) h j')) j) 0 := by
  rw [val_main_v63_apply, seg3, val_main_call7_v1_apply, val_main_v62_apply, val_main_v61_apply, val_main_v60_apply,
    val_main_c_5_apply, show idx_main_v62 (idx_main_call7_v1 (ix2 n j)) = ix1 n by idx1,
    val_main_call7_v2_apply, val_main_call7_v0_apply, val_main_cst_6_apply, Ideal.ofBits_def, Ideal.ofBits_zero_f32]

/-! ## The accumulation -/

/-- The result at token `n`, output entry `j`: zero plus the four masked blocks, in the program's order. -/
theorem out_masks (n : Fin 16384) (j : Fin 1024) :
    val_main_v64 (F := Ideal) x0 x1 x2 x3 x4 (ix2 n j)
      = ((((0 : EReal)
          + Scalar.select (IntOp.cmpi .eq (x4 (ix1 n)) 0#32)
              (Cert.Spec.ffn (fun k => x0 (ix2 n k)) (fun k h => x1 (ix3 (0 : Fin 4) k h)) (fun k h => x2 (ix3 (0 : Fin 4) k h))
                (fun h j' => x3 (ix3 (0 : Fin 4) h j')) j) 0)
          + Scalar.select (IntOp.cmpi .eq (x4 (ix1 n)) 1#32)
              (Cert.Spec.ffn (fun k => x0 (ix2 n k)) (fun k h => x1 (ix3 (1 : Fin 4) k h)) (fun k h => x2 (ix3 (1 : Fin 4) k h))
                (fun h j' => x3 (ix3 (1 : Fin 4) h j')) j) 0)
          + Scalar.select (IntOp.cmpi .eq (x4 (ix1 n)) 2#32)
              (Cert.Spec.ffn (fun k => x0 (ix2 n k)) (fun k h => x1 (ix3 (2 : Fin 4) k h)) (fun k h => x2 (ix3 (2 : Fin 4) k h))
                (fun h j' => x3 (ix3 (2 : Fin 4) h j')) j) 0)
          + Scalar.select (IntOp.cmpi .eq (x4 (ix1 n)) 3#32)
              (Cert.Spec.ffn (fun k => x0 (ix2 n k)) (fun k h => x1 (ix3 (3 : Fin 4) k h)) (fun k h => x2 (ix3 (3 : Fin 4) k h))
                (fun h j' => x3 (ix3 (3 : Fin 4) h j')) j) 0 := by
  rw [val_main_v64_apply, val_main_v48_apply, val_main_v32_apply, val_main_v16_apply, acc_zero, term0, term1, term2, term3]
  rfl

end Stages

/-! ## The token's own segment -/

section Pick

variable (x4 : (⟨S16384, .i32⟩ : BufTy).Contents (Elt Ideal)) (n : Fin 16384) (y0 y1 y2 y3 : EReal)

/-- With segment number 0 only the first masked term is kept. -/
theorem pick0 (hs : x4 (ix1 n) = 0#32) :
    ((((0 : EReal) + Scalar.select (IntOp.cmpi .eq (x4 (ix1 n)) 0#32) y0 0) + Scalar.select (IntOp.cmpi .eq (x4 (ix1 n)) 1#32) y1 0)
        + Scalar.select (IntOp.cmpi .eq (x4 (ix1 n)) 2#32) y2 0) + Scalar.select (IntOp.cmpi .eq (x4 (ix1 n)) 3#32) y3 0 = y0 := by
  rw [hs, show IntOp.cmpi .eq 0#32 0#32 = 1#1 by decide, show IntOp.cmpi .eq 0#32 1#32 = 0#1 by decide,
    show IntOp.cmpi .eq 0#32 2#32 = 0#1 by decide, show IntOp.cmpi .eq 0#32 3#32 = 0#1 by decide,
    select_one, select_zero, select_zero, select_zero, zero_add, add_zero, add_zero, add_zero]

/-- With segment number 1 only the second masked term is kept. -/
theorem pick1 (hs : x4 (ix1 n) = 1#32) :
    ((((0 : EReal) + Scalar.select (IntOp.cmpi .eq (x4 (ix1 n)) 0#32) y0 0) + Scalar.select (IntOp.cmpi .eq (x4 (ix1 n)) 1#32) y1 0)
        + Scalar.select (IntOp.cmpi .eq (x4 (ix1 n)) 2#32) y2 0) + Scalar.select (IntOp.cmpi .eq (x4 (ix1 n)) 3#32) y3 0 = y1 := by
  rw [hs, show IntOp.cmpi .eq 1#32 0#32 = 0#1 by decide, show IntOp.cmpi .eq 1#32 1#32 = 1#1 by decide,
    show IntOp.cmpi .eq 1#32 2#32 = 0#1 by decide, show IntOp.cmpi .eq 1#32 3#32 = 0#1 by decide,
    select_zero, select_one, select_zero, select_zero, zero_add, zero_add, add_zero, add_zero]

/-- With segment number 2 only the third masked term is kept. -/
theorem pick2 (hs : x4 (ix1 n) = 2#32) :
    ((((0 : EReal) + Scalar.select (IntOp.cmpi .eq (x4 (ix1 n)) 0#32) y0 0) + Scalar.select (IntOp.cmpi .eq (x4 (ix1 n)) 1#32) y1 0)
        + Scalar.select (IntOp.cmpi .eq (x4 (ix1 n)) 2#32) y2 0) + Scalar.select (IntOp.cmpi .eq (x4 (ix1 n)) 3#32) y3 0 = y2 := by
  rw [hs, show IntOp.cmpi .eq 2#32 0#32 = 0#1 by decide, show IntOp.cmpi .eq 2#32 1#32 = 0#1 by decide,
    show IntOp.cmpi .eq 2#32 2#32 = 1#1 by decide, show IntOp.cmpi .eq 2#32 3#32 = 0#1 by decide,
    select_zero, select_zero, select_one, select_zero, zero_add, zero_add, zero_add, add_zero]

/-- With segment number 3 only the fourth masked term is kept. -/
theorem pick3 (hs : x4 (ix1 n) = 3#32) :
    ((((0 : EReal) + Scalar.select (IntOp.cmpi .eq (x4 (ix1 n)) 0#32) y0 0) + Scalar.select (IntOp.cmpi .eq (x4 (ix1 n)) 1#32) y1 0)
        + Scalar.select (IntOp.cmpi .eq (x4 (ix1 n)) 2#32) y2 0) + Scalar.select (IntOp.cmpi .eq (x4 (ix1 n)) 3#32) y3 0 = y3 := by
  rw [hs, show IntOp.cmpi .eq 3#32 0#32 = 0#1 by decide, show IntOp.cmpi .eq 3#32 1#32 = 0#1 by decide,
    show IntOp.cmpi .eq 3#32 2#32 = 0#1 by decide, show IntOp.cmpi .eq 3#32 3#32 = 1#1 by decide,
    select_zero, select_zero, select_zero, select_one, zero_add, zero_add, zero_add, zero_add]

end Pick

/-- The reference's result at token `n`, output entry `j`, when the token's segment number is `s`: the gated
    feed-forward block of segment `s` at the token's row. -/
theorem ref_apply (x0 : (⟨S16384x1024, .f32⟩ : BufTy).Contents (Elt Ideal)) (x1 x2 x3 : (⟨S4x1024x1024, .f32⟩ : BufTy).Contents (Elt Ideal)) (x4 : (⟨S16384, .i32⟩ : BufTy).Contents (Elt Ideal))
    (n : Fin 16384) (j : Fin 1024) (s : Fin 4) (hs : x4 (ix1 n) = BitVec.ofNat 32 s.val) :
    val_main_v64 (F := Ideal) x0 x1 x2 x3 x4 (ix2 n j)
      = Cert.Spec.ffn (fun k => x0 (ix2 n k)) (fun k h => x1 (ix3 s k h)) (fun k h => x2 (ix3 s k h)) (fun h j' => x3 (ix3 s h j')) j := by
  rw [out_masks]
  fin_cases s
  · exact pick0 x4 n _ _ _ _ hs
  · exact pick1 x4 n _ _ _ _ hs
  · exact pick2 x4 n _ _ _ _ hs
  · exact pick3 x4 n _ _ _ _ hs

end Cert.ReferenceIdeal.RefValue

end
-- ==== Proof.PreSeg.lean ====
/-
  THE PRECONDITION DECODED. The printed precondition is the conjunction of four finiteness tests on the float
  arguments with "every segment number s satisfies 0 ≤ s and s < 4" (signed compares, and-ed elementwise, then
  reduced by "and" over the whole vector). When the precondition is all ones, the last conjunct is one, so every
  element of the reduced vector is one, so each segment number lies in [0, 4) signed; a 32-bit word that is
  nonnegative signed has its top bit clear and reads the same unsigned, hence is below 4 unsigned.
-/
import proofs.«400824_j17051020165276_3_alg».proof.Proof.Gen.Pre_finite_inputs
import Idealize.ShloMosaic.Lib.ReduceAll
import Idealize.ShloMosaic.Lib.SortFacts

noncomputable section

namespace Cert.PreSeg

open Idealize.ShloMosaic

/-- The scalar shape has one index. -/
instance subsingleton_scalar_idx : Subsingleton Cert.Pre_finite_inputs.S_.Idx := ⟨fun a b => funext fun d => d.elim0⟩

/-- A word in [0, 4) signed is below 4 unsigned: nonnegative signed means the top bit is clear, so the signed and
    the unsigned readings agree. -/
theorem toNat_lt_four (w : BitVec 32) (h0 : IntOp.cmpi .sge w 0#32 = 1#1) (h4 : IntOp.cmpi .slt w 4#32 = 1#1) :
    w.toNat < 4 := by
  rw [IntOp.cmpi_sge, show (0#32 : BitVec 32).toInt = 0 from by decide] at h0
  rw [IntOp.cmpi_slt, show (4#32 : BitVec 32).toInt = 4 from by decide] at h4
  have hc : 2 * w.toNat < 2 ^ 32 := BitVec.toInt_pos_iff.1 h0
  rw [BitVec.toInt_eq_toNat_of_lt hc] at h4
  omega

/-- Every segment number is below 4 (unsigned) when the precondition holds. -/
theorem seg_lt_of_pre {F : FTy → Type} [FloatOps F] [Cert.Pre_finite_inputs.Facts]
    (a0 : FVec F Cert.Pre_finite_inputs.S16384x1024 .f32) (a1 a2 a3 : FVec F Cert.Pre_finite_inputs.S4x1024x1024 .f32)
    (a4 : IVec Cert.Pre_finite_inputs.S16384 32)
    (h : Cert.Pre_finite_inputs.fn (F := F) a0 a1 a2 a3 a4 = fun _ => 1#1) (n : Fin 16384) :
    (a4 (Shape.Idx.ofFin n)).toNat < 4 := by
  have e := congrFun h (fun a => a.elim0)
  dsimp only [Cert.Pre_finite_inputs.fn, Cert.Pre_finite_inputs.fn_part1] at e
  -- the outermost conjunction: (the four finiteness tests) and (the reduction over the segment tests)
  have e2 := (IntOp.andi_eq_one.1 e).2
  -- the reduction by "and" is one: so is the element at n
  have e3 := Host.reduce_andi_all _ _ _ _ _ e2 (Shape.Idx.ofFin n)
  -- that element is (0 ≤ s) and (s < 4), signed
  obtain ⟨h0, h4⟩ := IntOp.andi_eq_one.1 e3
  exact toNat_lt_four _ h0 h4

end Cert.PreSeg

end
-- ==== Proof.HostStep.lean ====
/-
  One tactic for the wrapper's host arithmetic: an equation between the contents two buffers hold when the kernel
  region is entered is opened, on both sides, to the host operations' terms over the argument arrays.
-/
import proofs.«400824_j17051020165276_3_alg».proof.Proof.Gen.KernelIdeal.Frame
import Idealize.ShloMosaic.Lib.StableHlo.Run

namespace Cert.KernelIdeal.Gen

open Idealize.ShloMosaic Idealize.ShloMosaic.StableHlo

/-- Opens every `V m c b` in the goal to the composed term of the host operations that computed buffer `b` from the
    argument arrays (the transports along the buffers' literal types removed); an equation whose two sides are the
    same composition closes. -/
macro "host_step" : tactic =>
  `(tactic| (dsimp only [V, V0]
             simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
             after_results_simp
             try simp only [StableHlo.TRef.toBuf, StableHlo.TRef.ofBuf, cast_eq, id_eq]))

end Cert.KernelIdeal.Gen
-- ==== Proof.HostFloatsEq.lean ====
/-
  The wrapper's float-side buffers as compositions of its host operations over the argument arrays: the down
  weights, the two halves of the fused weight array, the padded token buffer (a scatter of the tokens' rows at the
  wrapped row indices into a zero array), and the program's result (the rows of the kernel's output array gathered
  back at the wrapped row indices). Each equation is generic in the float instance.
-/
import proofs.«400824_j17051020165276_3_alg».proof.Proof.HostStep
import Idealize.ShloMosaic.Lib.Pipeline.FrameSuffix

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ)

/-- The row indices after the wrap of negative ones (`where (i < 0, i + 18432, i)`), as a vector. -/
abbrev wrapIdx (c : Dev nD) : S16384.Idx → BitVec 32 :=
  select (cmpi .slt (V m c main_v31 : S16384.Idx → BitVec 32) (broadcastInDim S16384 ![] bcast_S_S16384 (constantI S_ 32 0#32)))
    (addi (V m c main_v31 : S16384.Idx → BitVec 32) (broadcastInDim S16384 ![] bcast_S_S16384 (constantI S_ 32 18432#32)))
    (V m c main_v31 : S16384.Idx → BitVec 32)

set_option maxRecDepth 200000 in
set_option maxHeartbeats 4000000 in
/-- The down weights: the argument in the narrower format. -/
theorem e_v64 (c : Dev nD) : (V m c main_v64 : S4x1024x1024.Idx → F .bf16) =
    truncf .bf16 (m ((c : Thread nD τ).loc main_arg3) : S4x1024x1024.Idx → F .f32) bitsLt_bf16_f32 := by host_step

set_option maxRecDepth 200000 in
set_option maxHeartbeats 4000000 in
/-- The fused weights: the gate and the up weights, each in the narrower format, side by side along the last axis. -/
theorem e_v63 (c : Dev nD) : (V m c main_v63 : S4x1024x2048.Idx → F .bf16) =
    concatenate S4x1024x2048 2
      [⟨S4x1024x1024, truncf .bf16 (m ((c : Thread nD τ).loc main_arg1) : S4x1024x1024.Idx → F .f32) bitsLt_bf16_f32⟩,
       ⟨S4x1024x1024, truncf .bf16 (m ((c : Thread nD τ).loc main_arg2) : S4x1024x1024.Idx → F .f32) bitsLt_bf16_f32⟩]
      concatenates_S4x1024x1024_S4x1024x1024_S4x1024x2048_d2 := by
  host_step
  -- the two pieces are read separately: each is its argument in the narrower format
  refine congrArg₂ (fun a b : S4x1024x1024.Idx → F .bf16 =>
    concatenate S4x1024x2048 2 [⟨S4x1024x1024, a⟩, ⟨S4x1024x1024, b⟩] concatenates_S4x1024x1024_S4x1024x1024_S4x1024x2048_d2) ?_ ?_
  all_goals after_results_simp

set_option maxRecDepth 200000 in
set_option maxHeartbeats 4000000 in
/-- The padded token buffer: the tokens' rows set into a zero array at the wrapped row indices. -/
theorem e_v40 (c : Dev nD) : (V m c main_v40 : S18432x1024.Idx → F .bf16) =
    Host.scatter scatter_S18432x1024_S16384x1_S16384x1024_1_0_0_1 (fun _ b => b)
      (broadcastInDim S18432x1024 ![] bcast_S_S18432x1024 (constant S_ .bf16 0x0000#16))
      (broadcastInDim S16384x1 ![0] bcast_S16384_S16384x1_0 (wrapIdx m c))
      (truncf .bf16 (m ((c : Thread nD τ).loc main_arg0) : S16384x1024.Idx → F .f32) bitsLt_bf16_f32) := by
  unfold wrapIdx
  host_step

set_option maxRecDepth 200000 in
set_option maxHeartbeats 4000000 in
/-- The program's result: the rows of the kernel's output array taken at the wrapped row indices, in the wider
    format. -/
theorem e_tail (hO : Ok m) (c : Dev nD) :
    (Pipeline.afterTail pcfgs (fun _ => adm m hO) (dats m hO) 0 (V0 m) [hostOps1] c main_v73 : S16384x1024.Idx → F .f32) =
      extf .f32 (Host.gather gather_S18432x1024_S16384x1_S16384x1024_1_0_n_n_0_1_11024
        ((dats m hO 0 c).arrAt 3 (cfgM m hO).N : S18432x1024.Idx → F .bf16)
        (broadcastInDim S16384x1 ![0] bcast_S16384_S16384x1_0 (wrapIdx m c))) bitsLt_bf16_f32 := by
  unfold Pipeline.afterTail
  simp only [hostOps1, List.flatten_cons, List.flatten_nil, List.append_nil]
  after_results_simp
  rw [Pipeline.withArrays_of_ne _ c (V0 m c) _ main_v31 (by exact (by decide : ∀ w, Pipeline.arrRef spec0 w ≠ main_v31))]
  rw [Pipeline.withArrays_arr spec0 (launch0 (F := F)).win.arr_inj c _ _ 3]

end Cert.KernelIdeal.Gen

end
-- ==== Proof.Dispatch.lean ====
/-
  The arithmetic of the token dispatch, over the natural numbers.

  Each of the 16384 tokens carries a segment number `σ n`.  Tokens are laid out segment by segment in a
  padded buffer: segment `s` gets a run of `pc s` rows, its token count rounded up to a multiple of 512,
  starting at row `st s` (the sum of the earlier segments' runs); inside the run a token sits at its rank
  among the tokens of its own segment, in token order.  `dst n` is the row of token `n`; `gid i` is the
  segment whose run contains tile `i` (rows `512 i … 512 i + 511`), computed as the sum over segments of
  "tile i lies in the run" times the segment number.  The facts proved: rows stay below 18432, distinct
  tokens get distinct rows, `gid` is always a segment number, and the tile of a token's row belongs to
  the token's segment.
-/
import Mathlib.Algebra.BigOperators.Group.Finset.Basic
import Mathlib.Algebra.BigOperators.Fin
import Mathlib.Algebra.Order.BigOperators.Group.Finset
import Mathlib.Data.Fintype.BigOperators
import Mathlib.Data.Fintype.Fin
import Mathlib.Tactic.Ring
import Mathlib.Tactic.Linarith
import Mathlib.Tactic.IntervalCases
import Mathlib.Tactic.FinCases

namespace Cert.Dispatch

open Finset

variable (σ : Fin 16384 → ℕ)

/-- How many of the tokens `0 … k-1` belong to segment `s`. -/
def cumTo (k s : ℕ) : ℕ := (univ.filter fun n : Fin 16384 => n.val < k ∧ σ n = s).card
/-- How many tokens belong to segment `s`. -/
def cnt (s : ℕ) : ℕ := cumTo σ 16384 s
/-- The count rounded up to a multiple of 512. -/
def pc (s : ℕ) : ℕ := (cnt σ s + 511) / 512 * 512
/-- The padded runs of segments `0 … s` together. -/
def incl (s : ℕ) : ℕ := ∑ s' ∈ range (s + 1), pc σ s'
/-- Where segment `s`'s run starts. -/
def st (s : ℕ) : ℕ := incl σ s - pc σ s
/-- The 0-based rank of token `n` among the tokens of its segment. -/
def rk (n : Fin 16384) : ℕ := cumTo σ (n.val + 1) (σ n) - 1
/-- The row of token `n`. -/
def dst (n : Fin 16384) : ℕ := st σ (σ n) + rk σ n
/-- The segment of tile `i`, as the kernel's wrapper computes it. -/
def gid (i : ℕ) : ℕ := ∑ s ∈ range 4, (if st σ s / 512 ≤ i ∧ i < st σ s / 512 + pc σ s / 512 then 1 else 0) * s

theorem cumTo_le (k s : ℕ) : cumTo σ k s ≤ 16384 := by
  unfold cumTo
  calc _ ≤ (univ : Finset (Fin 16384)).card := Finset.card_le_card (Finset.filter_subset _ _)
    _ = 16384 := by simp
theorem cumTo_mono {k k' : ℕ} (h : k ≤ k') (s : ℕ) : cumTo σ k s ≤ cumTo σ k' s := by
  unfold cumTo
  apply Finset.card_le_card
  intro n hn
  simp only [Finset.mem_filter, Finset.mem_univ, true_and] at hn ⊢
  exact ⟨by omega, hn.2⟩
theorem cumTo_pos (n : Fin 16384) : 1 ≤ cumTo σ (n.val + 1) (σ n) := by
  unfold cumTo
  apply Finset.card_pos.mpr
  exact ⟨n, by simp⟩
theorem cumTo_le_cnt (k s : ℕ) : cumTo σ k s ≤ cnt σ s := by
  unfold cnt cumTo
  apply Finset.card_le_card
  intro n hn
  simp only [Finset.mem_filter, Finset.mem_univ, true_and] at hn ⊢
  exact ⟨n.isLt, hn.2⟩
theorem cnt_le_pc (s : ℕ) : cnt σ s ≤ pc σ s := by
  unfold pc
  omega
theorem pc_le (s : ℕ) : pc σ s ≤ cnt σ s + 511 := by
  unfold pc
  omega
theorem pc_mod (s : ℕ) : pc σ s % 512 = 0 := by
  unfold pc
  omega
theorem pc_le_incl (s : ℕ) : pc σ s ≤ incl σ s := by
  unfold incl
  rw [Finset.sum_range_succ]
  omega
theorem incl_succ (s : ℕ) : incl σ (s + 1) = incl σ s + pc σ (s + 1) := by
  unfold incl
  rw [Finset.sum_range_succ]
theorem st_zero : st σ 0 = 0 := by
  simp [st, incl]
theorem st_succ (s : ℕ) : st σ (s + 1) = st σ s + pc σ s := by
  have h1 := incl_succ σ s
  have h2 := pc_le_incl σ s
  unfold st
  omega
theorem st_mod (s : ℕ) : st σ s % 512 = 0 := by
  induction s with
  | zero => simp [st_zero]
  | succ s ih =>
    have h1 := st_succ σ s
    have h2 := pc_mod σ s
    omega

/-- The rank of a token is below the padded length of its segment's run. -/
theorem rk_lt_pc (n : Fin 16384) : rk σ n < pc σ (σ n) := by
  have h1 := cumTo_pos σ n
  have h2 := cumTo_le_cnt σ (n.val + 1) (σ n)
  have h3 := cnt_le_pc σ (σ n)
  unfold rk
  omega

/-- With every token in one of the four segments, the four counts add up to the number of tokens. -/
theorem sum_cnt (hσ : ∀ n, σ n < 4) : cnt σ 0 + cnt σ 1 + cnt σ 2 + cnt σ 3 = 16384 := by
  have key : (univ : Finset (Fin 16384)).card
      = ∑ b ∈ range 4, (univ.filter fun a : Fin 16384 => σ a = b).card :=
    Finset.card_eq_sum_card_fiberwise (fun x _ => Finset.mem_range.mpr (hσ x))
  have e : ∀ s, cnt σ s = (univ.filter fun a : Fin 16384 => σ a = s).card := by
    intro s
    have hf : (univ.filter fun n : Fin 16384 => n.val < 16384 ∧ σ n = s)
        = univ.filter fun a : Fin 16384 => σ a = s :=
      Finset.filter_congr (fun a _ => by simp)
    unfold cnt cumTo
    rw [hf]
  simp only [Finset.sum_range_succ, Finset.sum_range_zero, Finset.card_univ, Fintype.card_fin,
    zero_add] at key
  rw [e 0, e 1, e 2, e 3]
  omega

/-- With every token in one of the four segments the padded runs fill at most 18428 rows. -/
theorem incl_le (hσ : ∀ n, σ n < 4) (s : ℕ) (hs : s < 4) : incl σ s ≤ 18428 := by
  have hsum := sum_cnt σ hσ
  have p0 := pc_le σ 0
  have p1 := pc_le σ 1
  have p2 := pc_le σ 2
  have p3 := pc_le σ 3
  unfold incl
  interval_cases s <;> simp only [Finset.sum_range_succ, Finset.sum_range_zero, zero_add] <;> omega
theorem dst_lt (hσ : ∀ n, σ n < 4) (n : Fin 16384) : dst σ n < 18432 := by
  have h1 := rk_lt_pc σ n
  have h2 := incl_le σ hσ (σ n) (hσ n)
  have h3 := pc_le_incl σ (σ n)
  unfold dst st
  omega

/-- Runs of different segments do not meet: a row lies in at most one run. -/
theorem seg_unique (s s' r r' : ℕ) (hs : s < 4) (hs' : s' < 4) (hr : r < pc σ s)
    (hr' : r' < pc σ s') (h : st σ s + r = st σ s' + r') : s = s' := by
  have h0 : st σ 0 = 0 := st_zero σ
  have h1 : st σ 1 = st σ 0 + pc σ 0 := st_succ σ 0
  have h2 : st σ 2 = st σ 1 + pc σ 1 := st_succ σ 1
  have h3 : st σ 3 = st σ 2 + pc σ 2 := st_succ σ 2
  interval_cases s <;> interval_cases s' <;> omega

/-- Within one segment a later token has more tokens of the segment at or before it. -/
theorem cumTo_lt_of_lt {n n' : Fin 16384} (h : n.val < n'.val) :
    cumTo σ (n.val + 1) (σ n') < cumTo σ (n'.val + 1) (σ n') := by
  unfold cumTo
  apply Finset.card_lt_card
  rw [Finset.ssubset_iff_of_subset]
  · refine ⟨n', ?_, ?_⟩
    · simp
    · simp only [Finset.mem_filter, Finset.mem_univ, true_and, not_and]
      intro h'
      omega
  · intro a ha
    simp only [Finset.mem_filter, Finset.mem_univ, true_and] at ha ⊢
    exact ⟨by omega, ha.2⟩

theorem dst_inj (hσ : ∀ n, σ n < 4) {n n' : Fin 16384} (h : dst σ n = dst σ n') : n = n' := by
  have hseg : σ n = σ n' :=
    seg_unique σ (σ n) (σ n') (rk σ n) (rk σ n') (hσ n) (hσ n') (rk_lt_pc σ n) (rk_lt_pc σ n') h
  have hrk : rk σ n = rk σ n' := by
    unfold dst at h
    rw [hseg] at h
    omega
  have c1 := cumTo_pos σ n
  have c2 := cumTo_pos σ n'
  unfold rk at hrk
  apply Fin.ext
  rcases Nat.lt_trichotomy n.val n'.val with hlt | heq | hgt
  · have := cumTo_lt_of_lt σ hlt
    rw [hseg] at hrk c1
    omega
  · exact heq
  · have := cumTo_lt_of_lt σ hgt
    rw [← hseg] at hrk c2
    omega
/-- At most one run contains a tile, so the sum is a segment number (for any `σ`). -/
theorem gid_lt (i : ℕ) : gid σ i < 4 := by
  have h0 : st σ 0 = 0 := st_zero σ
  have h1 : st σ 1 = st σ 0 + pc σ 0 := st_succ σ 0
  have h2 : st σ 2 = st σ 1 + pc σ 1 := st_succ σ 1
  have h3 : st σ 3 = st σ 2 + pc σ 2 := st_succ σ 2
  have m0 := st_mod σ 0
  have m1 := st_mod σ 1
  have m2 := st_mod σ 2
  have m3 := st_mod σ 3
  have p0 := pc_mod σ 0
  have p1 := pc_mod σ 1
  have p2 := pc_mod σ 2
  have p3 := pc_mod σ 3
  unfold gid
  simp only [Finset.sum_range_succ, Finset.sum_range_zero, zero_add]
  split_ifs <;> omega
theorem gid_dst (hσ : ∀ n, σ n < 4) (n : Fin 16384) : gid σ (dst σ n / 512) = σ n := by
  have h0 : st σ 0 = 0 := st_zero σ
  have h1 : st σ 1 = st σ 0 + pc σ 0 := st_succ σ 0
  have h2 : st σ 2 = st σ 1 + pc σ 1 := st_succ σ 1
  have h3 : st σ 3 = st σ 2 + pc σ 2 := st_succ σ 2
  have m0 := st_mod σ 0
  have m1 := st_mod σ 1
  have m2 := st_mod σ 2
  have m3 := st_mod σ 3
  have p0 := pc_mod σ 0
  have p1 := pc_mod σ 1
  have p2 := pc_mod σ 2
  have p3 := pc_mod σ 3
  have hr := rk_lt_pc σ n
  have hs := hσ n
  unfold dst
  generalize rk σ n = r at hr ⊢
  generalize σ n = s at hr hs ⊢
  unfold gid
  simp only [Finset.sum_range_succ, Finset.sum_range_zero, zero_add]
  interval_cases s <;> split_ifs <;> omega

end Cert.Dispatch
-- ==== Proof.HostSeg.lean ====
/-
  The tokens' segment numbers as natural numbers, read off the launch memory.
-/
import proofs.«400824_j17051020165276_3_alg».proof.Proof.Gen.KernelIdeal.Frame
import proofs.«400824_j17051020165276_3_alg».proof.Proof.Dispatch
import Idealize.ShloMosaic.Lib.StableHlo.Predicate

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ)

/-- The segment-number words of the tokens on core `c`. -/
abbrev segW (c : Dev nD) : S16384.Idx → BitVec 32 := m ((c : Thread nD τ).loc main_arg4)

/-- Token `n`'s segment number, as a natural number. -/
def segN (c : Dev nD) (n : Fin 16384) : ℕ := (segW m c (Shape.Idx.ofFin n)).toNat

end Cert.KernelIdeal.Gen

end
-- ==== Proof.HostTilesEq.lean ====
/-
  The wrapper's tile bookkeeping, stage by stage: each buffer of the chain from the tokens' segment numbers to the
  per-tile segment table, as the composition of integer vector operations that computes it from the buffers before
  it (the counts from the segment numbers themselves).
-/
import proofs.«400824_j17051020165276_3_alg».proof.Proof.HostStep
import proofs.«400824_j17051020165276_3_alg».proof.Proof.HostSeg

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ)

/-- The floor division of a vector of four words by 512: the truncating quotient, lowered by one where the signs
    differ and the remainder is not zero. -/
abbrev fdiv512 (x : S4.Idx → BitVec 32) : S4.Idx → BitVec 32 :=
  select
    (andi (cmpi .ne (signi x) (broadcastInDim S4 ![] bcast_S_S4 (signi (constantI S_ 32 512#32))))
      (cmpi .ne (Host.remsi x (broadcastInDim S4 ![] bcast_S_S4 (constantI S_ 32 512#32)))
        (broadcastInDim S4 ![] bcast_S_S4 (constantI S_ 32 0#32))))
    (subi (Host.divsi x (broadcastInDim S4 ![] bcast_S_S4 (constantI S_ 32 512#32)))
      (broadcastInDim S4 ![] bcast_S_S4 (constantI S_ 32 1#32)))
    (Host.divsi x (broadcastInDim S4 ![] bcast_S_S4 (constantI S_ 32 512#32)))

set_option maxRecDepth 200000 in
set_option maxHeartbeats 4000000 in
/-- The token counts: the sum over the tokens of the widened mask "token n is of segment s". -/
theorem e_v7 (c : Dev nD) : (V m c main_v7 : S4.Idx → BitVec 32) =
    Host.reduce IntOp.addi
      (extui 32 (cmpi .eq
        (broadcastInDim S16384x4 ![0, 1] bcast_S16384x1_S16384x4_0_1 (broadcastInDim S16384x1 ![0] bcast_S16384_S16384x1_0 (segW m c)))
        (broadcastInDim S16384x4 ![0, 1] bcast_S1x4_S16384x4_0_1 (broadcastInDim S1x4 ![1] bcast_S4_S1x4_1 (iotaInDim S4 32 0)))) natLt_1_32)
      (constantI S_ 32 0#32) reducesTo_S16384x4_S4_d0 h_S_ := by
  host_step

set_option maxRecDepth 200000 in
set_option maxHeartbeats 4000000 in
/-- The padded counts: (count + 512 - 1) floor-divided by 512, times 512. -/
theorem e_v14 (c : Dev nD) : (V m c main_v14 : S4.Idx → BitVec 32) =
    muli
      (fdiv512 (subi (addi (V m c main_v7 : S4.Idx → BitVec 32) (broadcastInDim S4 ![] bcast_S_S4 (constantI S_ 32 512#32)))
        (broadcastInDim S4 ![] bcast_S_S4 (constantI S_ 32 1#32))))
      (broadcastInDim S4 ![] bcast_S_S4 (constantI S_ 32 512#32)) := by
  host_step

set_option maxRecDepth 200000 in
set_option maxHeartbeats 4000000 in
/-- The starts: the running sum of the padded counts less the padded count itself. -/
theorem e_v16 (c : Dev nD) : (V m c main_v16 : S4.Idx → BitVec 32) =
    subi
      (Host.reduceWindow IntOp.addi ![4] ![1] ![3] ![0] (V m c main_v14 : S4.Idx → BitVec 32)
        (broadcastInDim S_ ![] bcast_S_S_ (constantI S_ 32 0#32)) reduceWindows_S4_S4_w4s1p3_0 h_S_)
      (V m c main_v14 : S4.Idx → BitVec 32) := by
  host_step

set_option maxRecDepth 200000 in
set_option maxHeartbeats 4000000 in
/-- The runs' lengths in tiles. -/
theorem e_v41 (c : Dev nD) : (V m c main_v41 : S4.Idx → BitVec 32) = fdiv512 (V m c main_v14 : S4.Idx → BitVec 32) := by
  host_step

set_option maxRecDepth 200000 in
set_option maxHeartbeats 4000000 in
/-- The runs' first tiles. -/
theorem e_v42 (c : Dev nD) : (V m c main_v42 : S4.Idx → BitVec 32) = fdiv512 (V m c main_v16 : S4.Idx → BitVec 32) := by
  host_step

set_option maxRecDepth 200000 in
set_option maxHeartbeats 4000000 in
/-- The tiles' segment numbers: along the four segments, the sum of "tile i lies in segment s's run", widened,
    times s. -/
theorem e_v60 (c : Dev nD) : (V m c main_v60 : S36.Idx → BitVec 32) =
    Host.reduce IntOp.addi
      (muli
        (extui 32
          (andi
            (cmpi .sge
              (broadcastInDim S36x4 ![0, 1] bcast_S36x1_S36x4_0_1 (broadcastInDim S36x1 ![0] bcast_S36_S36x1_0 (iotaInDim S36 32 0)))
              (broadcastInDim S36x4 ![0, 1] bcast_S1x4_S36x4_0_1 (broadcastInDim S1x4 ![1] bcast_S4_S1x4_1 (V m c main_v42 : S4.Idx → BitVec 32))))
            (cmpi .slt
              (broadcastInDim S36x4 ![0, 1] bcast_S36x1_S36x4_0_1 (broadcastInDim S36x1 ![0] bcast_S36_S36x1_0 (iotaInDim S36 32 0)))
              (broadcastInDim S36x4 ![0, 1] bcast_S1x4_S36x4_0_1 (broadcastInDim S1x4 ![1] bcast_S4_S1x4_1
                (addi (V m c main_v42 : S4.Idx → BitVec 32) (V m c main_v41 : S4.Idx → BitVec 32))))))
          natLt_1_32)
        (broadcastInDim S36x4 ![0, 1] bcast_S1x4_S36x4_0_1 (broadcastInDim S1x4 ![1] bcast_S4_S1x4_1 (iotaInDim S4 32 0))))
      (constantI S_ 32 0#32) reducesTo_S36x4_S36_d1 h_S_ := by
  host_step

end Cert.KernelIdeal.Gen

end
-- ==== Proof.LibWord.lean ====
/-
  Small non-negative 32-bit words under the integer operations jnp's index arithmetic prints to: the floor
  division by 512 (a truncating division corrected by the signs and the remainder), the wrap of a negative index
  (`where (i < 0, i + n, i)`), the clamp to [0, hi] with the constant first, and the in-range test of a gather
  with fill.  Each says that on words whose value is below 2³¹ (and in the stated range) the operation is the
  arithmetic one on the values.
-/
import Idealize.ShloMosaic.Lib.StableHlo.Predicate
import Idealize.ShloMosaic.PureOps.Float

namespace Cert.LibWord

open Idealize.ShloMosaic Idealize.ShloMosaic.StableHlo.Predicate

/-- The sign of a word as an integer: 0, 1 or -1 (the pointwise body of the vector operation `signi`). -/
def sgn (x : BitVec 32) : BitVec 32 := if x = 0 then 0 else if x.msb then -1 else 1

theorem signi_apply {s : Shape} (x : IVec s 32) (i : s.Idx) : signi x i = sgn (x i) := rfl

/-! ## Helpers -/

/-- A word below 2³¹ has its top bit clear. -/
theorem msb_false_of_lt {a : BitVec 32} (ha : a.toNat < 2 ^ 31) : a.msb = false :=
  BitVec.msb_eq_false_iff_two_mul_lt.mpr (by omega)

/-- A bit that is not one is zero. -/
theorem bit_eq_zero_of_ne_one {c : BitVec 1} (h : ¬ c = 1#1) : c = 0#1 := by
  rcases BitVec.eq_zero_or_eq_one c with h0 | h1
  · exact h0
  · exact absurd h1 h

/-- A selection on a cleared bit takes the second branch. -/
theorem select_zero {α : Type} (a b : α) : Scalar.select 0#1 a b = b := by
  unfold Scalar.select
  exact if_neg (by decide)

/-- Division by 512 meets neither corner: the divisor is neither 0 nor -1. -/
theorem not_corner512 (a : BitVec 32) : ¬ IntOp.SDivCorner a 512#32 := by
  intro hc
  rcases hc with hc | ⟨_, hc⟩ <;> exact absurd hc (by decide)

/-- The truncating quotient of a non-negative word by 512 is the quotient of the values. -/
theorem divsi512 (a : BitVec 32) (ha : a.toNat < 2 ^ 31) :
    IntOp.divsi .host a 512#32 = BitVec.ofNat 32 (a.toNat / 512) := by
  have hm : a.msb = false := msb_false_of_lt ha
  apply BitVec.eq_of_toNat_eq
  simp only [IntOp.divsi, if_neg (not_corner512 a), BitVec.sdiv_eq, hm,
    show (512#32 : BitVec 32).msb = false from by decide, BitVec.udiv_eq, BitVec.toNat_udiv, BitVec.toNat_ofNat, Nat.reducePow, Nat.reduceMod]
  omega

/-- The sign of a positive word below 2³¹ is one. -/
theorem sgn_pos {a : BitVec 32} (ha : a.toNat < 2 ^ 31) (h0 : a ≠ 0) : sgn a = 1#32 := by
  unfold sgn
  rw [if_neg h0, msb_false_of_lt ha]
  rfl

/-- jnp's `floor_divide (a, 512)` on a non-negative word: the truncating quotient, lowered by one when the signs
    differ and the remainder is not zero — which never happens here — is the quotient of the values. -/
theorem floorDiv512 (a : BitVec 32) (ha : a.toNat < 2 ^ 31) :
    Scalar.select (IntOp.andi (IntOp.cmpi .ne (sgn a) (sgn 512#32)) (IntOp.cmpi .ne (IntOp.remsi .host a 512#32) 0#32))
      (IntOp.subi (IntOp.divsi .host a 512#32) 1#32) (IntOp.divsi .host a 512#32)
      = BitVec.ofNat 32 (a.toNat / 512) := by
  -- the correction's condition is the cleared bit: at 0 the remainder vanishes, above 0 the signs agree
  have hc : IntOp.andi (IntOp.cmpi .ne (sgn a) (sgn 512#32)) (IntOp.cmpi .ne (IntOp.remsi .host a 512#32) 0#32) = 0#1 := by
    by_cases h0 : a = 0
    · subst h0
      have hr : IntOp.remsi .host (0 : BitVec 32) 512#32 = 0#32 := by
        simp only [IntOp.remsi, if_neg (not_corner512 0)]
        decide
      rw [hr]
      have : IntOp.cmpi .ne (0#32 : BitVec 32) 0#32 = 0#1 := by decide
      rw [this]
      unfold IntOp.andi
      exact BitVec.and_zero
    · have h512 : sgn 512#32 = 1#32 := by unfold sgn; decide
      rw [sgn_pos ha h0, h512]
      have : IntOp.cmpi .ne (1#32 : BitVec 32) 1#32 = 0#1 := by decide
      rw [this]
      unfold IntOp.andi
      exact BitVec.zero_and
  rw [hc, select_zero]
  exact divsi512 a ha

/-- A non-negative word is not below zero in the signed order. -/
theorem not_slt_zero {a : BitVec 32} (ha : a.toNat < 2 ^ 31) : IntOp.cmpi .slt a 0#32 = 0#1 := by
  apply bit_eq_zero_of_ne_one
  intro h
  have := (slt_iff_toNat ha (by decide)).mp h
  simp only [BitVec.toNat_ofNat] at this
  omega

/-- The wrap of a negative index leaves a non-negative word alone. -/
theorem wrapNeg (a k : BitVec 32) (ha : a.toNat < 2 ^ 31) :
    Scalar.select (IntOp.cmpi .slt a 0#32) (IntOp.addi a k) a = a := by
  rw [not_slt_zero ha, select_zero]

/-- The clamp to [0, hi], the constants first (`minimum (hi, maximum (0, a))`), of a word already there. -/
theorem clamp0 (a hi : BitVec 32) (hhi : hi.toNat < 2 ^ 31) (ha : a.toNat ≤ hi.toNat) :
    IntOp.minsi hi (IntOp.maxsi 0#32 a) = a := by
  have ha' : a.toNat < 2 ^ 31 := by omega
  have hti : a.toInt = a.toNat := toInt_eq_toNat_of_lt ha'
  have hth : hi.toInt = hi.toNat := toInt_eq_toNat_of_lt hhi
  have h0 : (0#32 : BitVec 32).toInt = 0 := by decide
  -- the larger of 0 and a is a: a is not below 0
  have hmax : IntOp.maxsi 0#32 a = a := by
    unfold IntOp.maxsi
    have hn : ¬ (a.slt 0#32 = true) := by
      simp only [BitVec.slt, hti, h0, decide_eq_true_eq]
      omega
    exact if_neg hn
  rw [hmax]
  -- the smaller of hi and a is a: hi is not below a
  unfold IntOp.minsi
  have hn : ¬ (hi.slt a = true) := by
    simp only [BitVec.slt, hti, hth, decide_eq_true_eq]
    omega
  exact if_neg hn

/-- The in-range test `0 ≤ a ∧ a ≤ hi` of a word that is in range. -/
theorem inRange (a hi : BitVec 32) (hhi : hi.toNat < 2 ^ 31) (ha : a.toNat ≤ hi.toNat) :
    IntOp.andi (IntOp.cmpi .sge a 0#32) (IntOp.cmpi .sle a hi) = 1#1 := by
  have ha' : a.toNat < 2 ^ 31 := by omega
  have h1 : IntOp.cmpi .sge a 0#32 = 1#1 :=
    (sge_iff_toNat ha' (by decide)).mpr (by simp only [BitVec.toNat_ofNat]; omega)
  have h2 : IntOp.cmpi .sle a hi = 1#1 := (sle_iff_toNat ha' hhi).mpr ha
  rw [h1, h2]
  decide

/-- Words of small values add, subtract and multiply as their values. -/
theorem ofNat_add (a b : ℕ) : BitVec.ofNat 32 a + BitVec.ofNat 32 b = BitVec.ofNat 32 (a + b) := by
  apply BitVec.eq_of_toNat_eq
  simp only [BitVec.toNat_add, BitVec.toNat_ofNat]
  omega
theorem ofNat_sub (a b : ℕ) (h : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega
theorem ofNat_mul (a b : ℕ) : BitVec.ofNat 32 a * BitVec.ofNat 32 b = BitVec.ofNat 32 (a * b) := by
  apply BitVec.eq_of_toNat_eq
  simp only [BitVec.toNat_mul, BitVec.toNat_ofNat]
  exact (Nat.mul_mod a b (2 ^ 32)).symm
theorem eq_ofNat_toNat (a : BitVec 32) : a = BitVec.ofNat 32 a.toNat := by
  apply BitVec.eq_of_toNat_eq
  rw [BitVec.toNat_ofNat]
  exact (Nat.mod_eq_of_lt a.isLt).symm
theorem toNat_ofNat_lt (a : ℕ) (h : a < 2 ^ 32) : (BitVec.ofNat 32 a).toNat = a := by
  rw [BitVec.toNat_ofNat]
  exact Nat.mod_eq_of_lt h
/-- The signed order tests on small values, as the tests on the values (results as bits). -/
theorem cmpi_sge_ofNat (a b : ℕ) (ha : a < 2 ^ 31) (hb : b < 2 ^ 31) :
    IntOp.cmpi .sge (BitVec.ofNat 32 a) (BitVec.ofNat 32 b) = if b ≤ a then 1#1 else 0#1 := by
  have key : IntOp.cmpi .sge (BitVec.ofNat 32 a) (BitVec.ofNat 32 b) = 1#1 ↔ b ≤ a := by
    unfold IntOp.cmpi
    exact sle_ofNat_iff b a hb ha
  by_cases h : b ≤ a
  · rw [if_pos h]
    exact key.mpr h
  · rw [if_neg h]
    exact bit_eq_zero_of_ne_one (fun hc => h (key.mp hc))
theorem cmpi_slt_ofNat (a b : ℕ) (ha : a < 2 ^ 31) (hb : b < 2 ^ 31) :
    IntOp.cmpi .slt (BitVec.ofNat 32 a) (BitVec.ofNat 32 b) = if a < b then 1#1 else 0#1 := by
  have key : IntOp.cmpi .slt (BitVec.ofNat 32 a) (BitVec.ofNat 32 b) = 1#1 ↔ a < b := by
    unfold IntOp.cmpi
    exact slt_ofNat_iff a b ha hb
  by_cases h : a < b
  · rw [if_pos h]
    exact key.mpr h
  · rw [if_neg h]
    exact bit_eq_zero_of_ne_one (fun hc => h (key.mp hc))
theorem cmpi_eq_word (a b : BitVec 32) : IntOp.cmpi .eq a b = if a = b then 1#1 else 0#1 := by
  by_cases h : a = b
  · rw [if_pos h]
    exact cmpi_eq_iff.mpr h
  · rw [if_neg h]
    exact bit_eq_zero_of_ne_one (fun hc => h (cmpi_eq_iff.mp hc))

end Cert.LibWord
-- ==== Proof.LibWindow.lean ====
/-
  Word sums read at an index, as natural numbers.  jnp's cumulative sum, printed as a windowed reduction whose
  window covers the whole axis and is padded in front by the axis' length less one, is at each position the sum
  of the entries up to and including that position; a sum-reduction along the second axis of a rectangle of
  words is the sum of the row's entries.  Each is stated for sums that do not wrap (the total of the values
  stays below 2³²), as the value of the resulting word; the counting form says what the value is when the
  summands are widened bits.

  The road: a left fold of word addition from zero over a list has, while nothing wraps, the sum of the terms'
  values as its value; a windowed sum is such a fold over the window's positions, each position meeting an
  operand element or the padding (zero); for a window as long as the axis and padded in front by that length
  less one, position k of the window at output p is operand entry p + k - n when n ≤ p + k and padding
  otherwise, and k ↦ p + k - n matches those positions with the entries p' ≤ p.
-/
import Idealize.ShloMosaic.Lib.StableHlo.Predicate
import Idealize.ShloMosaic.PureOps.Reduce
import Idealize.ShloMosaic.PureOps.Contract
import Mathlib.Algebra.BigOperators.Fin
import Mathlib.Algebra.BigOperators.Group.Finset.Basic

namespace Cert.LibWindow

open Idealize.ShloMosaic Idealize.ShloMosaic.StableHlo.Predicate

/-- A left fold of word addition over a list, from any word: its value is the start's value plus the sum of
    the terms' values, when that total stays below 2³². -/
theorem toNat_foldl_addi {ι : Type} (g : ι → BitVec 32) (l : List ι) (a : BitVec 32)
    (h : a.toNat + (l.map fun k => (g k).toNat).sum < 2 ^ 32) :
    (l.foldl (fun r k => IntOp.addi r (g k)) a).toNat = a.toNat + (l.map fun k => (g k).toNat).sum := by
  induction l generalizing a with
  | nil => simp
  | cons k l ih =>
    simp only [List.foldl_cons, List.map_cons, List.sum_cons] at h ⊢
    have e : (IntOp.addi a (g k)).toNat = a.toNat + (g k).toNat := by
      show (a + g k).toNat = _
      rw [BitVec.toNat_add]; exact Nat.mod_eq_of_lt (by omega)
    rw [ih _ (by rw [e]; omega), e]; omega

/-- The word a windowed reduction meets at window position w of output index j: the operand's element when
    the position lies inside the operand, else the padding value v. -/
def winTerm {s t : Shape} (window strides lo hi : Fin s.rank → Nat) (x : IVec s 32) (v : BitVec 32)
    (h : s.ReduceWindows window strides lo hi t) (j : t.Idx) (w : (⟨s.rank, window⟩ : Shape).Idx) : BitVec 32 :=
  if hin : ∀ a, lo a ≤ (j (a.cast h.1.symm)).val * strides a + (w a).val
      ∧ (j (a.cast h.1.symm)).val * strides a + (w a).val - lo a < s.size a
  then x (fun a => ⟨(j (a.cast h.1.symm)).val * strides a + (w a).val - lo a, (hin a).2⟩) else v

/-- A windowed sum of words padded with zero, when it does not wrap, is the sum over the window's positions
    of the values met there. -/
theorem toNat_reduceWindow_addi {s t u : Shape} (window strides lo hi : Fin s.rank → Nat) (x : IVec s 32)
    (hu : 0 < u.numel) (h : s.ReduceWindows window strides lo hi t) (j : t.Idx)
    (hS : ∑ w : (⟨s.rank, window⟩ : Shape).Idx, (winTerm window strides lo hi x 0#32 h j w).toNat < 2 ^ 32) :
    (Host.reduceWindow IntOp.addi window strides lo hi x (constantI u 32 0#32) h hu j).toNat
      = ∑ w : (⟨s.rank, window⟩ : Shape).Idx, (winTerm window strides lo hi x 0#32 h j w).toNat := by
  have hsum : ((List.finRange (⟨s.rank, window⟩ : Shape).numel).map fun k =>
        (winTerm window strides lo hi x 0#32 h j ((⟨s.rank, window⟩ : Shape).rowMajor.symm k)).toNat).sum
      = ∑ w : (⟨s.rank, window⟩ : Shape).Idx, (winTerm window strides lo hi x 0#32 h j w).toNat := by
    exact (Fin.sum_univ_def (fun k => (winTerm window strides lo hi x 0#32 h j
      ((⟨s.rank, window⟩ : Shape).rowMajor.symm k)).toNat)).symm.trans
      (Equiv.sum_comp (⟨s.rank, window⟩ : Shape).rowMajor.symm (fun w => (winTerm window strides lo hi x 0#32 h j w).toNat))
  have key := toNat_foldl_addi
    (fun k => winTerm window strides lo hi x 0#32 h j ((⟨s.rank, window⟩ : Shape).rowMajor.symm k))
    (List.finRange (⟨s.rank, window⟩ : Shape).numel) 0#32 (by rw [hsum]; simpa using hS)
  rw [hsum] at key
  exact key.trans (Nat.zero_add _)

/-- Shifting a full-length window that ends at p: the positions k with n ≤ p + k are the rows p + k - n ≤ p. -/
theorem sum_window_shift {n : Nat} (p : Fin (n + 1)) (f : Fin (n + 1) → Nat) :
    ∑ k : Fin (n + 1), (if hk : n ≤ p.val + k.val then f ⟨p.val + k.val - n, by omega⟩ else 0)
      = ∑ p' ∈ Finset.univ.filter (fun p' : Fin (n + 1) => p'.val ≤ p.val), f p' := by
  rw [← Finset.sum_filter_of_ne (p := fun k : Fin (n + 1) => n ≤ p.val + k.val)]
  · refine Finset.sum_bij' (fun k _ => (⟨p.val + k.val - n, by omega⟩ : Fin (n + 1)))
      (fun p' hp' => (⟨p'.val + n - p.val, by have := (Finset.mem_filter.1 hp').2; omega⟩ : Fin (n + 1)))
      ?_ ?_ ?_ ?_ ?_
    · intro k hk
      have := (Finset.mem_filter.1 hk).2
      exact Finset.mem_filter.2 ⟨Finset.mem_univ _, by show p.val + k.val - n ≤ p.val; omega⟩
    · intro p' hp'
      have := (Finset.mem_filter.1 hp').2
      exact Finset.mem_filter.2 ⟨Finset.mem_univ _, by show n ≤ p.val + (p'.val + n - p.val); omega⟩
    · intro k hk
      have := (Finset.mem_filter.1 hk).2
      exact Fin.ext (by show p.val + k.val - n + n - p.val = k.val; omega)
    · intro p' hp'
      have := (Finset.mem_filter.1 hp').2
      exact Fin.ext (by show p.val + (p'.val + n - p.val) - n = p'.val; omega)
    · intro k hk
      exact dif_pos (Finset.mem_filter.1 hk).2
  · intro k _ hne
    by_contra hk
    exact hne (dif_neg hk)

/-- The positions of an [n+1 × 1] window are its rows. -/
def colEquiv (n : Nat) : (⟨2, ![n + 1, 1]⟩ : Shape).Idx ≃ Fin (n + 1) where
  toFun w := w 0
  invFun k := ij k (0 : Fin 1)
  left_inv w := (congrArg (ij (w 0)) (Subsingleton.elim (0 : Fin 1) (w 1))).trans (ij_eta w)
  right_inv _ := rfl

/-- Window position k of output (p, q) is padded row p + k: operand row p + k - n once n ≤ p + k, padding before. -/
theorem winTerm_rows {n m : Nat} (x : IVec ⟨2, ![n + 1, m]⟩ 32)
    (h : (⟨2, ![n + 1, m]⟩ : Shape).ReduceWindows ![n + 1, 1] ![1, 1] ![n, 0] ![0, 0] ⟨2, ![n + 1, m]⟩)
    (p : Fin (n + 1)) (q : Fin m) (k : Fin (n + 1)) :
    winTerm ![n + 1, 1] ![1, 1] ![n, 0] ![0, 0] x 0#32 h (ij p q) (ij k (0 : Fin 1))
      = if hk : n ≤ p.val + k.val then x (ij ⟨p.val + k.val - n, by omega⟩ q) else 0#32 := by
  unfold winTerm
  by_cases hk : n ≤ p.val + k.val
  · rw [dif_pos hk, dif_pos]
    · congr 1
      funext a
      match a with
      | ⟨0, _⟩ => exact Fin.ext (by show p.val * 1 + k.val - n = p.val + k.val - n; omega)
      | ⟨1, _⟩ => exact Fin.ext (by show q.val * 1 + 0 - 0 = q.val; omega)
    · intro a
      match a with
      | ⟨0, _⟩ => show n ≤ p.val * 1 + k.val ∧ p.val * 1 + k.val - n < n + 1; omega
      | ⟨1, _⟩ => show 0 ≤ q.val * 1 + 0 ∧ q.val * 1 + 0 - 0 < m; omega
  · rw [dif_neg hk, dif_neg]
    intro H
    have := (H 0).1
    exact hk (by change n ≤ p.val * 1 + k.val at this; omega)

/-- Cumulative sum down the rows of an [n+1 × m] array of words (window [n+1, 1], stride 1, padded n rows
    in front): at (p, q) the sum of the entries (p', q) with p' ≤ p, when that sum does not wrap. -/
theorem toNat_cumsum_rows {n m : Nat} (x : IVec ⟨2, ![n + 1, m]⟩ 32) {u : Shape} (hu : 0 < u.numel)
    (h : (⟨2, ![n + 1, m]⟩ : Shape).ReduceWindows ![n + 1, 1] ![1, 1] ![n, 0] ![0, 0] ⟨2, ![n + 1, m]⟩)
    (p : Fin (n + 1)) (q : Fin m)
    (hS : ∑ p' ∈ Finset.univ.filter (fun p' : Fin (n + 1) => p'.val ≤ p.val), (x (ij p' q)).toNat < 2 ^ 32) :
    (Host.reduceWindow IntOp.addi ![n + 1, 1] ![1, 1] ![n, 0] ![0, 0] x (constantI u 32 0#32) h hu (ij p q)).toNat
      = ∑ p' ∈ Finset.univ.filter (fun p' : Fin (n + 1) => p'.val ≤ p.val), (x (ij p' q)).toNat := by
  have hwin : ∑ w : (⟨2, ![n + 1, 1]⟩ : Shape).Idx,
        (winTerm ![n + 1, 1] ![1, 1] ![n, 0] ![0, 0] x 0#32 h (ij p q) w).toNat
      = ∑ p' ∈ Finset.univ.filter (fun p' : Fin (n + 1) => p'.val ≤ p.val), (x (ij p' q)).toNat := by
    rw [← sum_window_shift p (fun p' => (x (ij p' q)).toNat)]
    refine (Fintype.sum_equiv (colEquiv n).symm _ _ ?_).symm
    intro k
    show _ = (winTerm ![n + 1, 1] ![1, 1] ![n, 0] ![0, 0] x 0#32 h (ij p q) (ij k (0 : Fin 1))).toNat
    rw [winTerm_rows]
    split <;> rfl
  exact (toNat_reduceWindow_addi _ _ _ _ x hu h (ij p q) (lt_of_eq_of_lt hwin hS)).trans hwin

/-- The same when the entries are widened bits: the value is the number of set bits up to the position. -/
theorem toNat_cumsum_rows_count {n m : Nat} (hn : n + 1 < 2 ^ 32) (mask : IVec ⟨2, ![n + 1, m]⟩ 1) (hw : 1 < 32)
    {u : Shape} (hu : 0 < u.numel)
    (h : (⟨2, ![n + 1, m]⟩ : Shape).ReduceWindows ![n + 1, 1] ![1, 1] ![n, 0] ![0, 0] ⟨2, ![n + 1, m]⟩)
    (p : Fin (n + 1)) (q : Fin m) :
    (Host.reduceWindow IntOp.addi ![n + 1, 1] ![1, 1] ![n, 0] ![0, 0] (extui 32 mask hw) (constantI u 32 0#32) h hu (ij p q)).toNat
      = (Finset.univ.filter (fun p' : Fin (n + 1) => p'.val ≤ p.val ∧ mask (ij p' q) = 1#1)).card := by
  have hsum : ∑ p' ∈ Finset.univ.filter (fun p' : Fin (n + 1) => p'.val ≤ p.val), (extui 32 mask hw (ij p' q)).toNat
      = (Finset.univ.filter (fun p' : Fin (n + 1) => p'.val ≤ p.val ∧ mask (ij p' q) = 1#1)).card := by
    rw [← Finset.filter_filter, Finset.card_filter]
    exact Finset.sum_congr rfl fun p' _ => toNat_setWidth_bit (mask (ij p' q))
  have hlt : ∑ p' ∈ Finset.univ.filter (fun p' : Fin (n + 1) => p'.val ≤ p.val), (extui 32 mask hw (ij p' q)).toNat < 2 ^ 32 := by
    rw [hsum]
    exact lt_of_le_of_lt (Finset.card_le_univ _) (by simpa using hn)
  rw [toNat_cumsum_rows (extui 32 mask hw) hu h p q hlt, hsum]

/-- The positions of a window of n+1 are 0 … n. -/
def vecEquiv (n : Nat) : (⟨1, ![n + 1]⟩ : Shape).Idx ≃ Fin (n + 1) where
  toFun w := w 0
  invFun k := Shape.Idx.ofFin k
  left_inv w := (Shape.Idx.eq_ofFin w).symm
  right_inv _ := rfl

/-- Window position k of output p is padded position p + k: operand position p + k - n once n ≤ p + k. -/
theorem winTerm_vec {n : Nat} (x : IVec ⟨1, ![n + 1]⟩ 32)
    (h : (⟨1, ![n + 1]⟩ : Shape).ReduceWindows ![n + 1] ![1] ![n] ![0] ⟨1, ![n + 1]⟩) (p k : Fin (n + 1)) :
    winTerm ![n + 1] ![1] ![n] ![0] x 0#32 h (Shape.Idx.ofFin p) (Shape.Idx.ofFin k)
      = if hk : n ≤ p.val + k.val then x (Shape.Idx.ofFin ⟨p.val + k.val - n, by omega⟩) else 0#32 := by
  unfold winTerm
  by_cases hk : n ≤ p.val + k.val
  · rw [dif_pos hk, dif_pos]
    · congr 1
      funext a
      match a with
      | ⟨0, _⟩ => exact Fin.ext (by show p.val * 1 + k.val - n = p.val + k.val - n; omega)
    · intro a
      match a with
      | ⟨0, _⟩ => show n ≤ p.val * 1 + k.val ∧ p.val * 1 + k.val - n < n + 1; omega
  · rw [dif_neg hk, dif_neg]
    intro H
    have := (H 0).1
    exact hk (by change n ≤ p.val * 1 + k.val at this; omega)

/-- Cumulative sum of a vector of n+1 words (window n+1, padded n in front), when it does not wrap. -/
theorem toNat_cumsum_vec {n : Nat} (x : IVec ⟨1, ![n + 1]⟩ 32) {u : Shape} (hu : 0 < u.numel)
    (h : (⟨1, ![n + 1]⟩ : Shape).ReduceWindows ![n + 1] ![1] ![n] ![0] ⟨1, ![n + 1]⟩) (p : Fin (n + 1))
    (hS : ∑ p' ∈ Finset.univ.filter (fun p' : Fin (n + 1) => p'.val ≤ p.val), (x (Shape.Idx.ofFin p')).toNat < 2 ^ 32) :
    (Host.reduceWindow IntOp.addi ![n + 1] ![1] ![n] ![0] x (constantI u 32 0#32) h hu (Shape.Idx.ofFin p)).toNat
      = ∑ p' ∈ Finset.univ.filter (fun p' : Fin (n + 1) => p'.val ≤ p.val), (x (Shape.Idx.ofFin p')).toNat := by
  have hwin : ∑ w : (⟨1, ![n + 1]⟩ : Shape).Idx,
        (winTerm ![n + 1] ![1] ![n] ![0] x 0#32 h (Shape.Idx.ofFin p) w).toNat
      = ∑ p' ∈ Finset.univ.filter (fun p' : Fin (n + 1) => p'.val ≤ p.val), (x (Shape.Idx.ofFin p')).toNat := by
    rw [← sum_window_shift p (fun p' => (x (Shape.Idx.ofFin p')).toNat)]
    refine (Fintype.sum_equiv (vecEquiv n).symm _ _ ?_).symm
    intro k
    show _ = (winTerm ![n + 1] ![1] ![n] ![0] x 0#32 h (Shape.Idx.ofFin p) (Shape.Idx.ofFin k)).toNat
    rw [winTerm_vec]
    split <;> rfl
  exact (toNat_reduceWindow_addi _ _ _ _ x hu h (Shape.Idx.ofFin p) (lt_of_eq_of_lt hwin hS)).trans hwin

/-- A sum-reduction of words along the second axis of an [n × m] rectangle: at row p the sum of the row's
    values, when it does not wrap. -/
theorem toNat_reduce_add_cols {n m : Nat} (x : IVec ⟨2, ![n, m]⟩ 32)
    (h : (⟨2, ![n, m]⟩ : Shape).ReducesTo [1] ⟨1, ![n]⟩) {u : Shape} (hu : 0 < u.numel) (p : Fin n)
    (hS : ∑ q : Fin m, (x (ij p q)).toNat < 2 ^ 32) :
    (Host.reduce IntOp.addi x (constantI u 32 0#32) h hu (Shape.Idx.ofFin p)).toNat = ∑ q : Fin m, (x (ij p q)).toNat := by
  classical
  rw [Host.reduce_eq_fold]
  -- an index drops to p exactly when its row is p
  have hdrop : ∀ i : (⟨2, ![n, m]⟩ : Shape).Idx, h.drop i = Shape.Idx.ofFin p ↔ i 0 = p := by
    intro i
    have hv : (h.drop i 0 : Nat) = i 0 := Shape.ReducesTo.drop_apply_val h i 0
    constructor
    · intro e; rw [e] at hv; exact Fin.ext hv.symm
    · intro e; funext b
      match b with
      | ⟨0, _⟩ => exact Fin.ext (hv.trans (congrArg Fin.val e))
  -- an index of row p is (p, its column), so the indices dropping to p are summed by their columns
  have hback : ∀ i : (⟨2, ![n, m]⟩ : Shape).Idx, i 0 = p → ij p (i 1) = i := fun i h0 => by
    rw [← h0]; exact ij_eta i
  have hsum : ∑ i ∈ Finset.univ.filter (fun i : (⟨2, ![n, m]⟩ : Shape).Idx => h.drop i = Shape.Idx.ofFin p), (x i).toNat
      = ∑ q : Fin m, (x (ij p q)).toNat := by
    refine Finset.sum_bij' (fun i _ => i 1) (fun q _ => ij p q) (fun _ _ => Finset.mem_univ _)
      (fun q _ => Finset.mem_filter.2 ⟨Finset.mem_univ _, (hdrop _).2 rfl⟩)
      (fun i hi => hback i ((hdrop i).1 (Finset.mem_filter.1 hi).2)) (fun _ _ => rfl) ?_
    intro i hi
    exact congrArg (fun z => (x z).toNat) (hback i ((hdrop i).1 (Finset.mem_filter.1 hi).2)).symm
  show (Finset.fold IntOp.addi 0#32 x
    (Finset.univ.filter fun i : (⟨2, ![n, m]⟩ : Shape).Idx => h.drop i = Shape.Idx.ofFin p)).toNat = _
  rw [toNat_fold_addi _ _ (lt_of_eq_of_lt hsum hS), hsum]

/-! The statements at the extents they are used at. -/

example (x : IVec ⟨2, ![16384, 4]⟩ 32) {u : Shape} (hu : 0 < u.numel) (p : Fin 16384) (q : Fin 4)
    (hS : ∑ p' ∈ Finset.univ.filter (fun p' : Fin 16384 => p'.val ≤ p.val), (x (ij p' q)).toNat < 2 ^ 32) :
    (Host.reduceWindow IntOp.addi ![16384, 1] ![1, 1] ![16383, 0] ![0, 0] x (constantI u 32 0#32) (by decide) hu (ij p q)).toNat
      = ∑ p' ∈ Finset.univ.filter (fun p' : Fin 16384 => p'.val ≤ p.val), (x (ij p' q)).toNat := by
  exact toNat_cumsum_rows (n := 16383) (m := 4) x hu (by decide) p q hS

example (mask : IVec ⟨2, ![16384, 4]⟩ 1) {u : Shape} (hu : 0 < u.numel) (p : Fin 16384) (q : Fin 4) :
    (Host.reduceWindow IntOp.addi ![16384, 1] ![1, 1] ![16383, 0] ![0, 0] (extui 32 mask (by decide)) (constantI u 32 0#32)
      (by decide) hu (ij p q)).toNat
      = (Finset.univ.filter (fun p' : Fin 16384 => p'.val ≤ p.val ∧ mask (ij p' q) = 1#1)).card := by
  exact toNat_cumsum_rows_count (n := 16383) (m := 4) (by decide) mask (by decide) hu (by decide) p q

example (x : IVec ⟨1, ![4]⟩ 32) {u : Shape} (hu : 0 < u.numel) (p : Fin 4)
    (hS : ∑ p' ∈ Finset.univ.filter (fun p' : Fin 4 => p'.val ≤ p.val), (x (Shape.Idx.ofFin p')).toNat < 2 ^ 32) :
    (Host.reduceWindow IntOp.addi ![4] ![1] ![3] ![0] x (constantI u 32 0#32) (by decide) hu (Shape.Idx.ofFin p)).toNat
      = ∑ p' ∈ Finset.univ.filter (fun p' : Fin 4 => p'.val ≤ p.val), (x (Shape.Idx.ofFin p')).toNat := by
  exact toNat_cumsum_vec (n := 3) x hu (by decide) p hS

example (x : IVec ⟨2, ![16384, 4]⟩ 32) {u : Shape} (hu : 0 < u.numel) (p : Fin 16384)
    (hS : ∑ q : Fin 4, (x (ij p q)).toNat < 2 ^ 32) :
    (Host.reduce (axes := [1]) IntOp.addi x (constantI u 32 0#32) (by decide) hu (Shape.Idx.ofFin p)).toNat = ∑ q : Fin 4, (x (ij p q)).toNat := by
  exact toNat_reduce_add_cols x (by decide) hu p hS

end Cert.LibWindow
-- ==== Proof.HostTiles.lean ====
/-
  The wrapper's tile bookkeeping as words: the per-segment token counts, their round-up to multiples of 512, the
  running starts of the segments' padded runs, and the per-tile segment number the kernel's index maps read — each
  word is the corresponding natural number of the dispatch arithmetic.
-/
import proofs.«400824_j17051020165276_3_alg».proof.Proof.HostTilesEq
import proofs.«400824_j17051020165276_3_alg».proof.Proof.HostStep
import proofs.«400824_j17051020165276_3_alg».proof.Proof.HostSeg
import proofs.«400824_j17051020165276_3_alg».proof.Proof.Dispatch
import proofs.«400824_j17051020165276_3_alg».proof.Proof.LibWord
import proofs.«400824_j17051020165276_3_alg».proof.Proof.LibWindow
import Idealize.ShloMosaic.Lib.StableHlo.Predicate

noncomputable section

namespace Cert.KernelIdeal.Gen

open Idealize.ShloMosaic Idealize.ShloMosaic.TcCoe Idealize.SL.Sem Idealize.ShloMosaic.StableHlo Idealize.ShloMosaic.StableHlo.Predicate
open Cert.Dispatch

variable {F : FTy → Type} [FloatOps F]
variable (m : (ℓ : Loc nD τ sig) → Buf (Elt F) ℓ)

/-! ## Sizes: the padded runs are short whatever the segment numbers are -/

theorem pc_small (σ : Fin 16384 → ℕ) (s : ℕ) : pc σ s ≤ 16895 := by
  have h1 := pc_le σ s
  have h2 : cnt σ s ≤ 16384 := cumTo_le σ 16384 s
  omega

theorem incl_small (σ : Fin 16384 → ℕ) (s : ℕ) (hs : s < 4) : incl σ s ≤ 67580 := by
  have p0 := pc_small σ 0
  have p1 := pc_small σ 1
  have p2 := pc_small σ 2
  have p3 := pc_small σ 3
  unfold incl
  interval_cases s <;> simp only [Finset.sum_range_succ, Finset.sum_range_zero, zero_add] <;> omega

theorem st_small (σ : Fin 16384 → ℕ) (s : ℕ) (hs : s < 4) : st σ s ≤ 67580 := by
  have h := incl_small σ s hs
  unfold st
  omega

/-! ## Small tools -/

/-- The floor division by 512 read at a position holding a non-negative word: the quotient of the value. -/
theorem fdiv512_apply (x : S4.Idx → BitVec 32) (i : S4.Idx) (hx : (x i).toNat < 2 ^ 31) :
    fdiv512 x i = BitVec.ofNat 32 ((x i).toNat / 512) := by
  show Scalar.select
      (IntOp.andi (IntOp.cmpi .ne (LibWord.sgn (x i)) (LibWord.sgn 512#32)) (IntOp.cmpi .ne (IntOp.remsi .host (x i) 512#32) 0#32))
      (IntOp.subi (IntOp.divsi .host (x i) 512#32) 1#32) (IntOp.divsi .host (x i) 512#32) = _
  exact LibWord.floorDiv512 (x i) hx

/-- A sum over the positions of a vector of four up to position s is the sum over 0 … s. -/
theorem sum_le_fin4 (f : ℕ → ℕ) (s : Fin 4) :
    ∑ p' ∈ Finset.univ.filter (fun p' : Fin 4 => p'.val ≤ s.val), f p'.val = ∑ s' ∈ Finset.range (s.val + 1), f s' := by
  rw [Finset.sum_filter, Fin.sum_univ_eq_sum_range (fun i => if i ≤ s.val then f i else 0) 4, ← Finset.sum_filter]
  congr 1
  ext i
  simp only [Finset.mem_filter, Finset.mem_range]
  have := s.isLt
  omega

/-- Two test bits, their conjunction widened, times a small number: the number when both tests hold, else zero. -/
theorem bits_mul (P Q : Prop) [Decidable P] [Decidable Q] (k : ℕ) :
    IntOp.muli ((IntOp.andi (if P then 1#1 else 0#1) (if Q then 1#1 else 0#1)).setWidth 32) (BitVec.ofNat 32 k)
      = BitVec.ofNat 32 ((if P ∧ Q then 1 else 0) * k) := by
  have e11 : (IntOp.andi 1#1 1#1).setWidth 32 = 1#32 := by decide
  have e10 : (IntOp.andi 1#1 0#1).setWidth 32 = 0#32 := by decide
  have e01 : (IntOp.andi 0#1 1#1).setWidth 32 = 0#32 := by decide
  have e00 : (IntOp.andi 0#1 0#1).setWidth 32 = 0#32 := by decide
  have hz : IntOp.muli 0#32 (BitVec.ofNat 32 k) = BitVec.ofNat 32 0 := BitVec.zero_mul
  have ho : IntOp.muli 1#32 (BitVec.ofNat 32 k) = BitVec.ofNat 32 k := BitVec.one_mul _
  by_cases hP : P
  · by_cases hQ : Q
    · rw [if_pos hP, if_pos hQ, if_pos ⟨hP, hQ⟩, Nat.one_mul, e11, ho]
    · rw [if_pos hP, if_neg hQ, if_neg (fun h => hQ h.2), Nat.zero_mul, e10, hz]
  · by_cases hQ : Q
    · rw [if_neg hP, if_pos hQ, if_neg (fun h => hP h.1), Nat.zero_mul, e01, hz]
    · rw [if_neg hP, if_neg hQ, if_neg (fun h => hP h.1), Nat.zero_mul, e00, hz]

/-! ## The counts -/

/-- The token count of segment s. -/
theorem cnt_word (c : Dev nD) (s : Fin 4) :
    (V m c main_v7 : S4.Idx → BitVec 32) (Shape.Idx.ofFin s) = BitVec.ofNat 32 (cnt (segN m c) s.val) := by
  have hc : cnt (segN m c) s.val ≤ 16384 := cumTo_le _ _ _
  apply BitVec.eq_of_toNat_eq
  rw [LibWord.toNat_ofNat_lt _ (by omega), e_v7 m c,
    toNat_reduce_count_rows (n := 16384) (m := 4) (by decide) _ natLt_1_32 reducesTo_S16384x4_S4_d0 h_S_]
  unfold cnt cumTo
  refine congrArg Finset.card (Finset.filter_congr ?_)
  intro p _
  -- the mask bit at (p, s): token p's word is the word of s
  show IntOp.cmpi .eq ((broadcastInDim S16384x4 ![0, 1] bcast_S16384x1_S16384x4_0_1 (broadcastInDim S16384x1 ![0] bcast_S16384_S16384x1_0 (segW m c))) (ij p s)) ((broadcastInDim S16384x4 ![0, 1] bcast_S1x4_S16384x4_0_1 (broadcastInDim S1x4 ![1] bcast_S4_S1x4_1 (iotaInDim S4 32 0))) (ij p s)) = 1#1 ↔ _
  rw [cmpi_eq_iff, bcast_rows, bcast_cols, iota_apply]
  unfold segN
  constructor
  · intro h
    refine ⟨p.isLt, ?_⟩
    rw [h]
    exact LibWord.toNat_ofNat_lt _ (by have := s.isLt; omega)
  · rintro ⟨_, h⟩
    rw [← h]
    exact LibWord.eq_ofNat_toNat _

/-- The count plus 511. -/
theorem x11_word (c : Dev nD) (s : Fin 4) :
    (subi (addi (V m c main_v7 : S4.Idx → BitVec 32) (broadcastInDim S4 ![] bcast_S_S4 (constantI S_ 32 512#32))) (broadcastInDim S4 ![] bcast_S_S4 (constantI S_ 32 1#32))) (Shape.Idx.ofFin s) = BitVec.ofNat 32 (cnt (segN m c) s.val + 511) := by
  have hc : cnt (segN m c) s.val ≤ 16384 := cumTo_le _ _ _
  show IntOp.subi (IntOp.addi ((V m c main_v7 : S4.Idx → BitVec 32) (Shape.Idx.ofFin s)) 512#32) 1#32 = _
  rw [cnt_word]
  show BitVec.ofNat 32 (cnt (segN m c) s.val) + BitVec.ofNat 32 512 - BitVec.ofNat 32 1 = _
  rw [LibWord.ofNat_add, LibWord.ofNat_sub _ _ (by omega) (by omega)]
  congr 1

/-! ## The padded counts, the starts -/

/-- The padded token count of segment `s`. -/
theorem pc_word (c : Dev nD) (s : Fin 4) :
    (V m c main_v14 : S4.Idx → BitVec 32) (Shape.Idx.ofFin s) = BitVec.ofNat 32 (pc (segN m c) s.val) := by
  have hc : cnt (segN m c) s.val ≤ 16384 := cumTo_le _ _ _
  rw [e_v14 m c]
  show IntOp.muli (fdiv512 (subi (addi (V m c main_v7 : S4.Idx → BitVec 32) (broadcastInDim S4 ![] bcast_S_S4 (constantI S_ 32 512#32))) (broadcastInDim S4 ![] bcast_S_S4 (constantI S_ 32 1#32))) (Shape.Idx.ofFin s)) 512#32 = _
  rw [fdiv512_apply _ _ (by rw [x11_word, LibWord.toNat_ofNat_lt _ (by omega)]; omega), x11_word,
    LibWord.toNat_ofNat_lt _ (by omega)]
  show BitVec.ofNat 32 ((cnt (segN m c) s.val + 511) / 512) * BitVec.ofNat 32 512 = _
  rw [LibWord.ofNat_mul]
  rfl

/-- The running sum of the padded counts at segment s: the padded runs of segments 0 … s together. -/
theorem incl_word (c : Dev nD) (s : Fin 4) :
    (Host.reduceWindow IntOp.addi ![4] ![1] ![3] ![0] (V m c main_v14 : S4.Idx → BitVec 32) (broadcastInDim S_ ![] bcast_S_S_ (constantI S_ 32 0#32)) reduceWindows_S4_S4_w4s1p3_0 h_S_) (Shape.Idx.ofFin s) = BitVec.ofNat 32 (incl (segN m c) s.val) := by
  have hsum : ∑ p' ∈ Finset.univ.filter (fun p' : Fin 4 => p'.val ≤ s.val), ((V m c main_v14 : S4.Idx → BitVec 32) (Shape.Idx.ofFin p')).toNat
      = incl (segN m c) s.val := by
    unfold incl
    rw [← sum_le_fin4 (pc (segN m c)) s]
    apply Finset.sum_congr rfl
    intro p' _
    rw [pc_word, LibWord.toNat_ofNat_lt _ (by have := pc_small (segN m c) p'.val; omega)]
  have hlt := incl_small (segN m c) s.val s.isLt
  have hinit : broadcastInDim S_ ![] bcast_S_S_ (constantI S_ 32 0#32) = constantI S_ 32 0#32 := rfl
  apply BitVec.eq_of_toNat_eq
  rw [LibWord.toNat_ofNat_lt _ (by omega), hinit]
  exact (LibWindow.toNat_cumsum_vec (n := 3) (V m c main_v14 : S4.Idx → BitVec 32) h_S_ reduceWindows_S4_S4_w4s1p3_0 s (by rw [hsum]; omega)).trans hsum

/-- The start row of segment `s`'s padded run. -/
theorem st_word (c : Dev nD) (s : Fin 4) :
    (V m c main_v16 : S4.Idx → BitVec 32) (Shape.Idx.ofFin s) = BitVec.ofNat 32 (st (segN m c) s.val) := by
  have hlt := incl_small (segN m c) s.val s.isLt
  rw [e_v16 m c]
  show IntOp.subi ((Host.reduceWindow IntOp.addi ![4] ![1] ![3] ![0] (V m c main_v14 : S4.Idx → BitVec 32) (broadcastInDim S_ ![] bcast_S_S_ (constantI S_ 32 0#32)) reduceWindows_S4_S4_w4s1p3_0 h_S_) (Shape.Idx.ofFin s)) ((V m c main_v14 : S4.Idx → BitVec 32) (Shape.Idx.ofFin s)) = _
  rw [incl_word, pc_word]
  show BitVec.ofNat 32 (incl (segN m c) s.val) - BitVec.ofNat 32 (pc (segN m c) s.val) = _
  rw [LibWord.ofNat_sub _ _ (pc_le_incl _ _) (by omega)]
  rfl

/-! ## The tile table -/

/-- The length of segment s's run in tiles. -/
theorem v41_word (c : Dev nD) (s : Fin 4) :
    (V m c main_v41 : S4.Idx → BitVec 32) (Shape.Idx.ofFin s) = BitVec.ofNat 32 (pc (segN m c) s.val / 512) := by
  have hp := pc_small (segN m c) s.val
  rw [e_v41 m c, fdiv512_apply _ _ (by rw [pc_word, LibWord.toNat_ofNat_lt _ (by omega)]; omega), pc_word,
    LibWord.toNat_ofNat_lt _ (by omega)]

/-- The first tile of segment s's run. -/
theorem v42_word (c : Dev nD) (s : Fin 4) :
    (V m c main_v42 : S4.Idx → BitVec 32) (Shape.Idx.ofFin s) = BitVec.ofNat 32 (st (segN m c) s.val / 512) := by
  have hp := st_small (segN m c) s.val s.isLt
  rw [e_v42 m c, fdiv512_apply _ _ (by rw [st_word, LibWord.toNat_ofNat_lt _ (by omega)]; omega), st_word,
    LibWord.toNat_ofNat_lt _ (by omega)]

/-- The summand of the tile table at tile i and segment s: "i lies in s's run", widened, times s. -/
abbrev tileX (c : Dev nD) : S36x4.Idx → BitVec 32 :=
  muli
    (extui 32
      (andi
        (cmpi .sge (broadcastInDim S36x4 ![0, 1] bcast_S36x1_S36x4_0_1 (broadcastInDim S36x1 ![0] bcast_S36_S36x1_0 (iotaInDim S36 32 0))) (broadcastInDim S36x4 ![0, 1] bcast_S1x4_S36x4_0_1 (broadcastInDim S1x4 ![1] bcast_S4_S1x4_1 (V m c main_v42 : S4.Idx → BitVec 32))))
        (cmpi .slt (broadcastInDim S36x4 ![0, 1] bcast_S36x1_S36x4_0_1 (broadcastInDim S36x1 ![0] bcast_S36_S36x1_0 (iotaInDim S36 32 0))) (broadcastInDim S36x4 ![0, 1] bcast_S1x4_S36x4_0_1 (broadcastInDim S1x4 ![1] bcast_S4_S1x4_1 (addi (V m c main_v42 : S4.Idx → BitVec 32) (V m c main_v41 : S4.Idx → BitVec 32))))))
      natLt_1_32)
    (broadcastInDim S36x4 ![0, 1] bcast_S1x4_S36x4_0_1 (broadcastInDim S1x4 ![1] bcast_S4_S1x4_1 (iotaInDim S4 32 0)))

theorem e_v60' (c : Dev nD) : (V m c main_v60 : S36.Idx → BitVec 32) = Host.reduce IntOp.addi (tileX m c) (constantI S_ 32 0#32) reducesTo_S36x4_S36_d1 h_S_ :=
  e_v60 m c

theorem tileX_apply (c : Dev nD) (i : Fin 36) (q : Fin 4) :
    tileX m c (ij i q) = BitVec.ofNat 32
      ((if st (segN m c) q.val / 512 ≤ i.val ∧ i.val < st (segN m c) q.val / 512 + pc (segN m c) q.val / 512 then 1 else 0) * q.val) := by
  have hp := pc_small (segN m c) q.val
  have hs := st_small (segN m c) q.val q.isLt
  have hi := i.isLt
  show IntOp.muli
      ((IntOp.andi (IntOp.cmpi .sge ((broadcastInDim S36x4 ![0, 1] bcast_S36x1_S36x4_0_1 (broadcastInDim S36x1 ![0] bcast_S36_S36x1_0 (iotaInDim S36 32 0))) (ij i q)) ((broadcastInDim S36x4 ![0, 1] bcast_S1x4_S36x4_0_1 (broadcastInDim S1x4 ![1] bcast_S4_S1x4_1 (V m c main_v42 : S4.Idx → BitVec 32))) (ij i q)))
        (IntOp.cmpi .slt ((broadcastInDim S36x4 ![0, 1] bcast_S36x1_S36x4_0_1 (broadcastInDim S36x1 ![0] bcast_S36_S36x1_0 (iotaInDim S36 32 0))) (ij i q)) ((broadcastInDim S36x4 ![0, 1] bcast_S1x4_S36x4_0_1 (broadcastInDim S1x4 ![1] bcast_S4_S1x4_1 (addi (V m c main_v42 : S4.Idx → BitVec 32) (V m c main_v41 : S4.Idx → BitVec 32)))) (ij i q)))).setWidth 32)
      ((broadcastInDim S36x4 ![0, 1] bcast_S1x4_S36x4_0_1 (broadcastInDim S1x4 ![1] bcast_S4_S1x4_1 (iotaInDim S4 32 0))) (ij i q)) = _
  rw [bcast_rows, bcast_cols, bcast_cols, bcast_cols, iota_apply, iota_apply]
  show IntOp.muli
      ((IntOp.andi (IntOp.cmpi .sge (BitVec.ofNat 32 i.val) ((V m c main_v42 : S4.Idx → BitVec 32) (Shape.Idx.ofFin q)))
        (IntOp.cmpi .slt (BitVec.ofNat 32 i.val) (IntOp.addi ((V m c main_v42 : S4.Idx → BitVec 32) (Shape.Idx.ofFin q)) ((V m c main_v41 : S4.Idx → BitVec 32) (Shape.Idx.ofFin q))))).setWidth 32)
      (BitVec.ofNat 32 q.val) = _
  have hadd : IntOp.addi (BitVec.ofNat 32 (st (segN m c) q.val / 512)) (BitVec.ofNat 32 (pc (segN m c) q.val / 512))
      = BitVec.ofNat 32 (st (segN m c) q.val / 512 + pc (segN m c) q.val / 512) := LibWord.ofNat_add _ _
  rw [v42_word, v41_word, hadd,
    LibWord.cmpi_sge_ofNat _ _ (by omega) (by omega), LibWord.cmpi_slt_ofNat _ _ (by omega) (by omega)]
  exact bits_mul _ _ _

/-- The segment number of tile `i`, the table the kernel's index maps read. -/
theorem gid_word (c : Dev nD) (i : Fin 36) :
    (V m c main_v60 : S36.Idx → BitVec 32) (Shape.Idx.ofFin i) = BitVec.ofNat 32 (gid (segN m c) i.val) := by
  have hg := gid_lt (segN m c) i.val
  have hsum : ∑ q : Fin 4, (tileX m c (ij i q)).toNat = gid (segN m c) i.val := by
    unfold gid
    rw [← Fin.sum_univ_eq_sum_range (fun s => (if st (segN m c) s / 512 ≤ i.val ∧ i.val < st (segN m c) s / 512 + pc (segN m c) s / 512 then 1 else 0) * s) 4]
    apply Finset.sum_congr rfl
    intro q _
    rw [tileX_apply]
    apply LibWord.toNat_ofNat_lt
    have := q.isLt
    split_ifs <;> omega
  apply BitVec.eq_of_toNat_eq
  rw [LibWord.toNat_ofNat_lt _ (by omega), e_v60' m c]
  exact (LibWindow.toNat_reduce_add_cols (tileX m c) reducesTo_S36x4_S36_d1 h_S_ i (by rw [hsum]; omega)).trans hsum

end Cert.KernelIdeal.Gen

end
-- ==== Proof.LibGather.lean ====
/-
  Two gathers and one scatter read at an index.

  * jnp's `take_along_axis (a, idx[:, None], axis = 1)` over an [R × C] table prints as a gather with the row as a
    batching axis: result row r reads column `idx r` (read signed and clamped into the row) of row r.
  * jnp's `y[idx]` over the rows of an [N × C] array prints as a gather whose one start-index component names the
    row and whose offset axis runs over the columns: result (r, c) reads (row `idx r` clamped, c).
  * jnp's `zeros.at[idx].set(v)` over rows prints as a scatter whose body returns the update: when the row numbers
    `idx r` are in range and pairwise distinct, row `idx r` of the result is row r of the updates, and a row that is
    no `idx r` keeps the operand's.
-/
import Mathlib.Logic.Equiv.Defs
import Mathlib.Tactic.Set
import Idealize.ShloMosaic.Lib.StableHlo.Predicate
import Idealize.ShloMosaic.PureOps.ShapeOps

namespace Cert.LibGather

open Idealize.ShloMosaic Idealize.ShloMosaic.StableHlo.Predicate

/-- Entry (r, 0, 0) of an [R × 1 × 1] array of start indices. -/
abbrev ixR11 {R : Nat} (r : Fin R) : (⟨3, ![R, 1, 1]⟩ : Shape).Idx := fun | ⟨0, _⟩ => r | ⟨1, _⟩ => (0 : Fin 1) | ⟨2, _⟩ => (0 : Fin 1)

/-! ## The two gathers

Both proofs read the operand index one operand axis at a time: it is the clamped start plus the batching coordinate
plus the offset coordinate, and with the dimension numbers literal each of the three is a closed term. -/

/-- TAKE ALONG THE SECOND AXIS: the row is a batching axis of both the table and the start indices, the column the one
    collapsed, start-indexed axis, the index vector on the start indices' last axis. -/
theorem gather_along_cols {α : Type} {R C w : Nat} (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec ⟨3, ![R, 1, 1]⟩ w) (r : Fin R) (hC : 0 < C) :
    Host.gather d x idx (ixP r) = x (ij r ⟨min (idx (ixR11 r)).toInt.toNat (C - 1), by omega⟩) := by
  obtain ⟨od, cd, ob, sb, sm, iv, ss, wf⟩ := d
  simp only at hoff hcoll hob hsb hsim hivd
  subst hoff hcoll hob hsb hsim hivd
  unfold Host.gather
  congr 1
  funext a
  apply Fin.ext
  match a with
  | ⟨0, _⟩ =>
    -- the row: a batching axis, so the start is 0 and there is no offset; the batching coordinate is the
    -- result's coordinate on its batch axis 0, which reads the start indices' axis 0
    show GatherDims.start _ _ _ 0 + GatherDims.batchCoord _ _ 0 + GatherDims.offCoord _ _ 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    -- the column: collapsed (slice size 1, no offset) and not batching; its start is component 0 of the start
    -- index, read at the start-indices index (r, 0, 0) and clamped to [0, C − 1]
    have hsl : ss 1 = 1 := wf.2.2.2.2.2.2.2.2.2.2.2.1 1 (List.mem_singleton.mpr rfl)
    show GatherDims.start _ _ _ 1 + GatherDims.batchCoord _ _ 1 + GatherDims.offCoord _ _ 1 = min _ _
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (C - ss 1) = _
    rw [hsl]
    congr 3
    congr 1
    funext b
    apply Fin.ext
    match b with
    | ⟨0, _⟩ => rfl
    | ⟨1, _⟩ => rfl
    | ⟨2, _⟩ => rfl

/-- TAKE OF ROWS: one collapsed, start-indexed row axis; the columns are the offset axis. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ij r c) = x (ij ⟨min (idx (ixP r)).toInt.toNat (N - 1), by omega⟩ c) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    -- the row: collapsed (slice size 1, no offset), no batching; its start is component 0 of the start index,
    -- read at the start-indices index (r, 0) and clamped to [0, N − 1]
    have hsl : ss 0 = 1 := wf.2.2.2.2.2.2.2.2.2.2.2.1 0 (List.mem_singleton.mpr rfl)
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: not in the start index map (start 0), not batching; the offset coordinate is the result's
    -- coordinate on its one offset axis
    show GatherDims.start _ _ _ 1 + GatherDims.batchCoord _ _ 1 + GatherDims.offCoord _ _ 1 = c.val
    rw [GatherDims.batchCoord_eq_zero _ _ _ List.not_mem_nil]
    unfold GatherDims.start
    rw [dif_neg (show (1 : Fin 2) ∉ [(0 : Fin 2)] by decide)]
    simp only [Nat.zero_add]
    rfl

/-! ## A left fold of point writes, read at one cell

The scatter is a left fold, over the update indices in order, of "write `v n` at the cell `g n` names, if it names
one". Read at a cell `i₀`: if no update names `i₀` the fold leaves it; if some update names it and every update that
names it carries the same value, the fold ends with that value there, whatever the order. The step is kept abstract
(any function with the two defining equations), so that the lemmas apply to the fold as the scatter spells it. -/

/-- A left fold of point writes leaves a cell no write names as it was. -/
theorem foldl_set_miss {β ι α : Type} [DecidableEq ι] (g : β → Option ι) (v : β → α)
    (step : (ι → α) → β → ι → α)
    (hsome : ∀ r n i, g n = some i → ∀ i', step r n i' = if i' = i then v n else r i')
    (hnone : ∀ r n, g n = none → step r n = r) (i₀ : ι) :
    ∀ (L : List β) (x : ι → α), (∀ n ∈ L, g n ≠ some i₀) → (L.foldl step x) i₀ = x i₀ := by
  intro L
  induction L with
  | nil => intro x _; rfl
  | cons n L ih =>
    intro x h
    rw [List.foldl_cons, ih _ (fun m hm => h m (List.mem_cons_of_mem _ hm))]
    have hn := h n (List.mem_cons_self ..)
    cases hg : g n with
    | none => rw [hnone x n hg]
    | some i =>
      have hne : i₀ ≠ i := fun e => hn (by rw [hg, e])
      rw [hsome x n i hg, if_neg hne]

/-- A left fold of point writes: a cell that some write names, all of whose writers carry the value `a`, ends at `a`.
    By induction on the list: if a later write names the cell, the induction hypothesis applies to the tail from the
    array after the head's step; if none does, the tail leaves the cell as the head's step made it, and the head is
    then the write that names it. -/
theorem foldl_set_hit {β ι α : Type} [DecidableEq ι] (g : β → Option ι) (v : β → α)
    (step : (ι → α) → β → ι → α)
    (hsome : ∀ r n i, g n = some i → ∀ i', step r n i' = if i' = i then v n else r i')
    (hnone : ∀ r n, g n = none → step r n = r) (i₀ : ι) (a : α) :
    ∀ (L : List β) (x : ι → α), (∃ n ∈ L, g n = some i₀) → (∀ n ∈ L, g n = some i₀ → v n = a) →
      (L.foldl step x) i₀ = a := by
  intro L
  induction L with
  | nil => intro x h; obtain ⟨n, hn, _⟩ := h; cases hn
  | cons n L ih =>
    intro x hex hval
    rw [List.foldl_cons]
    by_cases hL : ∃ m ∈ L, g m = some i₀
    · exact ih _ hL (fun m hm => hval m (List.mem_cons_of_mem _ hm))
    · have hmiss : ∀ m ∈ L, g m ≠ some i₀ := fun m hm e => hL ⟨m, hm, e⟩
      rw [foldl_set_miss g v step hsome hnone i₀ L _ hmiss]
      obtain ⟨m, hm, hgm⟩ := hex
      rcases List.mem_cons.mp hm with rfl | hm'
      · rw [hsome x m i₀ hgm, if_pos rfl]
        exact hval m (List.mem_cons_self ..) hgm
      · exact absurd hgm (hmiss m hm')

/-! ## The scatter of rows -/

/-- Where update (r', c') of a set-of-rows scatter lands: at (row r', c'). On the row axis the start is the scatter
    index of r' (read signed, here the in-range number `row r'`) and the window coordinate 0 (the axis is inserted);
    on the column axis the start is 0 (the map does not name it) and the window coordinate c'. Both are in range. -/
theorem scatter_rows_resultIdx {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1) (idx : IVec ⟨2, ![R, 1]⟩ w)
    (row : Fin R → Fin N) (hrow : ∀ r, (idx (ixP r)).toInt = ((row r).val : Int))
    (j : (⟨2, ![R, C]⟩ : Shape).Idx) :
    d.resultIdx? j idx = some (ij (row (j 0)) (j 1)) := by
  obtain ⟨uw, iw, sd, iv, wf⟩ := d
  simp only at huw hiw hsd hivd
  subst huw hiw hsd hivd
  set d : ScatterDims ⟨2, ![N, C]⟩ ⟨2, ![R, 1]⟩ ⟨2, ![R, C]⟩ :=
    { updateWindowDims := [1], insertedWindowDims := [0], scatterDimsToOperandDims := [0], indexVectorDim := 1, wf := wf } with hd
  have hs0 : d.start j idx 0 = ((row (j 0)).val : Int) := by
    unfold ScatterDims.start
    rw [dif_pos (List.mem_singleton.mpr rfl)]
    refine Eq.trans ?_ (hrow (j 0))
    congr 2
    funext b
    apply Fin.ext
    match b with
    | ⟨0, _⟩ => rfl
    | ⟨1, _⟩ => rfl
  have hw0 : d.window j 0 = 0 := rfl
  have hs1 : d.start j idx 1 = 0 := rfl
  have hw1 : d.window j 1 = (j 1).val := rfl
  have h : ∀ a, 0 ≤ d.start j idx a + d.window j a ∧ d.start j idx a + d.window j a < (⟨2, ![N, C]⟩ : Shape).size a := by
    intro a
    match a with
    | ⟨0, _⟩ =>
      show 0 ≤ d.start j idx 0 + d.window j 0 ∧ d.start j idx 0 + (d.window j 0 : Int) < (N : Int)
      rw [hs0, hw0]
      have := (row (j 0)).isLt
      omega
    | ⟨1, _⟩ =>
      show 0 ≤ d.start j idx 1 + d.window j 1 ∧ d.start j idx 1 + (d.window j 1 : Int) < (C : Int)
      rw [hs1, hw1]
      have : (j 1).val < C := (j 1).isLt
      omega
  unfold ScatterDims.resultIdx?
  rw [dif_pos h]
  congr 1
  funext a
  apply Fin.ext
  match a with
  | ⟨0, _⟩ =>
    show (d.start j idx 0 + (d.window j 0 : Int)).toNat = (row (j 0)).val
    rw [hs0, hw0]; simp
  | ⟨1, _⟩ =>
    show (d.start j idx 1 + (d.window j 1 : Int)).toNat = (j 1).val
    rw [hs1, hw1]; simp

/-- SET OF ROWS at in-range, pairwise distinct row numbers: row `row r` of the result is row r of the updates.
    Update (r, c) lands on (row r, c); an update (r', c') that lands there has row r' = row r and c' = c, so it is
    update (r, c) itself since `row` is injective: every writer of the cell carries `upd (r, c)`. -/
theorem scatter_rows_hit {α : Type} {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → α) (idx : IVec ⟨2, ![R, 1]⟩ w) (upd : (⟨2, ![R, C]⟩ : Shape).Idx → α)
    (row : Fin R → Fin N) (hrow : ∀ r, (idx (ixP r)).toInt = ((row r).val : Int)) (hinj : Function.Injective row)
    (r : Fin R) (c : Fin C) :
    Host.scatter d (fun _ b => b) x idx upd (ij (row r) c) = upd (ij r c) := by
  have hres := scatter_rows_resultIdx d huw hiw hsd hivd idx row hrow
  unfold Host.scatter
  refine foldl_set_hit (fun n => d.resultIdx? ((⟨2, ![R, C]⟩ : Shape).rowMajor.symm n) idx)
    (fun n => upd ((⟨2, ![R, C]⟩ : Shape).rowMajor.symm n)) _ ?_ ?_ (ij (row r) c) (upd (ij r c)) _ x ?_ ?_
  · intro r n i h i'
    simp only [h]
  · intro r n h
    simp only [h]
  · refine ⟨(⟨2, ![R, C]⟩ : Shape).rowMajor (ij r c), List.mem_finRange _, ?_⟩
    show d.resultIdx? ((⟨2, ![R, C]⟩ : Shape).rowMajor.symm ((⟨2, ![R, C]⟩ : Shape).rowMajor (ij r c))) idx = _
    rw [Equiv.symm_apply_apply, hres]
    rfl
  · intro n _ hn
    show upd ((⟨2, ![R, C]⟩ : Shape).rowMajor.symm n) = upd (ij r c)
    have hn' : d.resultIdx? ((⟨2, ![R, C]⟩ : Shape).rowMajor.symm n) idx = some (ij (row r) c) := hn
    rw [hres] at hn'
    have he := Option.some.inj hn'
    have h0 : row (((⟨2, ![R, C]⟩ : Shape).rowMajor.symm n) 0) = row r := congrFun he 0
    have h1 : ((⟨2, ![R, C]⟩ : Shape).rowMajor.symm n) 1 = c := congrFun he 1
    rw [← ij_eta ((⟨2, ![R, C]⟩ : Shape).rowMajor.symm n)]
    congr 2
    exact hinj h0

/-- SET OF ROWS, a row no update names: it keeps the operand's. (Injectivity of `row` is not needed here.) -/
theorem scatter_rows_miss {α : Type} {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → α) (idx : IVec ⟨2, ![R, 1]⟩ w) (upd : (⟨2, ![R, C]⟩ : Shape).Idx → α)
    (row : Fin R → Fin N) (hrow : ∀ r, (idx (ixP r)).toInt = ((row r).val : Int))
    (ρ : Fin N) (hρ : ∀ r, row r ≠ ρ) (c : Fin C) :
    Host.scatter d (fun _ b => b) x idx upd (ij ρ c) = x (ij ρ c) := by
  have hres := scatter_rows_resultIdx d huw hiw hsd hivd idx row hrow
  unfold Host.scatter
  refine foldl_set_miss (fun n => d.resultIdx? ((⟨2, ![R, C]⟩ : Shape).rowMajor.symm n) idx)
    (fun n => upd ((⟨2, ![R, C]⟩ : Shape).rowMajor.symm n)) _ ?_ ?_ (ij ρ c) _ x ?_
  · intro r n i h i'
    simp only [h]
  · intro r n h
    simp only [h]
  · intro n _ hn
    have hn' : d.resultIdx? ((⟨2, ![R, C]⟩ : Shape).rowMajor.symm n) idx = some (ij ρ c) := hn
    rw [hres] at hn'
    exact hρ _ (congrFun (Option.some.inj hn') 0)

end Cert.LibGather
-- ==== Proof.HostRowsEq.lean ====
/-
  The stage equations of the wrapper's row bookkeeping: each says which integer operations, over which earlier
  buffers (or the segment-number argument itself), compute the contents a buffer holds when the kernel region is
  entered — the segment mask, the running per-segment counts, the take of a token's own running count, its rank,
  the start row of its segment, and the clamped destination row.
-/
import proofs.«400824_j17051020165276_3_alg».proof.Proof.HostStep
import proofs.«400824_j17051020165276_3_alg».proof.Proof.HostSeg

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ)

namespace Rows

set_option maxRecDepth 200000 in
set_option maxHeartbeats 4000000 in
/-- The segment mask: token n against segment s, as the comparison of the two broadcasts. -/
theorem e_v5 (c : Dev nD) : (V m c main_v5 : S16384x4.Idx → BitVec 1) = cmpi .eq (broadcastInDim S16384x4 ![0, 1] bcast_S16384x1_S16384x4_0_1 (broadcastInDim S16384x1 ![0] bcast_S16384_S16384x1_0 (segW m c))) (broadcastInDim S16384x4 ![0, 1] bcast_S1x4_S16384x4_0_1 (broadcastInDim S1x4 ![1] bcast_S4_S1x4_1 (iotaInDim S4 32 0))) := by host_step

set_option maxRecDepth 200000 in
set_option maxHeartbeats 4000000 in
/-- The running per-segment counts: the cumulative sum down the tokens of the widened mask. -/
theorem e_v17 (c : Dev nD) : (V m c main_v17 : S16384x4.Idx → BitVec 32) = Host.reduceWindow IntOp.addi ![16384, 1] ![1, 1] ![16383, 0] ![0, 0] (extui 32 (V m c main_v5 : S16384x4.Idx → BitVec 1) natLt_1_32) (broadcastInDim S_ ![] bcast_S_S_ (constantI S_ 32 0#32)) reduceWindows_S16384x4_S16384x4_w16384s1p16383_0_w1s1p0_0 h_S_ := by host_step

set_option maxRecDepth 200000 in
set_option maxHeartbeats 4000000 in
/-- The index column of the take along the segment axis: the segment numbers as a column, negative ones wrapped,
    with a unit axis added. -/
theorem e_idx (c : Dev nD) : (V m c main_call3_v5 : S16384x1x1.Idx → BitVec 32) = shapeCast S16384x1x1 (select (cmpi .slt (broadcastInDim S16384x1 ![0] bcast_S16384_S16384x1_0 (segW m c)) (broadcastInDim S16384x1 ![] bcast_S_S16384x1 (constantI S_ 32 0#32))) (addi (broadcastInDim S16384x1 ![0] bcast_S16384_S16384x1_0 (segW m c)) (broadcastInDim S16384x1 ![] bcast_S_S16384x1 (constantI S_ 32 4#32))) (broadcastInDim S16384x1 ![0] bcast_S16384_S16384x1_0 (segW m c))) shapeCasts_S16384x1_S16384x1x1 := by
  host_step
  rfl

set_option maxRecDepth 200000 in
set_option maxHeartbeats 4000000 in
/-- The in-range test of the take: 0 ≤ index ≤ 3, and-reduced over the unit axis. -/
theorem e_ok (c : Dev nD) : (V m c main_call3_v12 : S16384x1.Idx → BitVec 1) = Host.reduce IntOp.andi (andi (cmpi .sge (V m c main_call3_v5 : S16384x1x1.Idx → BitVec 32) (broadcastInDim S16384x1x1 ![] bcast_S_S16384x1x1 (constantI S_ 32 0#32))) (cmpi .sle (V m c main_call3_v5 : S16384x1x1.Idx → BitVec 32) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_ := by host_step

set_option maxRecDepth 200000 in
set_option maxHeartbeats 4000000 in
/-- The take along the segment axis: the gathered running count where the index is in range, the fill elsewhere. -/
theorem e_v19 (c : Dev nD) : (V m c main_v19 : S16384x1.Idx → BitVec 32) = select (V m c main_call3_v12 : S16384x1.Idx → BitVec 1) (Host.gather gather_S16384x4_S16384x1x1_S16384x1_n_1_0_0_1_2_11 (V m c main_v17 : S16384x4.Idx → BitVec 32) (V m c main_call3_v5 : S16384x1x1.Idx → BitVec 32)) (broadcastInDim S16384x1 ![] bcast_S_S16384x1 (constantI S_ 32 2147483648#32)) := by host_step

set_option maxRecDepth 200000 in
set_option maxHeartbeats 4000000 in
/-- The rank: the taken count as a vector, less one. -/
theorem e_v22 (c : Dev nD) : (V m c main_v22 : S16384.Idx → BitVec 32) = subi (shapeCast S16384 (V m c main_v19 : S16384x1.Idx → BitVec 32) shapeCasts_S16384x1_S16384) (broadcastInDim S16384 ![] bcast_S_S16384 (constantI S_ 32 1#32)) := by
  host_step
  rfl

set_option maxRecDepth 200000 in
set_option maxHeartbeats 4000000 in
/-- The start row of each token's segment: the gather of the segment starts at the (wrapped) segment numbers. -/
theorem e_v29 (c : Dev nD) : (V m c main_v29 : S16384.Idx → BitVec 32) = Host.gather gather_S4_S16384x1_S16384_n_0_n_n_0_1_1 (V m c main_v16 : S4.Idx → BitVec 32) (broadcastInDim S16384x1 ![0] bcast_S16384_S16384x1_0 (select (cmpi .slt (segW m c) (broadcastInDim S16384 ![] bcast_S_S16384 (constantI S_ 32 0#32))) (addi (segW m c) (broadcastInDim S16384 ![] bcast_S_S16384 (constantI S_ 32 4#32))) (segW m c))) := by host_step

set_option maxRecDepth 200000 in
set_option maxHeartbeats 4000000 in
/-- The destination row: start plus rank, clamped to [0, 18431] (the constants first). -/
theorem e_v31 (c : Dev nD) : (V m c main_v31 : S16384.Idx → BitVec 32) = minsi (broadcastInDim S16384 ![] bcast_S_S16384 (constantI S_ 32 18431#32)) (maxsi (broadcastInDim S16384 ![] bcast_S_S16384 (constantI S_ 32 0#32)) (addi (V m c main_v29 : S16384.Idx → BitVec 32) (V m c main_v22 : S16384.Idx → BitVec 32))) := by host_step

end Rows

end Cert.KernelIdeal.Gen

end
-- ==== Proof.HostRows.lean ====
/-
  The wrapper's row bookkeeping as words: the running per-segment token counts, a token's rank inside its segment,
  and the row the token is sent to in the padded buffer — the word is the row number of the dispatch arithmetic.
-/
import proofs.«400824_j17051020165276_3_alg».proof.Proof.HostStep
import proofs.«400824_j17051020165276_3_alg».proof.Proof.HostSeg
import proofs.«400824_j17051020165276_3_alg».proof.Proof.HostTiles
import proofs.«400824_j17051020165276_3_alg».proof.Proof.Dispatch
import proofs.«400824_j17051020165276_3_alg».proof.Proof.LibWord
import proofs.«400824_j17051020165276_3_alg».proof.Proof.LibWindow
import proofs.«400824_j17051020165276_3_alg».proof.Proof.LibGather
import proofs.«400824_j17051020165276_3_alg».proof.Proof.HostRowsEq
import Idealize.ShloMosaic.Lib.StableHlo.Predicate
import Idealize.ShloMosaic.Lib.Pipeline.Value
import Idealize.ShloMosaic.PureOps.Reduce

noncomputable section

namespace Cert.KernelIdeal.Gen

open Idealize.ShloMosaic Idealize.ShloMosaic.TcCoe Idealize.SL.Sem Idealize.ShloMosaic.StableHlo Idealize.ShloMosaic.StableHlo.Predicate
open Cert.Dispatch

variable {F : FTy → Type} [FloatOps F]
variable (m : (ℓ : Loc nD τ sig) → Buf (Elt F) ℓ)

namespace Rows

/-! ## The segment numbers -/

/-- Every entry of the segment-number argument is a segment number. -/
theorem segW_lt (c : Dev nD) (hseg : ∀ n, segN m c n < 4) (i : S16384.Idx) : (segW m c i).toNat < 4 := by
  rw [Shape.Idx.eq_ofFin i]
  exact hseg (i 0)

/-- Token n's segment word is the word of its segment number. -/
theorem segW_word (c : Dev nD) (n : Fin 16384) : segW m c (Shape.Idx.ofFin n) = BitVec.ofNat 32 (segN m c n) :=
  Cert.LibWord.eq_ofNat_toNat _

/-- A selection on a set bit takes the first branch. -/
theorem select_one {α : Type} (a b : α) : Scalar.select 1#1 a b = a := by
  unfold Scalar.select
  exact if_pos rfl

/-- An and-fold of set bits from a set bit is a set bit. -/
theorem foldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    have h11 : IntOp.andi 1#1 1#1 = 1#1 := by decide
    rw [h11]
    exact ih

/-! ## The running counts -/

/-- The mask bit of token p and segment s is set exactly when p's segment number is s. -/
theorem mask_iff (c : Dev nD) (p : Fin 16384) (s : Fin 4) :
    (V m c main_v5 : S16384x4.Idx → BitVec 1) (ij p s) = 1#1 ↔ segN m c p = s.val := by
  rw [e_v5]
  show IntOp.cmpi .eq _ _ = 1#1 ↔ _
  rw [cmpi_eq_iff, bcast_rows, bcast_cols, iota_apply]
  constructor
  · intro h
    have h' := congrArg BitVec.toNat h
    rw [BitVec.toNat_ofNat] at h'
    have hs := s.isLt
    show (segW m c (Shape.Idx.ofFin p)).toNat = s.val
    omega
  · intro h
    rw [segW_word, h]

/-- A cumulative sum down the tokens of a widened mask whose bit (p, s) says "token p is in segment s" counts,
    at (n, s), the tokens 0 … n of segment s. -/
theorem cum_count (mask : IVec ⟨2, ![16384, 4]⟩ 1) (σ : Fin 16384 → ℕ)
    (hmask : ∀ (p : Fin 16384) (s : Fin 4), mask (ij p s) = 1#1 ↔ σ p = s.val) (hw : 1 < 32) {u : Shape} (hu : 0 < u.numel)
    (h : (⟨2, ![16384, 4]⟩ : Shape).ReduceWindows ![16384, 1] ![1, 1] ![16383, 0] ![0, 0] ⟨2, ![16384, 4]⟩)
    (n : Fin 16384) (s : Fin 4) :
    Host.reduceWindow IntOp.addi ![16384, 1] ![1, 1] ![16383, 0] ![0, 0] (extui 32 mask hw) (constantI u 32 0#32) h hu (ij n s)
      = BitVec.ofNat 32 (cumTo σ (n.val + 1) s.val) := by
  apply BitVec.eq_of_toNat_eq
  have hcount : (Host.reduceWindow IntOp.addi ![16384, 1] ![1, 1] ![16383, 0] ![0, 0] (extui 32 mask hw) (constantI u 32 0#32) h hu (ij n s)).toNat
      = (Finset.univ.filter (fun p' : Fin 16384 => p'.val ≤ n.val ∧ mask (ij p' s) = 1#1)).card :=
    Cert.LibWindow.toNat_cumsum_rows_count (n := 16383) (m := 4) (by decide) mask hw hu h n s
  rw [hcount, Cert.LibWord.toNat_ofNat_lt _ (lt_of_le_of_lt (cumTo_le _ _ _) (by decide))]
  unfold cumTo
  refine congrArg Finset.card (Finset.filter_congr fun p _ => ?_)
  rw [hmask]
  constructor
  · intro h; exact ⟨by omega, h.2⟩
  · intro h; exact ⟨by omega, h.2⟩

/-- The running count at (n, s): how many of the tokens 0 … n belong to segment s. -/
theorem cum_word (c : Dev nD) (n : Fin 16384) (s : Fin 4) :
    (V m c main_v17 : S16384x4.Idx → BitVec 32) (ij n s) = BitVec.ofNat 32 (cumTo (segN m c) (n.val + 1) s.val) := by
  rw [e_v17]
  have hinit : (broadcastInDim S_ ![] bcast_S_S_ (constantI S_ 32 0#32) : S_.Idx → BitVec 32) = constantI S_ 32 0#32 := rfl
  rw [hinit]
  exact cum_count (V m c main_v5 : S16384x4.Idx → BitVec 1) (segN m c) (mask_iff m c) natLt_1_32 h_S_
    reduceWindows_S16384x4_S16384x4_w16384s1p16383_0_w1s1p0_0 n s

/-! ## The take of a token's own running count -/

/-- An entry of the wrapped index column is an entry of the segment-number argument. -/
theorem col_wrap (c : Dev nD) (hseg : ∀ n, segN m c n < 4) (k : S16384x1.Idx) :
    ∃ i, (select (cmpi .slt (broadcastInDim S16384x1 ![0] bcast_S16384_S16384x1_0 (segW m c)) (broadcastInDim S16384x1 ![] bcast_S_S16384x1 (constantI S_ 32 0#32))) (addi (broadcastInDim S16384x1 ![0] bcast_S16384_S16384x1_0 (segW m c)) (broadcastInDim S16384x1 ![] bcast_S_S16384x1 (constantI S_ 32 4#32))) (broadcastInDim S16384x1 ![0] bcast_S16384_S16384x1_0 (segW m c)) : S16384x1.Idx → BitVec 32) k = segW m c i
      ∧ broadcastInDim S16384x1 ![0] bcast_S16384_S16384x1_0 (segW m c) k = segW m c i := by
  have hb : ∃ i, broadcastInDim S16384x1 ![0] bcast_S16384_S16384x1_0 (segW m c) k = segW m c i := ⟨_, rfl⟩
  obtain ⟨i, hi⟩ := hb
  refine ⟨i, ?_, hi⟩
  show Scalar.select (IntOp.cmpi .slt (broadcastInDim S16384x1 ![0] bcast_S16384_S16384x1_0 (segW m c) k) 0#32)
    (IntOp.addi (broadcastInDim S16384x1 ![0] bcast_S16384_S16384x1_0 (segW m c) k) 4#32)
    (broadcastInDim S16384x1 ![0] bcast_S16384_S16384x1_0 (segW m c) k) = _
  rw [hi]
  exact Cert.LibWord.wrapNeg _ _ (lt_of_lt_of_le (segW_lt m c hseg i) (by decide))

/-- Every index of the take is a segment number. -/
theorem idx_lt (c : Dev nD) (hseg : ∀ n, segN m c n < 4) (i : S16384x1x1.Idx) :
    ((V m c main_call3_v5 : S16384x1x1.Idx → BitVec 32) i).toNat < 4 := by
  rw [e_idx]
  unfold shapeCast
  obtain ⟨i', h, _⟩ := col_wrap m c hseg (Shape.reshapeEquiv shapeCasts_S16384x1_S16384x1x1 i)
  rw [h]
  exact segW_lt m c hseg i'

/-- Token n's index of the take is its segment word. -/
theorem idx_word (c : Dev nD) (hseg : ∀ n, segN m c n < 4) (n : Fin 16384) :
    (V m c main_call3_v5 : S16384x1x1.Idx → BitVec 32) (Cert.LibGather.ixR11 n) = segW m c (Shape.Idx.ofFin n) := by
  rw [e_idx]
  rw [shapeCast_apply _ shapeCasts_S16384x1_S16384x1x1 (Cert.LibGather.ixR11 n) (ixP n) (by
    rw [Shape.rowMajor_val_two, Shape.rowMajor_val_three]
    show n.val * 1 + 0 = (n.val * 1 + 0) * 1 + 0
    omega)]
  obtain ⟨i', h, h'⟩ := col_wrap m c hseg (ixP n)
  rw [h, ← h', bcast_col1]

/-- The in-range test of the take holds at every token. -/
theorem ok_word (c : Dev nD) (hseg : ∀ n, segN m c n < 4) (j : S16384x1.Idx) :
    (V m c main_call3_v12 : S16384x1.Idx → BitVec 1) j = 1#1 := by
  rw [e_ok, Host.reduce_eq_foldl]
  refine foldl_andi_one _ (fun i => ?_) _
  show IntOp.andi (IntOp.cmpi .sge ((V m c main_call3_v5 : S16384x1x1.Idx → BitVec 32) i) 0#32)
    (IntOp.cmpi .sle ((V m c main_call3_v5 : S16384x1x1.Idx → BitVec 32) i) 3#32) = 1#1
  refine Cert.LibWord.inRange _ _ (by decide) ?_
  have := idx_lt m c hseg i
  show _ ≤ 3
  omega

/-- The taken count of token n: how many of the tokens 0 … n belong to n's own segment. -/
theorem take_word (c : Dev nD) (hseg : ∀ n, segN m c n < 4) (n : Fin 16384) :
    (V m c main_v19 : S16384x1.Idx → BitVec 32) (ixP n)
      = BitVec.ofNat 32 (cumTo (segN m c) (n.val + 1) (segN m c n)) := by
  rw [e_v19]
  show Scalar.select ((V m c main_call3_v12 : S16384x1.Idx → BitVec 1) (ixP n)) _ _ = _
  rw [ok_word m c hseg, select_one,
    Cert.LibGather.gather_along_cols gather_S16384x4_S16384x1x1_S16384x1_n_1_0_0_1_2_11 rfl rfl rfl rfl rfl rfl _ _ n (by decide)]
  have hidx : min ((V m c main_call3_v5 : S16384x1x1.Idx → BitVec 32) (Cert.LibGather.ixR11 n)).toInt.toNat (4 - 1) = segN m c n := by
    rw [idx_word m c hseg, toInt_eq_toNat_of_lt (lt_of_lt_of_le (segW_lt m c hseg _) (by decide))]
    have := hseg n
    show min (Int.toNat (segN m c n : Int)) 3 = segN m c n
    rw [Int.toNat_natCast]
    omega
  have hfin : (⟨min ((V m c main_call3_v5 : S16384x1x1.Idx → BitVec 32) (Cert.LibGather.ixR11 n)).toInt.toNat (4 - 1), by omega⟩ : Fin 4)
      = ⟨segN m c n, hseg n⟩ := Fin.ext hidx
  rw [hfin]
  exact cum_word m c n ⟨segN m c n, hseg n⟩

/-! ## Rank, start and destination -/

/-- The rank of token n inside its segment. -/
theorem rank_word (c : Dev nD) (hseg : ∀ n, segN m c n < 4) (n : Fin 16384) :
    (V m c main_v22 : S16384.Idx → BitVec 32) (Shape.Idx.ofFin n) = BitVec.ofNat 32 (rk (segN m c) n) := by
  rw [e_v22]
  show IntOp.subi (shapeCast S16384 (V m c main_v19 : S16384x1.Idx → BitVec 32) shapeCasts_S16384x1_S16384 (Shape.Idx.ofFin n)) 1#32 = _
  rw [shapeCast_apply _ shapeCasts_S16384x1_S16384 (Shape.Idx.ofFin n) (ixP n) (by
    rw [Shape.rowMajor_val_two, Shape.rowMajor_val_one]
    show n.val * 1 + 0 = n.val
    omega)]
  rw [take_word m c hseg]
  show BitVec.ofNat 32 _ - 1#32 = _
  rw [sub_one_ofNat _ (cumTo_pos _ n) (lt_of_le_of_lt (cumTo_le _ _ _) (by decide))]
  rfl

/-- The start row of token n's segment. -/
theorem start_word (c : Dev nD) (hseg : ∀ n, segN m c n < 4) (n : Fin 16384) :
    (V m c main_v29 : S16384.Idx → BitVec 32) (Shape.Idx.ofFin n) = BitVec.ofNat 32 (st (segN m c) (segN m c n)) := by
  rw [e_v29, gather_take gather_S4_S16384x1_S16384_n_0_n_n_0_1_1 rfl rfl rfl rfl _ _ n (by decide)]
  -- the index column at token n is n's segment word: the wrap leaves a non-negative word alone
  have hcol : (broadcastInDim S16384x1 ![0] bcast_S16384_S16384x1_0 (select (cmpi .slt (segW m c) (broadcastInDim S16384 ![] bcast_S_S16384 (constantI S_ 32 0#32))) (addi (segW m c) (broadcastInDim S16384 ![] bcast_S_S16384 (constantI S_ 32 4#32))) (segW m c)) : S16384x1.Idx → BitVec 32) (ixP n)
      = segW m c (Shape.Idx.ofFin n) := by
    rw [bcast_col1]
    show Scalar.select (IntOp.cmpi .slt (segW m c (Shape.Idx.ofFin n)) 0#32) (IntOp.addi (segW m c (Shape.Idx.ofFin n)) 4#32) (segW m c (Shape.Idx.ofFin n)) = _
    exact Cert.LibWord.wrapNeg _ _ (lt_of_lt_of_le (segW_lt m c hseg _) (by decide))
  have hidx : min ((broadcastInDim S16384x1 ![0] bcast_S16384_S16384x1_0 (select (cmpi .slt (segW m c) (broadcastInDim S16384 ![] bcast_S_S16384 (constantI S_ 32 0#32))) (addi (segW m c) (broadcastInDim S16384 ![] bcast_S_S16384 (constantI S_ 32 4#32))) (segW m c)) : S16384x1.Idx → BitVec 32) (ixP n)).toInt.toNat (4 - 1) = segN m c n := by
    rw [hcol, toInt_eq_toNat_of_lt (lt_of_lt_of_le (segW_lt m c hseg _) (by decide))]
    have := hseg n
    show min (Int.toNat (segN m c n : Int)) 3 = segN m c n
    rw [Int.toNat_natCast]
    omega
  exact (congrArg (V m c main_v16 : S4.Idx → BitVec 32) (congrArg Shape.Idx.ofFin (Fin.ext hidx))).trans
    (st_word m c ⟨segN m c n, hseg n⟩)

end Rows

open Rows in
/-- The row token `n` is sent to (after the clamp, which does nothing). -/
theorem dest_word (c : Dev nD) (hseg : ∀ n, segN m c n < 4) (n : Fin 16384) :
    (V m c main_v31 : S16384.Idx → BitVec 32) (Shape.Idx.ofFin n) = BitVec.ofNat 32 (dst (segN m c) n) := by
  rw [e_v31]
  show IntOp.minsi 18431#32 (IntOp.maxsi 0#32 (IntOp.addi ((V m c main_v29 : S16384.Idx → BitVec 32) (Shape.Idx.ofFin n))
    ((V m c main_v22 : S16384.Idx → BitVec 32) (Shape.Idx.ofFin n)))) = _
  rw [start_word m c hseg, rank_word m c hseg]
  show IntOp.minsi 18431#32 (IntOp.maxsi 0#32 (BitVec.ofNat 32 _ + BitVec.ofNat 32 _)) = _
  rw [Cert.LibWord.ofNat_add]
  have hlt : dst (segN m c) n < 18432 := dst_lt _ hseg n
  refine Cert.LibWord.clamp0 _ _ (by decide) ?_
  rw [Cert.LibWord.toNat_ofNat_lt _ (lt_of_lt_of_le (show st (segN m c) (segN m c n) + rk (segN m c) n < 18432 from hlt) (by decide))]
  show st (segN m c) (segN m c n) + rk (segN m c) n ≤ 18431
  have : st (segN m c) (segN m c n) + rk (segN m c) n < 18432 := hlt
  omega

end Cert.KernelIdeal.Gen

end
-- ==== Proof.HostFloats.lean ====
/-
  The float side of the wrapper at the ideal instance (a change of float format is the identity there): the padded
  token buffer holds token n's row at row `dst n`; the fused weight array holds the gate weights in its first 1024
  columns and the up weights in the last 1024; the down weights are the argument; and the program's result, the rows
  of the kernel's output array gathered back at the tokens' rows, reads that array at row `dst n`.
-/
import proofs.«400824_j17051020165276_3_alg».proof.Proof.HostStep
import proofs.«400824_j17051020165276_3_alg».proof.Proof.HostFloatsEq
import proofs.«400824_j17051020165276_3_alg».proof.Proof.HostSeg
import proofs.«400824_j17051020165276_3_alg».proof.Proof.HostRows
import proofs.«400824_j17051020165276_3_alg».proof.Proof.Dispatch
import proofs.«400824_j17051020165276_3_alg».proof.Proof.LibWord
import proofs.«400824_j17051020165276_3_alg».proof.Proof.LibGather
import Idealize.ShloMosaic.Lib.StableHlo.Predicate
import Idealize.ShloMosaic.Lib.ValueIdx
import Idealize.ShloMosaic.Lib.Pipeline.Value

noncomputable section

namespace Cert.KernelIdeal.Gen

open Idealize.ShloMosaic Idealize.ShloMosaic.TcCoe Idealize.SL.Sem Idealize.ShloMosaic.StableHlo Idealize.ShloMosaic.StableHlo.Predicate
open Idealize.ShloMosaic.ValueIdx
open Cert.Dispatch

/-! ## The wrapped row index of a token

The row numbers are below 18432, so the wrap of negative indices leaves them alone: the wrapped index of token `n` is
the word of `dst n`, and as a column its signed value is that number. (Integer operations only: any float instance.) -/

section Rows

variable {F : FTy → Type} [FloatOps F]
variable (m : (ℓ : Loc nD τ sig) → Buf (Elt F) ℓ)

/-- The wrapped row index of token `n` is the word of `dst n`. -/
theorem wrapIdx_word (c : Dev nD) (hseg : ∀ n, segN m c n < 4) (n : Fin 16384) :
    wrapIdx m c (Shape.Idx.ofFin n) = BitVec.ofNat 32 (dst (segN m c) n) := by
  have hd := dst_lt _ hseg n
  have h31 := dest_word m c hseg n
  show Scalar.select
      (IntOp.cmpi .slt ((V m c main_v31 : S16384.Idx → BitVec 32) (Shape.Idx.ofFin n))
        (broadcastInDim S16384 ![] bcast_S_S16384 (constantI S_ 32 0#32) (Shape.Idx.ofFin n)))
      (IntOp.addi ((V m c main_v31 : S16384.Idx → BitVec 32) (Shape.Idx.ofFin n))
        (broadcastInDim S16384 ![] bcast_S_S16384 (constantI S_ 32 18432#32) (Shape.Idx.ofFin n)))
      ((V m c main_v31 : S16384.Idx → BitVec 32) (Shape.Idx.ofFin n)) = _
  rw [h31, bcast_scalar bcast_S_S16384 h_S_, bcast_scalar bcast_S_S16384 h_S_]
  exact LibWord.wrapNeg _ _ (by rw [LibWord.toNat_ofNat_lt _ (by omega)]; omega)

/-- The column of wrapped row indices, read signed at token `n`: the number `dst n`. -/
theorem wrapCol_toInt (c : Dev nD) (hseg : ∀ n, segN m c n < 4) (n : Fin 16384) :
    ((broadcastInDim S16384x1 ![0] bcast_S16384_S16384x1_0 (wrapIdx m c) : S16384x1.Idx → BitVec 32) (ixP n)).toInt
      = (dst (segN m c) n : Int) := by
  have hd := dst_lt _ hseg n
  rw [bcast_col1 bcast_S16384_S16384x1_0, wrapIdx_word m c hseg n]
  exact toInt_ofNat_small _ (by omega)

/-- The row a gather of rows reads for token `n` — the signed index clamped to the last row — is `dst n`. -/
theorem wrapCol_row (c : Dev nD) (hseg : ∀ n, segN m c n < 4) (n : Fin 16384) :
    min ((broadcastInDim S16384x1 ![0] bcast_S16384_S16384x1_0 (wrapIdx m c) : S16384x1.Idx → BitVec 32) (ixP n)).toInt.toNat (18432 - 1)
      = dst (segN m c) n := by
  have hd := dst_lt _ hseg n
  rw [wrapCol_toInt m c hseg n, Int.toNat_natCast]
  omega

end Rows

variable (m : (ℓ : Loc nD τ sig) → Buf (Elt Ideal) ℓ)

/-- Row `dst n` of the padded token buffer is token `n`'s row. -/
theorem xpad_row (c : Dev nD) (hseg : ∀ n, segN m c n < 4) (n : Fin 16384) (k : Fin 1024) :
    (V m c main_v40 : S18432x1024.Idx → EReal) (ij ⟨dst (segN m c) n, dst_lt _ hseg n⟩ k)
      = (m ((c : Thread nD τ).loc main_arg0) : S16384x1024.Idx → EReal) (ij n k) := by
  rw [e_v40 (F := Ideal) m c]
  -- the rows `dst r` are in range and pairwise distinct, so row `dst n` of the scatter is update row `n`
  have hinj : Function.Injective (fun r : Fin 16384 => (⟨dst (segN m c) r, dst_lt _ hseg r⟩ : Fin 18432)) :=
    fun a b h => dst_inj _ hseg (Fin.mk.inj_iff.mp h)
  have hrow := fun r => wrapCol_toInt m c hseg r
  -- only the signed values of the index column matter: name the column
  generalize (broadcastInDim S16384x1 ![0] bcast_S16384_S16384x1_0 (wrapIdx m c)) = idx at hrow ⊢
  exact LibGather.scatter_rows_hit (N := 18432) (R := 16384) (C := 1024) (w := 32)
    scatter_S18432x1024_S16384x1_S16384x1024_1_0_0_1 rfl rfl rfl rfl _ idx _
    (fun r : Fin 16384 => (⟨dst (segN m c) r, dst_lt _ hseg r⟩ : Fin 18432)) hrow hinj n k

/-- The fused weights: columns 0 … 1023 are the gate weights. -/
theorem gwup_gate (c : Dev nD) (s : Fin 4) (k h : Fin 1024) :
    (V m c main_v63 : S4x1024x2048.Idx → EReal) (ix3 s k (Fin.castLE (by decide) h))
      = (m ((c : Thread nD τ).loc main_arg1) : S4x1024x1024.Idx → EReal) (ix3 s k h) := by
  rw [e_v63 (F := Ideal) m c]
  -- the last coordinate is below the first piece's extent: the first piece at the same coordinates
  exact concatenate_pair_apply_left (α := EReal) (t := S4x1024x2048) (s₁ := S4x1024x1024) (s₂ := S4x1024x1024) (2 : Fin 3)
    (truncf (F := Ideal) (φ := .f32) .bf16 (m ((c : Thread nD τ).loc main_arg1) : S4x1024x1024.Idx → EReal) bitsLt_bf16_f32)
    (truncf (F := Ideal) (φ := .f32) .bf16 (m ((c : Thread nD τ).loc main_arg2) : S4x1024x1024.Idx → EReal) bitsLt_bf16_f32)
    concatenates_S4x1024x1024_S4x1024x1024_S4x1024x2048_d2
    (ix3 s k (Fin.castLE (by decide) h)) rfl (ix3 s k h) (by intro b; fin_cases b <;> rfl)

/-- The fused weights: columns 1024 … 2047 are the up weights. -/
theorem gwup_up (c : Dev nD) (s : Fin 4) (k h : Fin 1024) :
    (V m c main_v63 : S4x1024x2048.Idx → EReal) (ix3 s k ⟨1024 + h.val, by omega⟩)
      = (m ((c : Thread nD τ).loc main_arg2) : S4x1024x1024.Idx → EReal) (ix3 s k h) := by
  rw [e_v63 (F := Ideal) m c]
  -- the last coordinate is the first piece's extent plus `h`: the second piece at `h`
  exact concatenate_pair_apply_right (α := EReal) (t := S4x1024x2048) (s₁ := S4x1024x1024) (s₂ := S4x1024x1024) (2 : Fin 3)
    (truncf (F := Ideal) (φ := .f32) .bf16 (m ((c : Thread nD τ).loc main_arg1) : S4x1024x1024.Idx → EReal) bitsLt_bf16_f32)
    (truncf (F := Ideal) (φ := .f32) .bf16 (m ((c : Thread nD τ).loc main_arg2) : S4x1024x1024.Idx → EReal) bitsLt_bf16_f32)
    concatenates_S4x1024x1024_S4x1024x1024_S4x1024x2048_d2
    (ix3 s k ⟨1024 + h.val, by omega⟩) rfl rfl (ix3 s k h)
    (by intro b hb; fin_cases b <;> first | rfl | exact absurd rfl hb)
    (by show h.val + 1024 = 1024 + h.val; omega)

/-- The down weights are the argument. -/
theorem down_apply (c : Dev nD) (i : S4x1024x1024.Idx) :
    (V m c main_v64 : S4x1024x1024.Idx → EReal) i = (m ((c : Thread nD τ).loc main_arg3) : S4x1024x1024.Idx → EReal) i :=
  congrFun (e_v64 (F := Ideal) m c) i

/-- The program's result at (n, j) is the kernel's output array at (dst n, j). -/
theorem tail_apply (hO : Ok m) (c : Dev nD) (hseg : ∀ n, segN m c n < 4) (n : Fin 16384) (j : Fin 1024) :
    (Pipeline.afterTail pcfgs (fun _ => adm m hO) (dats m hO) 0 (V0 m) [hostOps1] c main_v73 : S16384x1024.Idx → EReal) (ij n j)
      = ((dats m hO 0 c).arrAt 3 (cfgM m hO).N : S18432x1024.Idx → EReal) (ij ⟨dst (segN m c) n, dst_lt _ hseg n⟩ j) := by
  rw [e_tail (F := Ideal) m hO c, extf_apply]
  -- the gather of rows reads row `min (signed index) 18431`, which is `dst n`
  have hrow := wrapCol_row m c hseg n
  -- only the signed value of the index column at `n` matters: name the column and the array
  generalize (broadcastInDim S16384x1 ![0] bcast_S16384_S16384x1_0 (wrapIdx m c)) = idx at hrow ⊢
  generalize ((dats m hO 0 c).arrAt 3 (cfgM m hO).N) = A
  refine (LibGather.gather_rows (N := 18432) (R := 16384) (C := 1024) (w := 32)
    gather_S18432x1024_S16384x1_S16384x1024_1_0_n_n_0_1_11024 rfl rfl rfl rfl rfl A idx n j (by omega)).trans ?_
  exact congrArg (fun p : Fin 18432 => A (ij p j)) (Fin.ext hrow)

end Cert.KernelIdeal.Gen

end
-- ==== Proof.Payload.lean ====
/-
  The kernel body's value at one index, at the ideal instance.  The body multiplies the [512 × 1024] token block by the
  fused [1024 × 2048] gate|up matrix, cuts the product into its gate half (columns 0 … 1023) and its up half (columns
  1024 … 2047), forms  a · logistic a · b  entrywise, and multiplies that by the [1024 × 1024] down matrix.  Read at
  entry (p, j) this is the gated feed-forward sum of the common specification at token row p: every matmul into the zero
  accumulator is the plain sum over the contracted coordinate, every cast between the [1, m, n] and [m, n] views reads
  the same entry, the two slices shift the column by their offset, and the narrowing format changes are the identity on
  extended reals.
-/
import proofs.«400824_j17051020165276_3_alg».proof.Proof.Gen.KernelIdeal.Skeleton
import proofs.«400824_j17051020165276_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-! ## The two products' operand indices, axis by axis -/

/-- The left operand's index on its free axis is the output row. -/
theorem lhs_mm1_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
/-- The left operand's index on its contracted axis is the contraction coordinate. -/
theorem lhs_mm1_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
/-- The right operand's index on its contracted axis is the contraction coordinate. -/
theorem rhs_mm1_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
/-- The right operand's index on its free axis is the output column. -/
theorem rhs_mm1_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The left operand's index on its free axis is the output row. -/
theorem lhs_mm2_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's index on its contracted axis is the contraction coordinate. -/
theorem lhs_mm2_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's index on its contracted axis is the contraction coordinate. -/
theorem rhs_mm2_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The right operand's index on its free axis is the output column. -/
theorem rhs_mm2_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## Each product into the zero accumulator, read at an entry -/

/-- The first product at entry (p, c): the sum over the contracted coordinate k of a (p, k) · b (k, c). -/
theorem mm1_apply (a : FVec Ideal S512x1024 .bf16) (b : FVec Ideal S1024x2048 .bf16) (p : Fin 512) (c : Fin 2048) :
    matmul dot_S512x1024_S1024x2048_S512x2048_1_0_0_1_n_n none a b (constant (F := Ideal) S512x2048 .f32 0x00000000#32) (ix2 p c)
      = ∑ k : Fin 1024, a (ix2 p k) * b (ix2 k c) := by
  simp only [matmul]
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p c) ((contrEquiv1 dot_S512x1024_S1024x2048_S512x2048_1_0_0_1_n_n 1024 rfl rfl).symm k) = ix2 p k := funext fun x => Fin.ext (by
    match x with
    | ⟨0, _⟩ => exact lhs_mm1_0 _ _
    | ⟨1, _⟩ => exact (lhs_mm1_1 _ _).trans hk)
  have er : dot_S512x1024_S1024x2048_S512x2048_1_0_0_1_n_n.rhsIdx (ix2 p c) ((contrEquiv1 dot_S512x1024_S1024x2048_S512x2048_1_0_0_1_n_n 1024 rfl rfl).symm k) = ix2 k c := funext fun x => Fin.ext (by
    match x with
    | ⟨0, _⟩ => exact (rhs_mm1_0 _ _).trans hk
    | ⟨1, _⟩ => exact rhs_mm1_1 _ _)
  rw [el, er]

/-- The second product at entry (p, c): the sum over the contracted coordinate h of a (p, h) · b (h, c). -/
theorem mm2_apply (a : FVec Ideal S512x1024 .bf16) (b : FVec Ideal S1024x1024 .bf16) (p : Fin 512) (c : Fin 1024) :
    matmul dot_S512x1024_S1024x1024_S512x1024_1_0_0_1_n_n none a b (constant (F := Ideal) S512x1024 .f32 0x00000000#32) (ix2 p c)
      = ∑ k : Fin 1024, a (ix2 p k) * b (ix2 k c) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p c) ((contrEquiv1 dot_S512x1024_S1024x1024_S512x1024_1_0_0_1_n_n 1024 rfl rfl).symm k) = ix2 p k := funext fun x => Fin.ext (by
    match x with
    | ⟨0, _⟩ => exact lhs_mm2_0 _ _
    | ⟨1, _⟩ => exact (lhs_mm2_1 _ _).trans hk)
  have er : dot_S512x1024_S1024x1024_S512x1024_1_0_0_1_n_n.rhsIdx (ix2 p c) ((contrEquiv1 dot_S512x1024_S1024x1024_S512x1024_1_0_0_1_n_n 1024 rfl rfl).symm k) = ix2 k c := funext fun x => Fin.ext (by
    match x with
    | ⟨0, _⟩ => exact (rhs_mm2_0 _ _).trans hk
    | ⟨1, _⟩ => exact rhs_mm2_1 _ _)
  rw [el, er]

/-! ## The two halves of the first product -/

/-- The gate half reads the first product at the same column. -/
theorem gate_apply (y : FVec Ideal S512x2048 .f32) (p : Fin 512) (h : Fin 1024) :
    extractStridedSlice S512x1024 ![0, 0] y slices_S512x2048_o0_0_S512x1024 (ix2 p h)
      = y (ix2 p ⟨h.val, by omega⟩) :=
  slice2_axis1_apply 0 y slices_S512x2048_o0_0_S512x1024 p h ⟨h.val, by omega⟩ (Nat.zero_add _).symm

/-- The up half reads the first product 1024 columns further. -/
theorem up_apply (y : FVec Ideal S512x2048 .f32) (p : Fin 512) (h : Fin 1024) :
    extractStridedSlice S512x1024 ![0, 1024] y slices_S512x2048_o0_1024_S512x1024 (ix2 p h)
      = y (ix2 p ⟨1024 + h.val, by omega⟩) :=
  slice2_axis1_apply 1024 y slices_S512x2048_o0_1024_S512x1024 p h ⟨1024 + h.val, by omega⟩ rfl

/-! ## The body at an entry -/

/-- The kernel body's value at entry (p, j) is the gated feed-forward sum of token row p against the gate columns
    0 … 1023 and the up columns 1024 … 2047 of the fused matrix and the down matrix. -/
theorem pay_apply (x0 : Vec Ideal S512x1024 .bf16) (x1 : Vec Ideal S1x1024x2048 .bf16) (x2 : Vec Ideal S1x1024x1024 .bf16)
    (p : Fin 512) (j : Fin 1024) :
    k0_pay1 (F := Ideal) x0 x1 x2 (ix2 p j)
      = Cert.Spec.ffn (fun k => x0 (ix2 p k))
          (fun k h => x1 (ix3 (0 : Fin 1) k (Fin.castLE (by decide) h)))
          (fun k h => x1 (ix3 (0 : Fin 1) k ⟨1024 + h.val, by omega⟩))
          (fun h j' => x2 (ix3 (0 : Fin 1) h j')) j := by
  unfold k0_pay1 Cert.Spec.ffn
  rw [truncf_apply, mm2_apply]
  refine Finset.sum_congr rfl fun h _ => ?_
  rw [truncf_apply, mulf_apply, mulf_apply]
  show (_ * FloatOps.logistic _) * _ * _ = _
  rw [Ideal.logistic_def, gate_apply, up_apply, mm1_apply, mm1_apply, shapeCast_self,
    shapeCast_1ab_ab_apply x2 shapeCasts_S1x1024x1024_S1024x1024 h j]
  have hg : ∀ k : Fin 1024, shapeCast S1024x2048 x1 shapeCasts_S1x1024x2048_S1024x2048 (ix2 k (⟨h.val, by omega⟩ : Fin 2048))
      = x1 (ix3 (0 : Fin 1) k (Fin.castLE (by decide) h)) := fun k =>
    shapeCast_1ab_ab_apply x1 shapeCasts_S1x1024x2048_S1024x2048 k _
  have hu : ∀ k : Fin 1024, shapeCast S1024x2048 x1 shapeCasts_S1x1024x2048_S1024x2048 (ix2 k (⟨1024 + h.val, by omega⟩ : Fin 2048))
      = x1 (ix3 (0 : Fin 1) k ⟨1024 + h.val, by omega⟩) := fun k =>
    shapeCast_1ab_ab_apply x1 shapeCasts_S1x1024x2048_S1024x2048 k _
  simp only [hg, hu]

end Cert.KernelIdeal.Payload

end
-- ==== Proof.Region.lean ====
/-
  What the kernel region leaves in its output array, read at one entry.

  The region runs 36 grid points.  Point t stages rows 512 t … 512 t + 511 of the padded token array, the fused
  gate|up matrix and the down matrix of ONE segment — the segment whose number the prefetched table holds at position
  t —, and writes rows 512 t … 512 t + 511 of the output array.  The side condition of the table says each of its
  words is a segment number (below 4).  The body stores, once and over the whole staging buffer, its arithmetic applied
  to the three staged blocks; so what point t writes back is that arithmetic of the three blocks.  A block's entry sits
  in its array, on each axis, at block index × block size + the coordinate inside the block: the token block's entry
  (p, k) is the array's entry (512 t + p, k), a weight block's entry (0, k, q) is entry (g, k, q) of segment g's matrix.
  The 36 output blocks tile the output array (row r lies in the block of point r / 512, at place r % 512), and every
  point writes its block back, so the array after the run is the 36 results stacked.  Read at the ideal instance
  through the body's value at an entry, row r of the output is the gated feed-forward block of the segment of tile
  r / 512 applied to row r of the padded token array.
-/
import proofs.«400824_j17051020165276_3_alg».proof.Proof.Gen.KernelIdeal.Frame
import proofs.«400824_j17051020165276_3_alg».proof.Proof.Payload
import proofs.«400824_j17051020165276_3_alg».proof.Proof.Spec
import Idealize.ShloMosaic.Lib.Pipeline.Value
import Idealize.ShloMosaic.Lib.StableHlo.Predicate
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.SL.Sem
open Idealize.ShloMosaic.StableHlo.Predicate Idealize.ShloMosaic.ValueIdx
open Idealize.ShloMosaic.Pipeline (Dat)

variable {F : FTy → Type} [FloatOps F]
variable (m : (ℓ : Loc nD τ sig) → Buf (Elt F) ℓ)

/-! ## The table's words are segment numbers -/

namespace Region

/-- The one coordinate of a grid point is the point's number. -/
theorem coord_val : ∀ t : Fin grid0.N, (grid0.coords t 0).val = t.val := by decide +kernel

/-- The leading block index of the fused-weights window at coordinates `i` is the table's word at position `i 0`,
    read unsigned. -/
theorem transform1_zero (pf : pre0.Contents (Elt F)) (i : grid0.Coords) :
    cc0_transform_1 k0_off1_inb numel1_S1 pf i 0 = ((pf 0 : S36.Idx → BitVec 32) (Shape.Idx.ofFin (i 0))).toNat := by
  show ((pf 0 : S36.Idx → BitVec 32) _).toNat = _
  congr 2
  funext a
  apply Fin.ext
  match a with
  | ⟨0, _⟩ =>
    show (BitVec.ofNat 32 (i 0).val).toNat + 1 * 0 = (i 0).val
    have h : (i 0).val < 36 := (i 0).isLt
    rw [BitVec.toNat_ofNat]
    omega

/-- The down-weights window reads the same word. -/
theorem transform2_zero (pf : pre0.Contents (Elt F)) (i : grid0.Coords) :
    cc0_transform_2 k0_off1_inb numel1_S1 pf i 0 = ((pf 0 : S36.Idx → BitVec 32) (Shape.Idx.ofFin (i 0))).toNat :=
  transform1_zero pf i

/-- The grid coordinates whose one coordinate is `i`. -/
abbrev atTile (i : Fin 36) : grid0.Coords := fun a => match a with | ⟨0, _⟩ => i

end Region

open Region

/-- Every word of the table is a segment number: the side condition puts block (w, 0, 0) of extents [1, 1024, 2048]
    inside the [4, 1024, 2048] array, so (w + 1) · 1 ≤ 4. -/
theorem tbl_lt (hO : Ok m) (i : Fin 36) : ((tbl m 0 : S36.Idx → BitVec 32) (Shape.Idx.ofFin i)).toNat < 4 := by
  obtain ⟨h, -⟩ := hO.1 (atTile i)
  have h0 : (cc0_transform_1 k0_off1_inb numel1_S1 (tbl m) (atTile i) 0 + 1) * 1 ≤ 4 := h 0
  rw [transform1_zero] at h0
  have h1 : (((tbl m 0 : S36.Idx → BitVec 32) (Shape.Idx.ofFin i)).toNat + 1) * 1 ≤ 4 := h0
  omega

/-- The segment whose weights tile `i` is multiplied by: the table's word at position `i`. -/
def tileSeg (hO : Ok m) (i : Fin 36) : Fin 4 := ⟨((tbl m 0 : S36.Idx → BitVec 32) (Shape.Idx.ofFin i)).toNat, tbl_lt m hO i⟩

/-- Its defining equation, over the table as the region finds it. -/
theorem tileSeg_val (hO : Ok m) (i : Fin 36) :
    (tileSeg m hO i).val = ((V m 0 main_v60 : S36.Idx → BitVec 32) (Shape.Idx.ofFin i)).toNat := rfl

/-- The tile a row of the padded buffer lies in. -/
abbrev tileOf (r : Fin 18432) : Fin 36 := ⟨r.val / 512, by omega⟩
/-- The row's place inside its tile. -/
abbrev rowIn (r : Fin 18432) : Fin 512 := ⟨r.val % 512, Nat.mod_lt _ (by decide)⟩

namespace Region

/-! ## What one grid point leaves in the output's staging buffer -/

theorem hz2 : (![0, 0] : Fin 2 → Nat) = fun _ => 0 := funext fun a => by fin_cases a <;> rfl
theorem hz3 : (![0, 0, 0] : Fin 3 → Nat) = fun _ => 0 := funext fun a => by fin_cases a <;> rfl

/-- The body's one store covers the whole staging buffer, and its three loads read the whole input buffers: what it
    leaves is its arithmetic applied to the three input blocks. -/
theorem piece (c : Dev nD) (i : grid0.Coords) (a2 : Memref sig .tc .vmem S512x1024 .bf16) (h2 : a2.IsWhole)
    (a3 : Memref sig .tc .vmem S1x1024x2048 .bf16) (h3 : a3.IsWhole) (a4 : Memref sig .tc .vmem S1x1024x1024 .bf16) (h4 : a4.IsWhole)
    (a5 : Memref sig .tc .vmem S512x1024 .bf16) (h5 : a5.IsWhole)
    (x0 : Vec F S512x1024 .bf16) (x1 : Vec F S1x1024x2048 .bf16) (x2 : Vec F S1x1024x1024 .bf16) (xt0 : TbBuf0 (F := F) c tbM0_0) :
    out0_A_3 c i a2 h2 a3 h3 a4 h4 a5 h5 x0 x1 x2 xt0 = k0_pay1 x0 x1 x2 := by
  unfold out0_A_3
  rw [View.read_writes_eq_canon _ _ _ (cover0_A_3 c i a2 h2 a3 h3 a4 h4 a5 h5 x0 x1 x2 xt0)]
  unfold kernelRun0_A
  dsimp only
  sl_unfold_words
  rw [View.canon_unit_zero hz2]
  simp only [View.readAt_eq_ld, h2.read_unread, h3.read_unread, h4.read_unread, View.ld_unit_zero (S := S512x1024) hz2,
    View.ld_unit_zero (S := S1x1024x2048) hz3, View.ld_unit_zero (S := S1x1024x1024) hz3]

/-- The three input blocks at a grid point and the three arrays they are cut from, named at their literal types. -/
abbrev xblk (hO : Ok m) (c : Dev nD) (t : Fin (cfgM m hO).N) : Vec F S512x1024 .bf16 := iblk m hO c 0 t
abbrev gublk (hO : Ok m) (c : Dev nD) (t : Fin (cfgM m hO).N) : Vec F S1x1024x2048 .bf16 := iblk m hO c 1 t
abbrev dblk (hO : Ok m) (c : Dev nD) (t : Fin (cfgM m hO).N) : Vec F S1x1024x1024 .bf16 := iblk m hO c 2 t
abbrev xarr (c : Dev nD) : Vec F S18432x1024 .bf16 := V m c main_v40
abbrev guarr (c : Dev nD) : Vec F S4x1024x2048 .bf16 := V m c main_v63
abbrev darr (c : Dev nD) : Vec F S4x1024x1024 .bf16 := V m c main_v64

/-- What point `t` leaves in the output's staging buffer: the body's arithmetic of the three blocks at `t`. -/
theorem outsAt_eq (hO : Ok m) (c : Dev nD) (t : Fin (cfgM m hO).N) :
    outsAt0 m hO c t = k0_pay1 (xblk m hO c t) (gublk m hO c t) (dblk m hO c t) := by
  unfold outsAt0
  exact piece c (grid0.coords t) (ms0_0 m hO t) (hs0_0 m hO t) (ms0_1 m hO t) (hs0_1 m hO t) (ms0_2 m hO t) (hs0_2 m hO t)
    (ms0_3 m hO t) (hs0_3 m hO t) (iblk m hO c 0 t) (iblk m hO c 1 t) (iblk m hO c 2 t) (tbl m 0)

/-! ## The blocks, read at an entry -/

/-- The index maps of the token window and of the output window, decided over the 36 points: block (t, 0). -/
theorem idx0_facts : ∀ t : Fin grid0.N, cc0_transform_0 (grid0.coords t) 0 = t.val ∧ cc0_transform_0 (grid0.coords t) 1 = 0 := by
  decide +kernel
theorem idx3_facts : ∀ t : Fin grid0.N, cc0_transform_3 (grid0.coords t) 0 = t.val ∧ cc0_transform_3 (grid0.coords t) 1 = 0 := by
  decide +kernel

/-- Block `t` of a [18432 × 1024] array read through the token window: entry (p, k) is the array's entry (512 t + p, k). -/
theorem read_blk0 (hO : Ok m) (t : Fin (cfgM m hO).N) (A : Vec F S18432x1024 .bf16) (p : Fin 512) (k : Fin 1024) (r : Fin 18432)
    (hr : r.val = 512 * t.val + p.val) :
    ((((cfgM m hO).win 0).blk t).view.read (Elt F) A : Vec F S512x1024 .bf16) (ix2 p k) = A (ij r k) := by
  show A ((((cfgM m hO).win 0).blk t).view.emb (ix2 p k)) = A (ij r k)
  refine congrArg A (funext fun a => Fin.ext ?_)
  match a with
  | ⟨0, _⟩ =>
    show cc0_transform_0 (grid0.coords t) 0 * 512 + 1 * p.val = r.val
    rw [(idx0_facts t).1]; omega
  | ⟨1, _⟩ =>
    show cc0_transform_0 (grid0.coords t) 1 * 1024 + 1 * k.val = k.val
    rw [(idx0_facts t).2]; omega

/-- Block `t` of a [4 × 1024 × 2048] array read through the fused-weights window: the matrix of the segment the
    table names for tile `t`. -/
theorem read_blk1 (hO : Ok m) (t : Fin (cfgM m hO).N) (A : Vec F S4x1024x2048 .bf16) (k : Fin 1024) (q : Fin 2048) (g : Fin 4)
    (hg : g.val = ((tbl m 0 : S36.Idx → BitVec 32) (Shape.Idx.ofFin (grid0.coords t 0))).toNat) :
    ((((cfgM m hO).win 1).blk t).view.read (Elt F) A : Vec F S1x1024x2048 .bf16) (ix3 (0 : Fin 1) k q) = A (ix3 g k q) := by
  show A ((((cfgM m hO).win 1).blk t).view.emb (ix3 (0 : Fin 1) k q)) = A (ix3 g k q)
  refine congrArg A (funext fun a => Fin.ext ?_)
  match a with
  | ⟨0, _⟩ =>
    show cc0_transform_1 k0_off1_inb numel1_S1 (tbl m) (grid0.coords t) 0 * 1 + 1 * 0 = g.val
    rw [transform1_zero, hg]; omega
  | ⟨1, _⟩ =>
    show 0 * 1024 + 1 * k.val = k.val
    omega
  | ⟨2, _⟩ =>
    show 0 * 2048 + 1 * q.val = q.val
    omega

/-- Block `t` of a [4 × 1024 × 1024] array read through the down-weights window: the same segment's matrix. -/
theorem read_blk2 (hO : Ok m) (t : Fin (cfgM m hO).N) (A : Vec F S4x1024x1024 .bf16) (k : Fin 1024) (q : Fin 1024) (g : Fin 4)
    (hg : g.val = ((tbl m 0 : S36.Idx → BitVec 32) (Shape.Idx.ofFin (grid0.coords t 0))).toNat) :
    ((((cfgM m hO).win 2).blk t).view.read (Elt F) A : Vec F S1x1024x1024 .bf16) (ix3 (0 : Fin 1) k q) = A (ix3 g k q) := by
  show A ((((cfgM m hO).win 2).blk t).view.emb (ix3 (0 : Fin 1) k q)) = A (ix3 g k q)
  refine congrArg A (funext fun a => Fin.ext ?_)
  match a with
  | ⟨0, _⟩ =>
    show cc0_transform_2 k0_off1_inb numel1_S1 (tbl m) (grid0.coords t) 0 * 1 + 1 * 0 = g.val
    rw [transform2_zero, hg]; omega
  | ⟨1, _⟩ =>
    show 0 * 1024 + 1 * k.val = k.val
    omega
  | ⟨2, _⟩ =>
    show 0 * 1024 + 1 * q.val = q.val
    omega

/-- The three blocks at an entry, off the arrays as the region finds them. -/
theorem xblk_apply (hO : Ok m) (c : Dev nD) (t : Fin (cfgM m hO).N) (p : Fin 512) (k : Fin 1024) (r : Fin 18432)
    (hr : r.val = 512 * t.val + p.val) : xblk m hO c t (ix2 p k) = xarr m c (ij r k) :=
  read_blk0 m hO t (xarr m c) p k r hr
theorem gublk_apply (hO : Ok m) (c : Dev nD) (t : Fin (cfgM m hO).N) (k : Fin 1024) (q : Fin 2048) (g : Fin 4)
    (hg : g.val = ((tbl m 0 : S36.Idx → BitVec 32) (Shape.Idx.ofFin (grid0.coords t 0))).toNat) :
    gublk m hO c t (ix3 (0 : Fin 1) k q) = guarr m c (ix3 g k q) :=
  read_blk1 m hO t (guarr m c) k q g hg
theorem dblk_apply (hO : Ok m) (c : Dev nD) (t : Fin (cfgM m hO).N) (k : Fin 1024) (q : Fin 1024) (g : Fin 4)
    (hg : g.val = ((tbl m 0 : S36.Idx → BitVec 32) (Shape.Idx.ofFin (grid0.coords t 0))).toNat) :
    dblk m hO c t (ix3 (0 : Fin 1) k q) = darr m c (ix3 g k q) :=
  read_blk2 m hO t (darr m c) k q g hg

/-! ## From the 36 blocks to the output array -/

/-- Tile `i` as a point of the grid. -/
abbrev pt (hO : Ok m) (i : Fin 36) : Fin (cfgM m hO).N := ⟨i.val, lt_of_lt_of_eq i.isLt N_0.symm⟩

/-- A [18432 × 1024] array stacked from 36 blocks of 512 rows. -/
def stack (hO : Ok m) (O : Fin (cfgM m hO).N → Vec F S512x1024 .bf16) : Vec F S18432x1024 .bf16 := fun i =>
  O (pt m hO (tileOf (i 0))) (ij (rowIn (i 0)) (i 1))

theorem stack_apply (hO : Ok m) (O : Fin (cfgM m hO).N → Vec F S512x1024 .bf16) (r : Fin 18432) (j : Fin 1024) :
    stack m hO O (ij r j) = O (pt m hO (tileOf r)) (ij (rowIn r) j) := rfl

/-- The stacked array at row 512 t + y₀ is block `t` at row y₀. -/
theorem stack_of (hO : Ok m) (O : Fin (cfgM m hO).N → Vec F S512x1024 .bf16) (t : Fin (cfgM m hO).N) (i : S18432x1024.Idx)
    (y : S512x1024.Idx) (e0 : (i 0).val = 512 * t.val + (y 0).val) (e1 : (i 1).val = (y 1).val) : stack m hO O i = O t y := by
  have hy0 : (y 0).val < 512 := (y 0).isLt
  unfold stack
  have et : pt m hO (tileOf (i 0)) = t := Fin.ext (by show (i 0).val / 512 = t.val; rw [e0]; omega)
  have ey : (ij (rowIn (i 0)) (i 1) : S512x1024.Idx) = y :=
    funext fun a => Fin.ext (by
      match a with
      | ⟨0, _⟩ => show (i 0).val % 512 = (y 0).val; rw [e0]; omega
      | ⟨1, _⟩ => exact e1)
  rw [et, ey]

/-- Block `t` of a stacked array, read through the output window, is the `t`-th block. -/
theorem read_blk3 (hO : Ok m) (t : Fin (cfgM m hO).N) (O : Fin (cfgM m hO).N → Vec F S512x1024 .bf16) (y : S512x1024.Idx) :
    ((((cfgM m hO).win 3).blk t).view.read (Elt F) (stack m hO O) : Vec F S512x1024 .bf16) y = O t y := by
  show stack m hO O ((((cfgM m hO).win 3).blk t).view.emb y) = O t y
  refine stack_of m hO O t ((((cfgM m hO).win 3).blk t).view.emb y) y ?_ ?_
  · show cc0_transform_3 (grid0.coords t) 0 * 512 + 1 * (y 0).val = _
    rw [(idx3_facts t).1]; omega
  · show cc0_transform_3 (grid0.coords t) 1 * 1024 + 1 * (y 1).val = _
    rw [(idx3_facts t).2]; omega

/-- What point `t` writes back is block `t` of the stack of the points' results. -/
theorem flushed_eq (hO : Ok m) (c : Dev nD) (t : Fin (cfgM m hO).N) :
    (dats m hO 0 c).flushed 3 t = (((cfgM m hO).win 3).blk t).view.read (Elt F) (stack m hO (outsAt0 m hO c)) := by
  show ((cfgM m hO).win 3).cut (grid0.coords t) ((dats m hO 0 c).after 3 t) = _
  rw [after0_3]
  funext y
  exact (read_blk3 m hO t (outsAt0 m hO c) y).symm

/-- An index of the output array is in point `t`'s block iff each coordinate is in the block's range on its axis. -/
theorem mem_blk3 (hO : Ok m) (t : Fin (cfgM m hO).N) (i : S18432x1024.Idx) :
    i ∈ (((cfgM m hO).win 3).blk t).view.set ↔ ∀ a : Fin 2, cc0_transform_3 (grid0.coords t) a * S512x1024.size a ≤ (i a).val
      ∧ (i a).val < cc0_transform_3 (grid0.coords t) a * S512x1024.size a + S512x1024.size a := by
  have e : (((cfgM m hO).win 3).blk t).view.set = (((cfgM m hO).win 3).rect t).set := View.set_slice_whole main_v65 _
  rw [e]
  exact Rect.mem_set_unit

/-- Every row of the output array is in the block of its tile's point, and every point writes its block back. -/
theorem cover3 (hO : Ok m) (i : S18432x1024.Idx) :
    ∃ t : Fin (cfgM m hO).N, ((cfgM m hO).win 3).flush t = true ∧ i ∈ (((cfgM m hO).win 3).blk t).view.set := by
  have hi0 : (i 0).val < 18432 := (i 0).isLt
  have hi1 : (i 1).val < 1024 := (i 1).isLt
  refine ⟨pt m hO (tileOf (i 0)), flush0_3 (adm m hO) _, ?_⟩
  rw [mem_blk3]
  intro a
  match a with
  | ⟨0, _⟩ =>
    show cc0_transform_3 (grid0.coords (pt m hO (tileOf (i 0)))) 0 * 512 ≤ (i 0).val
      ∧ (i 0).val < cc0_transform_3 (grid0.coords (pt m hO (tileOf (i 0)))) 0 * 512 + 512
    rw [(idx3_facts (pt m hO (tileOf (i 0)))).1]
    show (i 0).val / 512 * 512 ≤ (i 0).val ∧ (i 0).val < (i 0).val / 512 * 512 + 512
    omega
  | ⟨1, _⟩ =>
    show cc0_transform_3 (grid0.coords (pt m hO (tileOf (i 0)))) 1 * 1024 ≤ (i 1).val
      ∧ (i 1).val < cc0_transform_3 (grid0.coords (pt m hO (tileOf (i 0)))) 1 * 1024 + 1024
    rw [(idx3_facts (pt m hO (tileOf (i 0)))).2]
    omega

/-- The output array after the run is the stack of what the 36 points leave in the staging buffer. -/
theorem arr_eq_stack (hO : Ok m) (c : Dev nD) :
    (dats m hO 0 c).arrAt 3 (cfgM m hO).N = stack m hO (outsAt0 m hO c) :=
  (dats m hO 0 c).arrAt_eq_of_cover 3 (stack m hO (outsAt0 m hO c)) (fun t _ => flushed_eq m hO c t) (cover3 m hO)

theorem ij_eq_ix2 {n0 n1 : Nat} (p : Fin n0) (q : Fin n1) : ij p q = ix2 p q := by
  funext a; match a with | ⟨0, _⟩ => rfl | ⟨1, _⟩ => rfl

/-- The output array at row r, column j: the body's arithmetic on the three blocks of r's tile, at r's place in the tile. -/
theorem arr_apply (hO : Ok m) (c : Dev nD) (r : Fin 18432) (j : Fin 1024) :
    ((dats m hO 0 c).arrAt 3 (cfgM m hO).N : Vec F S18432x1024 .bf16) (ij r j)
      = k0_pay1 (xblk m hO c (pt m hO (tileOf r))) (gublk m hO c (pt m hO (tileOf r))) (dblk m hO c (pt m hO (tileOf r)))
          (ix2 (rowIn r) j) := by
  rw [arr_eq_stack, stack_apply, outsAt_eq, ij_eq_ix2]

/-- The one coordinate of tile `i`'s point is `i`. -/
theorem coord_pt (hO : Ok m) (i : Fin 36) : grid0.coords (pt m hO i) 0 = i := Fin.ext (coord_val (pt m hO i))

/-- The segment of tile `i` is the table's word at the point's coordinate. -/
theorem tileSeg_coord (hO : Ok m) (i : Fin 36) :
    (tileSeg m hO i).val = ((tbl m 0 : S36.Idx → BitVec 32) (Shape.Idx.ofFin (grid0.coords (pt m hO i) 0))).toNat :=
  congrArg (fun i' : Fin 36 => ((tbl m 0 : S36.Idx → BitVec 32) (Shape.Idx.ofFin i')).toNat) (coord_pt m hO i).symm

end Region

end Cert.KernelIdeal.Gen

/-! ## The output array at the ideal instance -/

namespace Cert.KernelIdeal.Gen

open Idealize.ShloMosaic Idealize.ShloMosaic.TcCoe Idealize.SL.Sem
open Idealize.ShloMosaic.StableHlo.Predicate Idealize.ShloMosaic.ValueIdx
open Idealize.ShloMosaic.Pipeline (Dat)
open Region

/-- At the ideal instance, the output array at row r, column j is the gated feed-forward block of the segment of
    r's tile, applied to row r of the padded token array: the gate columns 0 … 1023 and the up columns 1024 … 2047 of
    that segment's fused matrix, and that segment's down matrix (512 · (r / 512) + r % 512 = r). -/
theorem padY_ffn (m : (ℓ : Loc nD τ sig) → Buf (Elt Ideal) ℓ) (hO : Ok m) (c : Dev nD) (r : Fin 18432) (j : Fin 1024) :
    ((dats m hO 0 c).arrAt 3 (cfgM m hO).N : S18432x1024.Idx → EReal) (ij r j)
      = Cert.Spec.ffn (fun k => (V m c main_v40 : S18432x1024.Idx → EReal) (ij r k))
          (fun k h => (V m c main_v63 : S4x1024x2048.Idx → EReal) (ix3 (tileSeg m hO (tileOf r)) k (Fin.castLE (by decide) h)))
          (fun k h => (V m c main_v63 : S4x1024x2048.Idx → EReal) (ix3 (tileSeg m hO (tileOf r)) k ⟨1024 + h.val, by omega⟩))
          (fun h j' => (V m c main_v64 : S4x1024x1024.Idx → EReal) (ix3 (tileSeg m hO (tileOf r)) h j')) j := by
  refine (arr_apply m hO c r j).trans ?_
  refine (Cert.KernelIdeal.Payload.pay_apply (xblk m hO c (pt m hO (tileOf r))) (gublk m hO c (pt m hO (tileOf r)))
    (dblk m hO c (pt m hO (tileOf r))) (rowIn r) j).trans ?_
  have hx : (fun k : Fin 1024 => xblk m hO c (pt m hO (tileOf r)) (ix2 (rowIn r) k)) = fun k => xarr m c (ij r k) :=
    funext fun k => xblk_apply m hO c (pt m hO (tileOf r)) (rowIn r) k r (by show r.val = 512 * (r.val / 512) + r.val % 512; omega)
  have hg : (fun (k h : Fin 1024) => gublk m hO c (pt m hO (tileOf r)) (ix3 (0 : Fin 1) k (Fin.castLE (by decide) h)))
      = fun k h => guarr m c (ix3 (tileSeg m hO (tileOf r)) k (Fin.castLE (by decide) h)) :=
    funext fun k => funext fun h => gublk_apply m hO c (pt m hO (tileOf r)) k _ (tileSeg m hO (tileOf r)) (tileSeg_coord m hO (tileOf r))
  have hu : (fun (k h : Fin 1024) => gublk m hO c (pt m hO (tileOf r)) (ix3 (0 : Fin 1) k (⟨1024 + h.val, by omega⟩ : Fin 2048)))
      = fun k h => guarr m c (ix3 (tileSeg m hO (tileOf r)) k (⟨1024 + h.val, by omega⟩ : Fin 2048)) :=
    funext fun k => funext fun h => gublk_apply m hO c (pt m hO (tileOf r)) k _ (tileSeg m hO (tileOf r)) (tileSeg_coord m hO (tileOf r))
  have hd : (fun (h j' : Fin 1024) => dblk m hO c (pt m hO (tileOf r)) (ix3 (0 : Fin 1) h j'))
      = fun h j' => darr m c (ix3 (tileSeg m hO (tileOf r)) h j') :=
    funext fun h => funext fun j' => dblk_apply m hO c (pt m hO (tileOf r)) h j' (tileSeg m hO (tileOf r)) (tileSeg_coord m hO (tileOf r))
  rw [hx, hg, hu, hd]

end Cert.KernelIdeal.Gen

end
-- ==== Proof.OkWords.lean ====
/-
  THE PIPELINE'S SIDE CONDITION FROM THE TABLE'S RANGE. Windows 1 and 2 take their block from the prefetched table:
  the index map returns (w, 0, 0) with w one word of the table, read unsigned. If every word of the table is below 4,
  the block (w, 0, 0) of extents [1, 1024, 2048] (resp. [1, 1024, 1024]) lies inside the array [4, 1024, 2048]
  (resp. [4, 1024, 1024]): (w + 1) * 1 ≤ 4, (0 + 1) * 1024 ≤ 1024, (0 + 1) * 2048 ≤ 2048. The element type has 16 bits,
  two to a word; the block's extent along the last axis (2048 resp. 1024) is a multiple of 2, so every transfer is
  of whole words.
-/
import proofs.«400824_j17051020165276_3_alg».proof.Proof.Gen.KernelIdeal.Frame

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ)

/-- The side condition holds when every word of the table is below 4. -/
theorem ok_of_words (hw : ∀ x : S36.Idx, ((tbl m 0 : S36.Idx → BitVec 32) x).toNat < 4) : Ok m := by
  refine ⟨fun i => ?_, fun i => ?_⟩
  · -- window 1: whichever position of the table the map reads, the word there is below 4
    obtain ⟨w, hw', e⟩ : ∃ w : BitVec 32, w.toNat < 4 ∧
        cc0_transform_1 k0_off1_inb numel1_S1 (tbl m) i = ![w.toNat, 0, 0] := ⟨_, hw _, rfl⟩
    refine ⟨fun a => ?_, .inr (Affine.block_words_dvd (of_decide_eq_true rfl) (by decide))⟩
    rw [e]
    fin_cases a <;> simp [S1x1024x2048, S4x1024x2048] <;> omega
  · -- window 2: the same word, the narrower array
    obtain ⟨w, hw', e⟩ : ∃ w : BitVec 32, w.toNat < 4 ∧
        cc0_transform_2 k0_off1_inb numel1_S1 (tbl m) i = ![w.toNat, 0, 0] := ⟨_, hw _, rfl⟩
    refine ⟨fun a => ?_, .inr (Affine.block_words_dvd (of_decide_eq_true rfl) (by decide))⟩
    rw [e]
    fin_cases a <;> simp [S1x1024x1024, S4x1024x1024] <;> omega

end Cert.KernelIdeal.Gen

end
-- ==== Proof.Bridge.lean ====
/-
  The kernel program's result, entry by entry, at the ideal instance: token n's output row is the gated feed-forward
  block of token n's own segment applied to token n's input row.  The wrapper sends token n to row `dst n` of the
  padded buffer; the tile of that row carries token n's segment number, so the kernel multiplies the row by that
  segment's weights; and the final gather reads row `dst n` back.
-/
import proofs.«400824_j17051020165276_3_alg».proof.Proof.HostFloats
import proofs.«400824_j17051020165276_3_alg».proof.Proof.HostTiles
import proofs.«400824_j17051020165276_3_alg».proof.Proof.HostRows
import proofs.«400824_j17051020165276_3_alg».proof.Proof.Region
import proofs.«400824_j17051020165276_3_alg».proof.Proof.OkWords
import proofs.«400824_j17051020165276_3_alg».proof.Proof.Spec
import proofs.«400824_j17051020165276_3_alg».proof.Proof.LibWord

noncomputable section

namespace Cert.KernelIdeal.Gen

open Idealize.ShloMosaic Idealize.ShloMosaic.TcCoe Idealize.SL.Sem Idealize.ShloMosaic.StableHlo Idealize.ShloMosaic.StableHlo.Predicate
open Idealize.ShloMosaic.ValueIdx
open Cert.Dispatch

/-- The two spellings of a rank-2 index agree. -/
theorem ij_eq_ix2 {n0 n1 : Nat} (p : Fin n0) (q : Fin n1) : ij p q = ix2 p q := by
  funext a; match a with | ⟨0, _⟩ => rfl | ⟨1, _⟩ => rfl

/-- The two spellings of a rank-1 index agree. -/
theorem ofFin_eq_ix1 {n : Nat} (p : Fin n) : Shape.Idx.ofFin p = ix1 p := by
  funext a; match a with | ⟨0, _⟩ => rfl

section AnyInstance

variable {F : FTy → Type} [FloatOps F]

/-- The tile table's words are segment numbers whatever the tokens' segment words are, so the pipeline's side
    condition holds of every launch memory. -/
theorem ok_all (m : (ℓ : Loc nD τ sig) → Buf (Elt F) ℓ) : Ok m := by
  refine ok_of_words m fun x => ?_
  rw [Shape.Idx.eq_ofFin x]
  show ((V m 0 main_v60 : S36.Idx → BitVec 32) (Shape.Idx.ofFin (x 0))).toNat < 4
  rw [gid_word m 0 (x 0), BitVec.toNat_ofNat]
  exact lt_of_le_of_lt (Nat.mod_le _ _) (gid_lt _ _)

/-- A token's segment word is the word of its segment number. -/
theorem segW_eq (m : (ℓ : Loc nD τ sig) → Buf (Elt F) ℓ) (c : Dev nD) (n : Fin 16384) :
    (m ((c : Thread nD τ).loc main_arg4) : S16384.Idx → BitVec 32) (ix1 n) = BitVec.ofNat 32 (segN m c n) := by
  rw [← ofFin_eq_ix1]
  exact Cert.LibWord.eq_ofNat_toNat _

end AnyInstance

variable (m : (ℓ : Loc nD τ sig) → Buf (Elt Ideal) ℓ)

/-- The tile of token n's row carries token n's segment number. -/
theorem tileSeg_dst (hO : Ok m) (c : Dev nD) (hseg : ∀ n, segN m c n < 4) (n : Fin 16384) :
    tileSeg m hO (tileOf ⟨dst (segN m c) n, dst_lt _ hseg n⟩) = ⟨segN m c n, hseg n⟩ := by
  apply Fin.ext
  rw [tileSeg_val]
  obtain rfl : c = 0 := Subsingleton.elim _ _
  rw [gid_word m 0 (tileOf ⟨dst (segN m 0) n, dst_lt _ hseg n⟩), BitVec.toNat_ofNat]
  show gid (segN m 0) (dst (segN m 0) n / 512) % 2 ^ 32 = segN m 0 n
  rw [gid_dst _ hseg n]
  exact Nat.mod_eq_of_lt (lt_trans (hseg n) (by decide))

/-- Token n's output row, as the program's result holds it when the run ends. -/
theorem kernel_value (hO : Ok m) (c : Dev nD) (hseg : ∀ n, segN m c n < 4) (n : Fin 16384) (j : Fin 1024) :
    (Pipeline.afterTail pcfgs (fun _ => adm m hO) (dats m hO) 0 (V0 m) [hostOps1] c main_v73 : S16384x1024.Idx → EReal) (ij n j)
      = Cert.Spec.ffn (fun k => (m ((c : Thread nD τ).loc main_arg0) : S16384x1024.Idx → EReal) (ix2 n k))
          (fun k h => (m ((c : Thread nD τ).loc main_arg1) : S4x1024x1024.Idx → EReal) (ix3 (⟨segN m c n, hseg n⟩ : Fin 4) k h))
          (fun k h => (m ((c : Thread nD τ).loc main_arg2) : S4x1024x1024.Idx → EReal) (ix3 (⟨segN m c n, hseg n⟩ : Fin 4) k h))
          (fun h j' => (m ((c : Thread nD τ).loc main_arg3) : S4x1024x1024.Idx → EReal) (ix3 (⟨segN m c n, hseg n⟩ : Fin 4) h j')) j := by
  rw [tail_apply m hO c hseg n j, padY_ffn m hO c ⟨dst (segN m c) n, dst_lt _ hseg n⟩ j, tileSeg_dst m hO c hseg n]
  simp only [xpad_row m c hseg n, gwup_gate m c, gwup_up m c, down_apply m c]
  simp only [ij_eq_ix2]

end Cert.KernelIdeal.Gen

end
-- ==== Proof.HostStepK.lean ====
/-
  One tactic for the wrapper's host arithmetic: an equation between the contents two buffers hold when the kernel
  region is entered is opened, on both sides, to the host operations' terms over the argument arrays.
-/
import proofs.«400824_j17051020165276_3_alg».proof.Proof.Gen.Kernel.Frame
import Idealize.ShloMosaic.Lib.StableHlo.Run

namespace Cert.Kernel.Gen

open Idealize.ShloMosaic Idealize.ShloMosaic.StableHlo

/-- Opens every `V m c b` in the goal to the composed term of the host operations that computed buffer `b` from the
    argument arrays (the transports along the buffers' literal types removed); an equation whose two sides are the
    same composition closes. -/
macro "host_step_k" : tactic =>
  `(tactic| (dsimp only [V, V0]
             simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
             after_results_simp
             try simp only [StableHlo.TRef.toBuf, StableHlo.TRef.ofBuf, cast_eq, id_eq]))

end Cert.Kernel.Gen
-- ==== Proof.HostSegK.lean ====
/-
  The tokens' segment numbers as natural numbers, read off the launch memory.
-/
import proofs.«400824_j17051020165276_3_alg».proof.Proof.Gen.Kernel.Frame
import proofs.«400824_j17051020165276_3_alg».proof.Proof.Dispatch
import Idealize.ShloMosaic.Lib.StableHlo.Predicate

noncomputable section

namespace Cert.Kernel.Gen

open Idealize.ShloMosaic Idealize.ShloMosaic.TcCoe Idealize.SL.Sem

variable {F : FTy → Type} [FloatOps F]
variable (m : (ℓ : Loc nD τ sig) → Buf (Elt F) ℓ)

/-- The segment-number words of the tokens on core `c`. -/
abbrev segW (c : Dev nD) : S16384.Idx → BitVec 32 := m ((c : Thread nD τ).loc main_arg4)

/-- Token `n`'s segment number, as a natural number. -/
def segN (c : Dev nD) (n : Fin 16384) : ℕ := (segW m c (Shape.Idx.ofFin n)).toNat

end Cert.Kernel.Gen

end
-- ==== Proof.HostTilesEqK.lean ====
/-
  The wrapper's tile bookkeeping, stage by stage: each buffer of the chain from the tokens' segment numbers to the
  per-tile segment table, as the composition of integer vector operations that computes it from the buffers before
  it (the counts from the segment numbers themselves).
-/
import proofs.«400824_j17051020165276_3_alg».proof.Proof.HostStepK
import proofs.«400824_j17051020165276_3_alg».proof.Proof.HostSegK

noncomputable section

namespace Cert.Kernel.Gen

open Idealize.ShloMosaic Idealize.ShloMosaic.TcCoe Idealize.SL.Sem Idealize.ShloMosaic.StableHlo

variable {F : FTy → Type} [FloatOps F]
variable (m : (ℓ : Loc nD τ sig) → Buf (Elt F) ℓ)

/-- The floor division of a vector of four words by 512: the truncating quotient, lowered by one where the signs
    differ and the remainder is not zero. -/
abbrev fdiv512 (x : S4.Idx → BitVec 32) : S4.Idx → BitVec 32 :=
  select
    (andi (cmpi .ne (signi x) (broadcastInDim S4 ![] bcast_S_S4 (signi (constantI S_ 32 512#32))))
      (cmpi .ne (Host.remsi x (broadcastInDim S4 ![] bcast_S_S4 (constantI S_ 32 512#32)))
        (broadcastInDim S4 ![] bcast_S_S4 (constantI S_ 32 0#32))))
    (subi (Host.divsi x (broadcastInDim S4 ![] bcast_S_S4 (constantI S_ 32 512#32)))
      (broadcastInDim S4 ![] bcast_S_S4 (constantI S_ 32 1#32)))
    (Host.divsi x (broadcastInDim S4 ![] bcast_S_S4 (constantI S_ 32 512#32)))

set_option maxRecDepth 200000 in
set_option maxHeartbeats 4000000 in
/-- The token counts: the sum over the tokens of the widened mask "token n is of segment s". -/
theorem e_v7 (c : Dev nD) : (V m c main_v7 : S4.Idx → BitVec 32) =
    Host.reduce IntOp.addi
      (extui 32 (cmpi .eq
        (broadcastInDim S16384x4 ![0, 1] bcast_S16384x1_S16384x4_0_1 (broadcastInDim S16384x1 ![0] bcast_S16384_S16384x1_0 (segW m c)))
        (broadcastInDim S16384x4 ![0, 1] bcast_S1x4_S16384x4_0_1 (broadcastInDim S1x4 ![1] bcast_S4_S1x4_1 (iotaInDim S4 32 0)))) natLt_1_32)
      (constantI S_ 32 0#32) reducesTo_S16384x4_S4_d0 h_S_ := by
  host_step_k

set_option maxRecDepth 200000 in
set_option maxHeartbeats 4000000 in
/-- The padded counts: (count + 512 - 1) floor-divided by 512, times 512. -/
theorem e_v14 (c : Dev nD) : (V m c main_v14 : S4.Idx → BitVec 32) =
    muli
      (fdiv512 (subi (addi (V m c main_v7 : S4.Idx → BitVec 32) (broadcastInDim S4 ![] bcast_S_S4 (constantI S_ 32 512#32)))
        (broadcastInDim S4 ![] bcast_S_S4 (constantI S_ 32 1#32))))
      (broadcastInDim S4 ![] bcast_S_S4 (constantI S_ 32 512#32)) := by
  host_step_k

set_option maxRecDepth 200000 in
set_option maxHeartbeats 4000000 in
/-- The starts: the running sum of the padded counts less the padded count itself. -/
theorem e_v16 (c : Dev nD) : (V m c main_v16 : S4.Idx → BitVec 32) =
    subi
      (Host.reduceWindow IntOp.addi ![4] ![1] ![3] ![0] (V m c main_v14 : S4.Idx → BitVec 32)
        (broadcastInDim S_ ![] bcast_S_S_ (constantI S_ 32 0#32)) reduceWindows_S4_S4_w4s1p3_0 h_S_)
      (V m c main_v14 : S4.Idx → BitVec 32) := by
  host_step_k

set_option maxRecDepth 200000 in
set_option maxHeartbeats 4000000 in
/-- The runs' lengths in tiles. -/
theorem e_v41 (c : Dev nD) : (V m c main_v41 : S4.Idx → BitVec 32) = fdiv512 (V m c main_v14 : S4.Idx → BitVec 32) := by
  host_step_k

set_option maxRecDepth 200000 in
set_option maxHeartbeats 4000000 in
/-- The runs' first tiles. -/
theorem e_v42 (c : Dev nD) : (V m c main_v42 : S4.Idx → BitVec 32) = fdiv512 (V m c main_v16 : S4.Idx → BitVec 32) := by
  host_step_k

set_option maxRecDepth 200000 in
set_option maxHeartbeats 4000000 in
/-- The tiles' segment numbers: along the four segments, the sum of "tile i lies in segment s's run", widened,
    times s. -/
theorem e_v60 (c : Dev nD) : (V m c main_v60 : S36.Idx → BitVec 32) =
    Host.reduce IntOp.addi
      (muli
        (extui 32
          (andi
            (cmpi .sge
              (broadcastInDim S36x4 ![0, 1] bcast_S36x1_S36x4_0_1 (broadcastInDim S36x1 ![0] bcast_S36_S36x1_0 (iotaInDim S36 32 0)))
              (broadcastInDim S36x4 ![0, 1] bcast_S1x4_S36x4_0_1 (broadcastInDim S1x4 ![1] bcast_S4_S1x4_1 (V m c main_v42 : S4.Idx → BitVec 32))))
            (cmpi .slt
              (broadcastInDim S36x4 ![0, 1] bcast_S36x1_S36x4_0_1 (broadcastInDim S36x1 ![0] bcast_S36_S36x1_0 (iotaInDim S36 32 0)))
              (broadcastInDim S36x4 ![0, 1] bcast_S1x4_S36x4_0_1 (broadcastInDim S1x4 ![1] bcast_S4_S1x4_1
                (addi (V m c main_v42 : S4.Idx → BitVec 32) (V m c main_v41 : S4.Idx → BitVec 32))))))
          natLt_1_32)
        (broadcastInDim S36x4 ![0, 1] bcast_S1x4_S36x4_0_1 (broadcastInDim S1x4 ![1] bcast_S4_S1x4_1 (iotaInDim S4 32 0))))
      (constantI S_ 32 0#32) reducesTo_S36x4_S36_d1 h_S_ := by
  host_step_k

end Cert.Kernel.Gen

end
-- ==== Proof.HostTilesK.lean ====
/-
  The wrapper's tile bookkeeping as words: the per-segment token counts, their round-up to multiples of 512, the
  running starts of the segments' padded runs, and the per-tile segment number the kernel's index maps read — each
  word is the corresponding natural number of the dispatch arithmetic.
-/
import proofs.«400824_j17051020165276_3_alg».proof.Proof.HostTilesEqK
import proofs.«400824_j17051020165276_3_alg».proof.Proof.HostStepK
import proofs.«400824_j17051020165276_3_alg».proof.Proof.HostSegK
import proofs.«400824_j17051020165276_3_alg».proof.Proof.Dispatch
import proofs.«400824_j17051020165276_3_alg».proof.Proof.LibWord
import proofs.«400824_j17051020165276_3_alg».proof.Proof.LibWindow
import Idealize.ShloMosaic.Lib.StableHlo.Predicate

noncomputable section

namespace Cert.Kernel.Gen

open Idealize.ShloMosaic Idealize.ShloMosaic.TcCoe Idealize.SL.Sem Idealize.ShloMosaic.StableHlo Idealize.ShloMosaic.StableHlo.Predicate
open Cert.Dispatch

variable {F : FTy → Type} [FloatOps F]
variable (m : (ℓ : Loc nD τ sig) → Buf (Elt F) ℓ)

/-! ## Sizes: the padded runs are short whatever the segment numbers are -/

theorem pc_small (σ : Fin 16384 → ℕ) (s : ℕ) : pc σ s ≤ 16895 := by
  have h1 := pc_le σ s
  have h2 : cnt σ s ≤ 16384 := cumTo_le σ 16384 s
  omega

theorem incl_small (σ : Fin 16384 → ℕ) (s : ℕ) (hs : s < 4) : incl σ s ≤ 67580 := by
  have p0 := pc_small σ 0
  have p1 := pc_small σ 1
  have p2 := pc_small σ 2
  have p3 := pc_small σ 3
  unfold incl
  interval_cases s <;> simp only [Finset.sum_range_succ, Finset.sum_range_zero, zero_add] <;> omega

theorem st_small (σ : Fin 16384 → ℕ) (s : ℕ) (hs : s < 4) : st σ s ≤ 67580 := by
  have h := incl_small σ s hs
  unfold st
  omega

/-! ## Small tools -/

/-- The floor division by 512 read at a position holding a non-negative word: the quotient of the value. -/
theorem fdiv512_apply (x : S4.Idx → BitVec 32) (i : S4.Idx) (hx : (x i).toNat < 2 ^ 31) :
    fdiv512 x i = BitVec.ofNat 32 ((x i).toNat / 512) := by
  show Scalar.select
      (IntOp.andi (IntOp.cmpi .ne (LibWord.sgn (x i)) (LibWord.sgn 512#32)) (IntOp.cmpi .ne (IntOp.remsi .host (x i) 512#32) 0#32))
      (IntOp.subi (IntOp.divsi .host (x i) 512#32) 1#32) (IntOp.divsi .host (x i) 512#32) = _
  exact LibWord.floorDiv512 (x i) hx

/-- A sum over the positions of a vector of four up to position s is the sum over 0 … s. -/
theorem sum_le_fin4 (f : ℕ → ℕ) (s : Fin 4) :
    ∑ p' ∈ Finset.univ.filter (fun p' : Fin 4 => p'.val ≤ s.val), f p'.val = ∑ s' ∈ Finset.range (s.val + 1), f s' := by
  rw [Finset.sum_filter, Fin.sum_univ_eq_sum_range (fun i => if i ≤ s.val then f i else 0) 4, ← Finset.sum_filter]
  congr 1
  ext i
  simp only [Finset.mem_filter, Finset.mem_range]
  have := s.isLt
  omega

/-- Two test bits, their conjunction widened, times a small number: the number when both tests hold, else zero. -/
theorem bits_mul (P Q : Prop) [Decidable P] [Decidable Q] (k : ℕ) :
    IntOp.muli ((IntOp.andi (if P then 1#1 else 0#1) (if Q then 1#1 else 0#1)).setWidth 32) (BitVec.ofNat 32 k)
      = BitVec.ofNat 32 ((if P ∧ Q then 1 else 0) * k) := by
  have e11 : (IntOp.andi 1#1 1#1).setWidth 32 = 1#32 := by decide
  have e10 : (IntOp.andi 1#1 0#1).setWidth 32 = 0#32 := by decide
  have e01 : (IntOp.andi 0#1 1#1).setWidth 32 = 0#32 := by decide
  have e00 : (IntOp.andi 0#1 0#1).setWidth 32 = 0#32 := by decide
  have hz : IntOp.muli 0#32 (BitVec.ofNat 32 k) = BitVec.ofNat 32 0 := BitVec.zero_mul
  have ho : IntOp.muli 1#32 (BitVec.ofNat 32 k) = BitVec.ofNat 32 k := BitVec.one_mul _
  by_cases hP : P
  · by_cases hQ : Q
    · rw [if_pos hP, if_pos hQ, if_pos ⟨hP, hQ⟩, Nat.one_mul, e11, ho]
    · rw [if_pos hP, if_neg hQ, if_neg (fun h => hQ h.2), Nat.zero_mul, e10, hz]
  · by_cases hQ : Q
    · rw [if_neg hP, if_pos hQ, if_neg (fun h => hP h.1), Nat.zero_mul, e01, hz]
    · rw [if_neg hP, if_neg hQ, if_neg (fun h => hP h.1), Nat.zero_mul, e00, hz]

/-! ## The counts -/

/-- The token count of segment s. -/
theorem cnt_word (c : Dev nD) (s : Fin 4) :
    (V m c main_v7 : S4.Idx → BitVec 32) (Shape.Idx.ofFin s) = BitVec.ofNat 32 (cnt (segN m c) s.val) := by
  have hc : cnt (segN m c) s.val ≤ 16384 := cumTo_le _ _ _
  apply BitVec.eq_of_toNat_eq
  rw [LibWord.toNat_ofNat_lt _ (by omega), e_v7 m c,
    toNat_reduce_count_rows (n := 16384) (m := 4) (by decide) _ natLt_1_32 reducesTo_S16384x4_S4_d0 h_S_]
  unfold cnt cumTo
  refine congrArg Finset.card (Finset.filter_congr ?_)
  intro p _
  -- the mask bit at (p, s): token p's word is the word of s
  show IntOp.cmpi .eq ((broadcastInDim S16384x4 ![0, 1] bcast_S16384x1_S16384x4_0_1 (broadcastInDim S16384x1 ![0] bcast_S16384_S16384x1_0 (segW m c))) (ij p s)) ((broadcastInDim S16384x4 ![0, 1] bcast_S1x4_S16384x4_0_1 (broadcastInDim S1x4 ![1] bcast_S4_S1x4_1 (iotaInDim S4 32 0))) (ij p s)) = 1#1 ↔ _
  rw [cmpi_eq_iff, bcast_rows, bcast_cols, iota_apply]
  unfold segN
  constructor
  · intro h
    refine ⟨p.isLt, ?_⟩
    rw [h]
    exact LibWord.toNat_ofNat_lt _ (by have := s.isLt; omega)
  · rintro ⟨_, h⟩
    rw [← h]
    exact LibWord.eq_ofNat_toNat _

/-- The count plus 511. -/
theorem x11_word (c : Dev nD) (s : Fin 4) :
    (subi (addi (V m c main_v7 : S4.Idx → BitVec 32) (broadcastInDim S4 ![] bcast_S_S4 (constantI S_ 32 512#32))) (broadcastInDim S4 ![] bcast_S_S4 (constantI S_ 32 1#32))) (Shape.Idx.ofFin s) = BitVec.ofNat 32 (cnt (segN m c) s.val + 511) := by
  have hc : cnt (segN m c) s.val ≤ 16384 := cumTo_le _ _ _
  show IntOp.subi (IntOp.addi ((V m c main_v7 : S4.Idx → BitVec 32) (Shape.Idx.ofFin s)) 512#32) 1#32 = _
  rw [cnt_word]
  show BitVec.ofNat 32 (cnt (segN m c) s.val) + BitVec.ofNat 32 512 - BitVec.ofNat 32 1 = _
  rw [LibWord.ofNat_add, LibWord.ofNat_sub _ _ (by omega) (by omega)]
  congr 1

/-! ## The padded counts, the starts -/

/-- The padded token count of segment `s`. -/
theorem pc_word (c : Dev nD) (s : Fin 4) :
    (V m c main_v14 : S4.Idx → BitVec 32) (Shape.Idx.ofFin s) = BitVec.ofNat 32 (pc (segN m c) s.val) := by
  have hc : cnt (segN m c) s.val ≤ 16384 := cumTo_le _ _ _
  rw [e_v14 m c]
  show IntOp.muli (fdiv512 (subi (addi (V m c main_v7 : S4.Idx → BitVec 32) (broadcastInDim S4 ![] bcast_S_S4 (constantI S_ 32 512#32))) (broadcastInDim S4 ![] bcast_S_S4 (constantI S_ 32 1#32))) (Shape.Idx.ofFin s)) 512#32 = _
  rw [fdiv512_apply _ _ (by rw [x11_word, LibWord.toNat_ofNat_lt _ (by omega)]; omega), x11_word,
    LibWord.toNat_ofNat_lt _ (by omega)]
  show BitVec.ofNat 32 ((cnt (segN m c) s.val + 511) / 512) * BitVec.ofNat 32 512 = _
  rw [LibWord.ofNat_mul]
  rfl

/-- The running sum of the padded counts at segment s: the padded runs of segments 0 … s together. -/
theorem incl_word (c : Dev nD) (s : Fin 4) :
    (Host.reduceWindow IntOp.addi ![4] ![1] ![3] ![0] (V m c main_v14 : S4.Idx → BitVec 32) (broadcastInDim S_ ![] bcast_S_S_ (constantI S_ 32 0#32)) reduceWindows_S4_S4_w4s1p3_0 h_S_) (Shape.Idx.ofFin s) = BitVec.ofNat 32 (incl (segN m c) s.val) := by
  have hsum : ∑ p' ∈ Finset.univ.filter (fun p' : Fin 4 => p'.val ≤ s.val), ((V m c main_v14 : S4.Idx → BitVec 32) (Shape.Idx.ofFin p')).toNat
      = incl (segN m c) s.val := by
    unfold incl
    rw [← sum_le_fin4 (pc (segN m c)) s]
    apply Finset.sum_congr rfl
    intro p' _
    rw [pc_word, LibWord.toNat_ofNat_lt _ (by have := pc_small (segN m c) p'.val; omega)]
  have hlt := incl_small (segN m c) s.val s.isLt
  have hinit : broadcastInDim S_ ![] bcast_S_S_ (constantI S_ 32 0#32) = constantI S_ 32 0#32 := rfl
  apply BitVec.eq_of_toNat_eq
  rw [LibWord.toNat_ofNat_lt _ (by omega), hinit]
  exact (LibWindow.toNat_cumsum_vec (n := 3) (V m c main_v14 : S4.Idx → BitVec 32) h_S_ reduceWindows_S4_S4_w4s1p3_0 s (by rw [hsum]; omega)).trans hsum

/-- The start row of segment `s`'s padded run. -/
theorem st_word (c : Dev nD) (s : Fin 4) :
    (V m c main_v16 : S4.Idx → BitVec 32) (Shape.Idx.ofFin s) = BitVec.ofNat 32 (st (segN m c) s.val) := by
  have hlt := incl_small (segN m c) s.val s.isLt
  rw [e_v16 m c]
  show IntOp.subi ((Host.reduceWindow IntOp.addi ![4] ![1] ![3] ![0] (V m c main_v14 : S4.Idx → BitVec 32) (broadcastInDim S_ ![] bcast_S_S_ (constantI S_ 32 0#32)) reduceWindows_S4_S4_w4s1p3_0 h_S_) (Shape.Idx.ofFin s)) ((V m c main_v14 : S4.Idx → BitVec 32) (Shape.Idx.ofFin s)) = _
  rw [incl_word, pc_word]
  show BitVec.ofNat 32 (incl (segN m c) s.val) - BitVec.ofNat 32 (pc (segN m c) s.val) = _
  rw [LibWord.ofNat_sub _ _ (pc_le_incl _ _) (by omega)]
  rfl

/-! ## The tile table -/

/-- The length of segment s's run in tiles. -/
theorem v41_word (c : Dev nD) (s : Fin 4) :
    (V m c main_v41 : S4.Idx → BitVec 32) (Shape.Idx.ofFin s) = BitVec.ofNat 32 (pc (segN m c) s.val / 512) := by
  have hp := pc_small (segN m c) s.val
  rw [e_v41 m c, fdiv512_apply _ _ (by rw [pc_word, LibWord.toNat_ofNat_lt _ (by omega)]; omega), pc_word,
    LibWord.toNat_ofNat_lt _ (by omega)]

/-- The first tile of segment s's run. -/
theorem v42_word (c : Dev nD) (s : Fin 4) :
    (V m c main_v42 : S4.Idx → BitVec 32) (Shape.Idx.ofFin s) = BitVec.ofNat 32 (st (segN m c) s.val / 512) := by
  have hp := st_small (segN m c) s.val s.isLt
  rw [e_v42 m c, fdiv512_apply _ _ (by rw [st_word, LibWord.toNat_ofNat_lt _ (by omega)]; omega), st_word,
    LibWord.toNat_ofNat_lt _ (by omega)]

/-- The summand of the tile table at tile i and segment s: "i lies in s's run", widened, times s. -/
abbrev tileX (c : Dev nD) : S36x4.Idx → BitVec 32 :=
  muli
    (extui 32
      (andi
        (cmpi .sge (broadcastInDim S36x4 ![0, 1] bcast_S36x1_S36x4_0_1 (broadcastInDim S36x1 ![0] bcast_S36_S36x1_0 (iotaInDim S36 32 0))) (broadcastInDim S36x4 ![0, 1] bcast_S1x4_S36x4_0_1 (broadcastInDim S1x4 ![1] bcast_S4_S1x4_1 (V m c main_v42 : S4.Idx → BitVec 32))))
        (cmpi .slt (broadcastInDim S36x4 ![0, 1] bcast_S36x1_S36x4_0_1 (broadcastInDim S36x1 ![0] bcast_S36_S36x1_0 (iotaInDim S36 32 0))) (broadcastInDim S36x4 ![0, 1] bcast_S1x4_S36x4_0_1 (broadcastInDim S1x4 ![1] bcast_S4_S1x4_1 (addi (V m c main_v42 : S4.Idx → BitVec 32) (V m c main_v41 : S4.Idx → BitVec 32))))))
      natLt_1_32)
    (broadcastInDim S36x4 ![0, 1] bcast_S1x4_S36x4_0_1 (broadcastInDim S1x4 ![1] bcast_S4_S1x4_1 (iotaInDim S4 32 0)))

theorem e_v60' (c : Dev nD) : (V m c main_v60 : S36.Idx → BitVec 32) = Host.reduce IntOp.addi (tileX m c) (constantI S_ 32 0#32) reducesTo_S36x4_S36_d1 h_S_ :=
  e_v60 m c

theorem tileX_apply (c : Dev nD) (i : Fin 36) (q : Fin 4) :
    tileX m c (ij i q) = BitVec.ofNat 32
      ((if st (segN m c) q.val / 512 ≤ i.val ∧ i.val < st (segN m c) q.val / 512 + pc (segN m c) q.val / 512 then 1 else 0) * q.val) := by
  have hp := pc_small (segN m c) q.val
  have hs := st_small (segN m c) q.val q.isLt
  have hi := i.isLt
  show IntOp.muli
      ((IntOp.andi (IntOp.cmpi .sge ((broadcastInDim S36x4 ![0, 1] bcast_S36x1_S36x4_0_1 (broadcastInDim S36x1 ![0] bcast_S36_S36x1_0 (iotaInDim S36 32 0))) (ij i q)) ((broadcastInDim S36x4 ![0, 1] bcast_S1x4_S36x4_0_1 (broadcastInDim S1x4 ![1] bcast_S4_S1x4_1 (V m c main_v42 : S4.Idx → BitVec 32))) (ij i q)))
        (IntOp.cmpi .slt ((broadcastInDim S36x4 ![0, 1] bcast_S36x1_S36x4_0_1 (broadcastInDim S36x1 ![0] bcast_S36_S36x1_0 (iotaInDim S36 32 0))) (ij i q)) ((broadcastInDim S36x4 ![0, 1] bcast_S1x4_S36x4_0_1 (broadcastInDim S1x4 ![1] bcast_S4_S1x4_1 (addi (V m c main_v42 : S4.Idx → BitVec 32) (V m c main_v41 : S4.Idx → BitVec 32)))) (ij i q)))).setWidth 32)
      ((broadcastInDim S36x4 ![0, 1] bcast_S1x4_S36x4_0_1 (broadcastInDim S1x4 ![1] bcast_S4_S1x4_1 (iotaInDim S4 32 0))) (ij i q)) = _
  rw [bcast_rows, bcast_cols, bcast_cols, bcast_cols, iota_apply, iota_apply]
  show IntOp.muli
      ((IntOp.andi (IntOp.cmpi .sge (BitVec.ofNat 32 i.val) ((V m c main_v42 : S4.Idx → BitVec 32) (Shape.Idx.ofFin q)))
        (IntOp.cmpi .slt (BitVec.ofNat 32 i.val) (IntOp.addi ((V m c main_v42 : S4.Idx → BitVec 32) (Shape.Idx.ofFin q)) ((V m c main_v41 : S4.Idx → BitVec 32) (Shape.Idx.ofFin q))))).setWidth 32)
      (BitVec.ofNat 32 q.val) = _
  have hadd : IntOp.addi (BitVec.ofNat 32 (st (segN m c) q.val / 512)) (BitVec.ofNat 32 (pc (segN m c) q.val / 512))
      = BitVec.ofNat 32 (st (segN m c) q.val / 512 + pc (segN m c) q.val / 512) := LibWord.ofNat_add _ _
  rw [v42_word, v41_word, hadd,
    LibWord.cmpi_sge_ofNat _ _ (by omega) (by omega), LibWord.cmpi_slt_ofNat _ _ (by omega) (by omega)]
  exact bits_mul _ _ _

/-- The segment number of tile `i`, the table the kernel's index maps read. -/
theorem gid_word (c : Dev nD) (i : Fin 36) :
    (V m c main_v60 : S36.Idx → BitVec 32) (Shape.Idx.ofFin i) = BitVec.ofNat 32 (gid (segN m c) i.val) := by
  have hg := gid_lt (segN m c) i.val
  have hsum : ∑ q : Fin 4, (tileX m c (ij i q)).toNat = gid (segN m c) i.val := by
    unfold gid
    rw [← Fin.sum_univ_eq_sum_range (fun s => (if st (segN m c) s / 512 ≤ i.val ∧ i.val < st (segN m c) s / 512 + pc (segN m c) s / 512 then 1 else 0) * s) 4]
    apply Finset.sum_congr rfl
    intro q _
    rw [tileX_apply]
    apply LibWord.toNat_ofNat_lt
    have := q.isLt
    split_ifs <;> omega
  apply BitVec.eq_of_toNat_eq
  rw [LibWord.toNat_ofNat_lt _ (by omega), e_v60' m c]
  exact (LibWindow.toNat_reduce_add_cols (tileX m c) reducesTo_S36x4_S36_d1 h_S_ i (by rw [hsum]; omega)).trans hsum

end Cert.Kernel.Gen

end
-- ==== Proof.OkWordsK.lean ====
/-
  THE PIPELINE'S SIDE CONDITION FROM THE TABLE'S RANGE. Windows 1 and 2 take their block from the prefetched table:
  the index map returns (w, 0, 0) with w one word of the table, read unsigned. If every word of the table is below 4,
  the block (w, 0, 0) of extents [1, 1024, 2048] (resp. [1, 1024, 1024]) lies inside the array [4, 1024, 2048]
  (resp. [4, 1024, 1024]): (w + 1) * 1 ≤ 4, (0 + 1) * 1024 ≤ 1024, (0 + 1) * 2048 ≤ 2048. The element type has 16 bits,
  two to a word; the block's extent along the last axis (2048 resp. 1024) is a multiple of 2, so every transfer is
  of whole words.
-/
import proofs.«400824_j17051020165276_3_alg».proof.Proof.Gen.Kernel.Frame

set_option maxRecDepth 16384

noncomputable section

namespace Cert.Kernel.Gen

open Idealize.ShloMosaic Idealize.ShloMosaic.TcCoe Idealize.SL.Sem

variable {F : FTy → Type} [FloatOps F]
variable (m : (ℓ : Loc nD τ sig) → Buf (Elt F) ℓ)

/-- The side condition holds when every word of the table is below 4. -/
theorem ok_of_words (hw : ∀ x : S36.Idx, ((tbl m 0 : S36.Idx → BitVec 32) x).toNat < 4) : Ok m := by
  refine ⟨fun i => ?_, fun i => ?_⟩
  · -- window 1: whichever position of the table the map reads, the word there is below 4
    obtain ⟨w, hw', e⟩ : ∃ w : BitVec 32, w.toNat < 4 ∧
        cc0_transform_1 k0_off1_inb numel1_S1 (tbl m) i = ![w.toNat, 0, 0] := ⟨_, hw _, rfl⟩
    refine ⟨fun a => ?_, .inr (Affine.block_words_dvd (of_decide_eq_true rfl) (by decide))⟩
    rw [e]
    fin_cases a <;> simp [S1x1024x2048, S4x1024x2048] <;> omega
  · -- window 2: the same word, the narrower array
    obtain ⟨w, hw', e⟩ : ∃ w : BitVec 32, w.toNat < 4 ∧
        cc0_transform_2 k0_off1_inb numel1_S1 (tbl m) i = ![w.toNat, 0, 0] := ⟨_, hw _, rfl⟩
    refine ⟨fun a => ?_, .inr (Affine.block_words_dvd (of_decide_eq_true rfl) (by decide))⟩
    rw [e]
    fin_cases a <;> simp [S1x1024x1024, S4x1024x1024] <;> omega

end Cert.Kernel.Gen

end
-- ==== Proof.BridgeK.lean ====
/-
  The tile table of the word-level program holds segment numbers whatever the tokens' segment words are, so the
  pipeline's side condition holds of every launch memory.
-/
import proofs.«400824_j17051020165276_3_alg».proof.Proof.HostTilesK
import proofs.«400824_j17051020165276_3_alg».proof.Proof.OkWordsK

noncomputable section

namespace Cert.Kernel.Gen

open Idealize.ShloMosaic Idealize.ShloMosaic.TcCoe Idealize.SL.Sem
open Cert.Dispatch

variable {F : FTy → Type} [FloatOps F]

/-- Every tile's table word is the sum over the segments of "the tile lies in the segment's run" times the segment
    number; the runs are disjoint, so the word is below four and each table-indexed block lies inside its array. -/
theorem ok_all (m : (ℓ : Loc nD τ sig) → Buf (Elt F) ℓ) : Ok m := by
  refine ok_of_words m fun x => ?_
  rw [Shape.Idx.eq_ofFin x]
  show ((V m 0 main_v60 : S36.Idx → BitVec 32) (Shape.Idx.ofFin (x 0))).toNat < 4
  rw [gid_word m 0 (x 0), BitVec.toNat_ofNat]
  exact lt_of_le_of_lt (Nat.mod_le _ _) (gid_lt _ _)

end Cert.Kernel.Gen

end
-- ==== Proof.lean ====
/-
  A grouped (mixture-of-segments) gated feed-forward layer.  Each of 16384 tokens carries a segment number in
  0 … 3; the reference computes, for every token, the gated feed-forward block of each of the four segments and
  keeps the token's own (the others are masked to zero before the four are added); the kernel's wrapper instead
  sends the tokens, segment by segment, to rows of a padded buffer (each segment's run rounded up to whole tiles of
  512 rows), lets the kernel apply to every tile the weights of the tile's segment, and gathers the rows back.

  Over the extended reals both programs give, at token n and output column j,
      Σ_h (a_h · logistic a_h · b_h) · down[s, h, j],  a_h = Σ_k x[n, k] · gate[s, k, h],  b_h = Σ_k x[n, k] · up[s, k, h],
  with s the token's segment: on the reference's side the three masked-out terms are zeros added to it; on the
  kernel's side the row the token was sent to is read back, the sends being one-to-one and the tile of that row
  carrying the token's segment number.  The precondition asks that the float inputs are finite (not used) and that
  every segment number is in 0 … 3: outside that range the two programs differ.

  The frames: the tile table the kernel's index maps read holds segment numbers for every input, so the pipeline's
  blocks stay inside the weight arrays; the reference's frame is its run with the result dropped.
-/
import proofs.«400824_j17051020165276_3_alg».proof.Defs
import proofs.«400824_j17051020165276_3_alg».proof.Proof.Gen.Kernel
import proofs.«400824_j17051020165276_3_alg».proof.Proof.Gen.Kernel.Skeleton
import proofs.«400824_j17051020165276_3_alg».proof.Proof.Gen.Kernel.Launch
import proofs.«400824_j17051020165276_3_alg».proof.Proof.Gen.Kernel.Points
import proofs.«400824_j17051020165276_3_alg».proof.Proof.Gen.Kernel.Frame
import proofs.«400824_j17051020165276_3_alg».proof.Proof.Gen.KernelIdeal
import proofs.«400824_j17051020165276_3_alg».proof.Proof.Gen.KernelIdeal.Skeleton
import proofs.«400824_j17051020165276_3_alg».proof.Proof.Gen.KernelIdeal.Launch
import proofs.«400824_j17051020165276_3_alg».proof.Proof.Gen.KernelIdeal.Points
import proofs.«400824_j17051020165276_3_alg».proof.Proof.Gen.KernelIdeal.Frame
import proofs.«400824_j17051020165276_3_alg».proof.Proof.Gen.ReferenceIdeal
import proofs.«400824_j17051020165276_3_alg».proof.Proof.Gen.Pre_finite_inputs
import proofs.«400824_j17051020165276_3_alg».proof.Proof.RefImports
import proofs.«400824_j17051020165276_3_alg».proof.Proof.RefValue
import proofs.«400824_j17051020165276_3_alg».proof.Proof.PreSeg
import proofs.«400824_j17051020165276_3_alg».proof.Proof.Bridge
import proofs.«400824_j17051020165276_3_alg».proof.Proof.BridgeK
import Idealize.ShloMosaic.Adequacy
import Idealize.ShloMosaic.Init

noncomputable section

namespace Cert.Proof

open Idealize.ShloMosaic Idealize.SL.Sem Idealize.ShloMosaic.TcCoe
open Idealize.ShloMosaic.StableHlo.Predicate Idealize.ShloMosaic.ValueIdx

/-- The word-level kernel runs and keeps its arguments: the tile table holds segment numbers. -/
theorem frame_kernel : Cert.frame_Kernel := fun m ρ _ => Cert.Kernel.Gen.frame m ρ (Cert.Kernel.Gen.ok_all m)

/-- So does the idealized kernel. -/
theorem frame_kernelIdeal : Cert.frame_KernelIdeal := fun m ρ _ => Cert.KernelIdeal.Gen.frame m ρ (Cert.KernelIdeal.Gen.ok_all m)

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with token n's row at the gated feed-forward block of token n's segment. -/
theorem algebraic : Cert.algebraic_KernelIdeal_ReferenceIdeal := by
  intro m ρ m' ρ' hpre hagree
  have hO : Cert.KernelIdeal.Gen.Ok m := Cert.KernelIdeal.Gen.ok_all m
  have hseg : ∀ c n, Cert.KernelIdeal.Gen.segN m c n < 4 := fun c n =>
    Cert.PreSeg.seg_lt_of_pre _ _ _ _ _ (hpre c) n
  refine ⟨fun c => Pipeline.afterTail Cert.KernelIdeal.pcfgs (fun _ => Cert.KernelIdeal.Gen.adm m hO) (Cert.KernelIdeal.Gen.dats m hO) 0
      (Cert.KernelIdeal.Gen.V0 m) [Cert.KernelIdeal.Gen.hostOps1] c Cert.KernelIdeal.main_v73, ?_, ?_⟩
  · exact (θ_run Cert.KernelIdeal.defs _ _).mono (fun r h c =>
      ⟨(h c).2 Cert.KernelIdeal.main_v73 (by decide : Cert.KernelIdeal.main_v73 ∈ Pipeline.restRefs Cert.KernelIdeal.sig Cert.KernelIdeal.spec0),
       ((h c).2 Cert.KernelIdeal.main_arg0 (by decide : Cert.KernelIdeal.main_arg0 ∈ Pipeline.restRefs Cert.KernelIdeal.sig Cert.KernelIdeal.spec0)).trans (Cert.KernelIdeal.Gen.W_main_arg0 m hO _ c),
       ((h c).2 Cert.KernelIdeal.main_arg1 (by decide : Cert.KernelIdeal.main_arg1 ∈ Pipeline.restRefs Cert.KernelIdeal.sig Cert.KernelIdeal.spec0)).trans (Cert.KernelIdeal.Gen.W_main_arg1 m hO _ c),
       ((h c).2 Cert.KernelIdeal.main_arg2 (by decide : Cert.KernelIdeal.main_arg2 ∈ Pipeline.restRefs Cert.KernelIdeal.sig Cert.KernelIdeal.spec0)).trans (Cert.KernelIdeal.Gen.W_main_arg2 m hO _ c),
       ((h c).2 Cert.KernelIdeal.main_arg3 (by decide : Cert.KernelIdeal.main_arg3 ∈ Pipeline.restRefs Cert.KernelIdeal.sig Cert.KernelIdeal.spec0)).trans (Cert.KernelIdeal.Gen.W_main_arg3 m hO _ c),
       ((h c).2 Cert.KernelIdeal.main_arg4 (by decide : Cert.KernelIdeal.main_arg4 ∈ Pipeline.restRefs Cert.KernelIdeal.sig Cert.KernelIdeal.spec0)).trans (Cert.KernelIdeal.Gen.W_main_arg4 m hO _ c)⟩)
      (Cert.KernelIdeal.Gen.run_main m ρ hO)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v64_eq, (hagree c).1, (hagree c).2.1, (hagree c).2.2.1, (hagree c).2.2.2.1, (hagree c).2.2.2.2]
    funext i
    rw [← ij_eta i]
    refine Eq.trans ?_ (Cert.KernelIdeal.Gen.kernel_value m hO c (hseg c) (i 0) (i 1)).symm
    rw [Cert.KernelIdeal.Gen.ij_eq_ix2]
    exact Cert.ReferenceIdeal.RefValue.ref_apply _ _ _ _ _ (i 0) (i 1) ⟨Cert.KernelIdeal.Gen.segN m c (i 0), hseg c (i 0)⟩
      (Cert.KernelIdeal.Gen.segW_eq m c (i 0))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
